-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v33_0)) (v2 : (c : Dev Cert.KernelIdeal.nD) → Buf (Elt Ideal) ((c.tc : Thread Cert.KernelIdeal.nD Cert.KernelIdeal.τ).loc Cert.KernelIdeal.main_v33_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v33_0) = v1 c
          ∧ r.2.mem ((c.tc : Thread Cert.KernelIdeal.nD Cert.KernelIdeal.τ).loc Cert.KernelIdeal.main_v33_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x2048 : Shape := ⟨2, ![8192, 2048]⟩
abbrev S50257x1024 : Shape := ⟨2, ![50257, 1024]⟩
abbrev S2048x1024 : Shape := ⟨2, ![2048, 1024]⟩
abbrev S2048 : Shape := ⟨1, ![2048]⟩
abbrev S2048x2048 : Shape := ⟨2, ![2048, 2048]⟩
abbrev S2x2048 : Shape := ⟨2, ![2, 2048]⟩
abbrev S2 : Shape := ⟨1, ![2]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2x2048 : S_.BroadcastsInDim S2x2048 (![] : Fin 0 → Fin S2x2048.rank)
  reducesTo_S2x2048_S_d0_1 : S2x2048.ReducesTo [0, 1] S_
  bcast_S_S2 : S_.BroadcastsInDim S2 (![] : Fin 0 → Fin S2.rank)
  reducesTo_S2_S_d0 : S2.ReducesTo [0] S_
  bcast_S_S8192 : S_.BroadcastsInDim S8192 (![] : Fin 0 → Fin S8192.rank)
  reducesTo_S8192_S_d0 : S8192.ReducesTo [0] S_

variable [Facts]

def fn_part7 {F : FTy → Type} [FloatOps F] (main_arg0 : IVec S8192 32) (main_v118 : IVec S_ 1) (main_v119 : FVec F S2 .f32) : IVec S_ 1 :=
  let main_cst_46 : FVec F S_ .f32 := constant S_ .f32 0x7F800000#32
  let main_v120 : FVec F S2 .f32 := broadcastInDim S2 ![] bcast_S_S2 main_cst_46
  let main_v121 : IVec S2 1 := cmpf .olt main_v119 main_v120
  let main_c_47 : IVec S_ 1 := constantI S_ 1 1#1
  let main_v122 : IVec S_ 1 := (fun x v => Host.reduce IntOp.andi x v reducesTo_S2_S_d0 h_S_) main_v121 main_c_47
  let main_v123 : IVec S_ 1 := andi main_v118 main_v122
  let main_c_48 : IVec S_ 32 := constantI S_ 32 4294917039#32
  let main_v124 : IVec S8192 32 := broadcastInDim S8192 ![] bcast_S_S8192 main_c_48
  let main_v125 : IVec S8192 1 := cmpi .sge main_arg0 main_v124
  let main_c_49 : IVec S_ 32 := constantI S_ 32 50257#32
  let main_v126 : IVec S8192 32 := broadcastInDim S8192 ![] bcast_S_S8192 main_c_49
  let main_v127 : IVec S8192 1 := cmpi .slt main_arg0 main_v126
  let main_v128 : IVec S8192 1 := andi main_v125 main_v127
  let main_c_50 : IVec S_ 1 := constantI S_ 1 1#1
  let main_v129 : IVec S_ 1 := (fun x v => Host.reduce IntOp.andi x v reducesTo_S8192_S_d0 h_S_) main_v128 main_c_50
  let main_v130 : IVec S_ 1 := andi main_v123 main_v129
  main_v130

def fn_part6 {F : FTy → Type} [FloatOps F] (main_arg0 : IVec S8192 32) (main_arg22 : FVec F S2048x2048 .f32) (main_arg23 : FVec F S2048 .f32) (main_arg24 : FVec F S2x2048 .f32) (main_arg25 : FVec F S2 .f32) (main_v98 : IVec S_ 1) (main_v101 : IVec S2048 1) (main_c_39 : IVec S_ 1) : IVec S_ 1 :=
  let main_v102 : IVec S_ 1 := (fun x v => Host.reduce IntOp.andi x v reducesTo_S2048_S_d0 h_S_) main_v101 main_c_39
  let main_v103 : IVec S_ 1 := andi main_v98 main_v102
  let main_v104 : FVec F S2048x2048 .f32 := Host.absf main_arg22
  let main_cst_40 : FVec F S_ .f32 := constant S_ .f32 0x7F800000#32
  let main_v105 : FVec F S2048x2048 .f32 := broadcastInDim S2048x2048 ![] bcast_S_S2048x2048 main_cst_40
  let main_v106 : IVec S2048x2048 1 := cmpf .olt main_v104 main_v105
  let main_c_41 : IVec S_ 1 := constantI S_ 1 1#1
  let main_v107 : IVec S_ 1 := (fun x v => Host.reduce IntOp.andi x v reducesTo_S2048x2048_S_d0_1 h_S_) main_v106 main_c_41
  let main_v108 : IVec S_ 1 := andi main_v103 main_v107
  let main_v109 : FVec F S2048 .f32 := Host.absf main_arg23
  let main_cst_42 : FVec F S_ .f32 := constant S_ .f32 0x7F800000#32
  let main_v110 : FVec F S2048 .f32 := broadcastInDim S2048 ![] bcast_S_S2048 main_cst_42
  let main_v111 : IVec S2048 1 := cmpf .olt main_v109 main_v110
  let main_c_43 : IVec S_ 1 := constantI S_ 1 1#1
  let main_v112 : IVec S_ 1 := (fun x v => Host.reduce IntOp.andi x v reducesTo_S2048_S_d0 h_S_) main_v111 main_c_43
  let main_v113 : IVec S_ 1 := andi main_v108 main_v112
  let main_v114 : FVec F S2x2048 .f32 := Host.absf main_arg24
  let main_cst_44 : FVec F S_ .f32 := constant S_ .f32 0x7F800000#32
  let main_v115 : FVec F S2x2048 .f32 := broadcastInDim S2x2048 ![] bcast_S_S2x2048 main_cst_44
  let main_v116 : IVec S2x2048 1 := cmpf .olt main_v114 main_v115
  let main_c_45 : IVec S_ 1 := constantI S_ 1 1#1
  let main_v117 : IVec S_ 1 := (fun x v => Host.reduce IntOp.andi x v reducesTo_S2x2048_S_d0_1 h_S_) main_v116 main_c_45
  let main_v118 : IVec S_ 1 := andi main_v113 main_v117
  let main_v119 : FVec F S2 .f32 := Host.absf main_arg25
  fn_part7 (F := F) main_arg0 main_v118 main_v119

def fn_part5 {F : FTy → Type} [FloatOps F] (main_arg0 : IVec S8192 32) (main_arg19 : FVec F S2048 .f32) (main_arg20 : FVec F S2048x1024 .f32) (main_arg21 : FVec F S2048 .f32) (main_arg22 : FVec F S2048x2048 .f32) (main_arg23 : FVec F S2048 .f32) (main_arg24 : FVec F S2x2048 .f32) (main_arg25 : FVec F S2 .f32) (main_v83 : IVec S_ 1) (main_v84 : FVec F S2048x2048 .f32) (main_cst_32 : FVec F S_ .f32) : IVec S_ 1 :=
  let main_v85 : FVec F S2048x2048 .f32 := broadcastInDim S2048x2048 ![] bcast_S_S2048x2048 main_cst_32
  let main_v86 : IVec S2048x2048 1 := cmpf .olt main_v84 main_v85
  let main_c_33 : IVec S_ 1 := constantI S_ 1 1#1
  let main_v87 : IVec S_ 1 := (fun x v => Host.reduce IntOp.andi x v reducesTo_S2048x2048_S_d0_1 h_S_) main_v86 main_c_33
  let main_v88 : IVec S_ 1 := andi main_v83 main_v87
  let main_v89 : FVec F S2048 .f32 := Host.absf main_arg19
  let main_cst_34 : FVec F S_ .f32 := constant S_ .f32 0x7F800000#32
  let main_v90 : FVec F S2048 .f32 := broadcastInDim S2048 ![] bcast_S_S2048 main_cst_34
  let main_v91 : IVec S2048 1 := cmpf .olt main_v89 main_v90
  let main_c_35 : IVec S_ 1 := constantI S_ 1 1#1
  let main_v92 : IVec S_ 1 := (fun x v => Host.reduce IntOp.andi x v reducesTo_S2048_S_d0 h_S_) main_v91 main_c_35
  let main_v93 : IVec S_ 1 := andi main_v88 main_v92
  let main_v94 : FVec F S2048x1024 .f32 := Host.absf main_arg20
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  let main_v99 : FVec F S2048 .f32 := Host.absf main_arg21
  let main_cst_38 : FVec F S_ .f32 := constant S_ .f32 0x7F800000#32
  let main_v100 : FVec F S2048 .f32 := broadcastInDim S2048 ![] bcast_S_S2048 main_cst_38
  let main_v101 : IVec S2048 1 := cmpf .olt main_v99 main_v100
  let main_c_39 : IVec S_ 1 := constantI S_ 1 1#1
  fn_part6 (F := F) main_arg0 main_arg22 main_arg23 main_arg24 main_arg25 main_v98 main_v101 main_c_39

def fn_part4 {F : FTy → Type} [FloatOps F] (main_arg0 : IVec S8192 32) (main_arg15 : FVec F S2048 .f32) (main_arg16 : FVec F S2048x1024 .f32) (main_arg17 : FVec F S2048 .f32) (main_arg18 : FVec F S2048x2048 .f32) (main_arg19 : FVec F S2048 .f32) (main_arg20 : FVec F S2048x1024 .f32) (main_arg21 : FVec F S2048 .f32) (main_arg22 : FVec F S2048x2048 .f32) (main_arg23 : FVec F S2048 .f32) (main_arg24 : FVec F S2x2048 .f32) (main_arg25 : FVec F S2 .f32) (main_v63 : IVec S_ 1) (main_v67 : IVec S_ 1) : IVec S_ 1 :=
  let main_v68 : IVec S_ 1 := andi main_v63 main_v67
  let main_v69 : FVec F S2048 .f32 := Host.absf main_arg15
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048x1024 .f32 := Host.absf main_arg16
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S2048 .f32 := Host.absf main_arg17
  let main_cst_30 : FVec F S_ .f32 := constant S_ .f32 0x7F800000#32
  let main_v80 : FVec F S2048 .f32 := broadcastInDim S2048 ![] bcast_S_S2048 main_cst_30
  let main_v81 : IVec S2048 1 := cmpf .olt main_v79 main_v80
  let main_c_31 : IVec S_ 1 := constantI S_ 1 1#1
  let main_v82 : IVec S_ 1 := (fun x v => Host.reduce IntOp.andi x v reducesTo_S2048_S_d0 h_S_) main_v81 main_c_31
  let main_v83 : IVec S_ 1 := andi main_v78 main_v82
  let main_v84 : FVec F S2048x2048 .f32 := Host.absf main_arg18
  let main_cst_32 : FVec F S_ .f32 := constant S_ .f32 0x7F800000#32
  fn_part5 (F := F) main_arg0 main_arg19 main_arg20 main_arg21 main_arg22 main_arg23 main_arg24 main_arg25 main_v83 main_v84 main_cst_32

def fn_part3 {F : FTy → Type} [FloatOps F] (main_arg0 : IVec S8192 32) (main_arg12 : FVec F S2048x1024 .f32) (main_arg13 : FVec F S2048 .f32) (main_arg14 : FVec F S2048x2048 .f32) (main_arg15 : FVec F S2048 .f32) (main_arg16 : FVec F S2048x1024 .f32) (main_arg17 : FVec F S2048 .f32) (main_arg18 : FVec F S2048x2048 .f32) (main_arg19 : FVec F S2048 .f32) (main_arg20 : FVec F S2048x1024 .f32) (main_arg21 : FVec F S2048 .f32) (main_arg22 : FVec F S2048x2048 .f32) (main_arg23 : FVec F S2048 .f32) (main_arg24 : FVec F S2x2048 .f32) (main_arg25 : FVec F S2 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x1024 .f32 := Host.absf main_arg12
  let main_cst_20 : FVec F S_ .f32 := constant S_ .f32 0x7F800000#32
  let main_v55 : FVec F S2048x1024 .f32 := broadcastInDim S2048x1024 ![] bcast_S_S2048x1024 main_cst_20
  let main_v56 : IVec S2048x1024 1 := cmpf .olt main_v54 main_v55
  let main_c_21 : IVec S_ 1 := constantI S_ 1 1#1
  let main_v57 : IVec S_ 1 := (fun x v => Host.reduce IntOp.andi x v reducesTo_S2048x1024_S_d0_1 h_S_) main_v56 main_c_21
  let main_v58 : IVec S_ 1 := andi main_v53 main_v57
  let main_v59 : FVec F S2048 .f32 := Host.absf main_arg13
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048x2048 .f32 := Host.absf main_arg14
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg0 main_arg15 main_arg16 main_arg17 main_arg18 main_arg19 main_arg20 main_arg21 main_arg22 main_arg23 main_arg24 main_arg25 main_v63 main_v67

def fn_part2 {F : FTy → Type} [FloatOps F] (main_arg0 : IVec S8192 32) (main_arg8 : FVec F S2048x1024 .f32) (main_arg9 : FVec F S2048 .f32) (main_arg10 : FVec F S2048x2048 .f32) (main_arg11 : FVec F S2048 .f32) (main_arg12 : FVec F S2048x1024 .f32) (main_arg13 : FVec F S2048 .f32) (main_arg14 : FVec F S2048x2048 .f32) (main_arg15 : FVec F S2048 .f32) (main_arg16 : FVec F S2048x1024 .f32) (main_arg17 : FVec F S2048 .f32) (main_arg18 : FVec F S2048x2048 .f32) (main_arg19 : FVec F S2048 .f32) (main_arg20 : FVec F S2048x1024 .f32) (main_arg21 : FVec F S2048 .f32) (main_arg22 : FVec F S2048x2048 .f32) (main_arg23 : FVec F S2048 .f32) (main_arg24 : FVec F S2x2048 .f32) (main_arg25 : FVec F S2 .f32) (main_v33 : IVec S_ 1) : IVec S_ 1 :=
  let main_v34 : FVec F S2048x1024 .f32 := Host.absf main_arg8
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S2048 .f32 := Host.absf main_arg9
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg10
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg11
  let main_cst_18 : FVec F S_ .f32 := constant S_ .f32 0x7F800000#32
  let main_v50 : FVec F S2048 .f32 := broadcastInDim S2048 ![] bcast_S_S2048 main_cst_18
  fn_part3 (F := F) main_arg0 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg0 : IVec S8192 32) (main_arg5 : FVec F S2048 .f32) (main_arg6 : FVec F S2048x2048 .f32) (main_arg7 : FVec F S2048 .f32) (main_arg8 : FVec F S2048x1024 .f32) (main_arg9 : FVec F S2048 .f32) (main_arg10 : FVec F S2048x2048 .f32) (main_arg11 : FVec F S2048 .f32) (main_arg12 : FVec F S2048x1024 .f32) (main_arg13 : FVec F S2048 .f32) (main_arg14 : FVec F S2048x2048 .f32) (main_arg15 : FVec F S2048 .f32) (main_arg16 : FVec F S2048x1024 .f32) (main_arg17 : FVec F S2048 .f32) (main_arg18 : FVec F S2048x2048 .f32) (main_arg19 : FVec F S2048 .f32) (main_arg20 : FVec F S2048x1024 .f32) (main_arg21 : FVec F S2048 .f32) (main_arg22 : FVec F S2048x2048 .f32) (main_arg23 : FVec F S2048 .f32) (main_arg24 : FVec F S2x2048 .f32) (main_arg25 : FVec F S2 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg5
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg6
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg7
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : IVec S8192 32) (main_arg1 : FVec F S8192x2048 .f32) (main_arg2 : FVec F S8192x2048 .f32) (main_arg3 : FVec F S50257x1024 .f32) (main_arg4 : FVec F S2048x1024 .f32) (main_arg5 : FVec F S2048 .f32) (main_arg6 : FVec F S2048x2048 .f32) (main_arg7 : FVec F S2048 .f32) (main_arg8 : FVec F S2048x1024 .f32) (main_arg9 : FVec F S2048 .f32) (main_arg10 : FVec F S2048x2048 .f32) (main_arg11 : FVec F S2048 .f32) (main_arg12 : FVec F S2048x1024 .f32) (main_arg13 : FVec F S2048 .f32) (main_arg14 : FVec F S2048x2048 .f32) (main_arg15 : FVec F S2048 .f32) (main_arg16 : FVec F S2048x1024 .f32) (main_arg17 : FVec F S2048 .f32) (main_arg18 : FVec F S2048x2048 .f32) (main_arg19 : FVec F S2048 .f32) (main_arg20 : FVec F S2048x1024 .f32) (main_arg21 : FVec F S2048 .f32) (main_arg22 : FVec F S2048x2048 .f32) (main_arg23 : FVec F S2048 .f32) (main_arg24 : FVec F S2x2048 .f32) (main_arg25 : FVec F S2 .f32) : IVec S_ 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg2
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S50257x1024 .f32 := Host.absf main_arg3
  let main_cst_2 : FVec F S_ .f32 := constant S_ .f32 0x7F800000#32
  let main_v10 : FVec F S50257x1024 .f32 := broadcastInDim S50257x1024 ![] bcast_S_S50257x1024 main_cst_2
  let main_v11 : IVec S50257x1024 1 := cmpf .olt main_v9 main_v10
  let main_c_3 : IVec S_ 1 := constantI S_ 1 1#1
  let main_v12 : IVec S_ 1 := (fun x v => Host.reduce IntOp.andi x v reducesTo_S50257x1024_S_d0_1 h_S_) main_v11 main_c_3
  let main_v13 : IVec S_ 1 := andi main_v8 main_v12
  let main_v14 : FVec F S2048x1024 .f32 := Host.absf main_arg4
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg0 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S8192 : Shape := ⟨1, ![8192]⟩
abbrev S8192x2048 : Shape := ⟨2, ![8192, 2048]⟩
abbrev S50257x1024 : Shape := ⟨2, ![50257, 1024]⟩
abbrev S2048x1024 : Shape := ⟨2, ![2048, 1024]⟩
abbrev S2048 : Shape := ⟨1, ![2048]⟩
abbrev S2048x2048 : Shape := ⟨2, ![2048, 2048]⟩
abbrev S2x2048 : Shape := ⟨2, ![2, 2048]⟩
abbrev S2 : Shape := ⟨1, ![2]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S8192x1024 : Shape := ⟨2, ![8192, 1024]⟩
abbrev S1024x2048 : Shape := ⟨2, ![1024, 2048]⟩
abbrev S1x2048 : Shape := ⟨2, ![1, 2048]⟩
abbrev S256x1024 : Shape := ⟨2, ![256, 1024]⟩
abbrev S256x2048 : Shape := ⟨2, ![256, 2048]⟩
abbrev S256x512 : Shape := ⟨2, ![256, 512]⟩
abbrev S1024x512 : Shape := ⟨2, ![1024, 512]⟩
abbrev S1x512 : Shape := ⟨2, ![1, 512]⟩
abbrev S2048x512 : Shape := ⟨2, ![2048, 512]⟩
abbrev S2048x2 : Shape := ⟨2, ![2048, 2]⟩
abbrev S8192x2 : Shape := ⟨2, ![8192, 2]⟩
abbrev S1x2 : Shape := ⟨2, ![1, 2]⟩

abbrev nBuf : Space → Nat
  | .hbm => 88
  | .vmem => 52
  | .smem => 0
  | _ => 0

abbrev bufTy : (tb : Table) → Fin (tcTables nBuf tb) → BufTy
  | .hbm, ⟨0, _⟩ => ⟨S8192, .i32⟩
  | .hbm, ⟨1, _⟩ => ⟨S8192x2048, .f32⟩
  | .hbm, ⟨2, _⟩ => ⟨S8192x2048, .f32⟩
  | .hbm, ⟨3, _⟩ => ⟨S50257x1024, .f32⟩
  | .hbm, ⟨4, _⟩ => ⟨S2048x1024, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x1024, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x1024, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S2048x1024, .f32⟩
  | .hbm, ⟨17, _⟩ => ⟨S2048, .f32⟩
  | .hbm, ⟨18, _⟩ => ⟨S2048x2048, .f32⟩
  | .hbm, ⟨19, _⟩ => ⟨S2048, .f32⟩
  | .hbm, ⟨20, _⟩ => ⟨S2048x1024, .f32⟩
  | .hbm, ⟨21, _⟩ => ⟨S2048, .f32⟩
  | .hbm, ⟨22, _⟩ => ⟨S2048x2048, .f32⟩
  | .hbm, ⟨23, _⟩ => ⟨S2048, .f32⟩
  | .hbm, ⟨24, _⟩ => ⟨S2x2048, .f32⟩
  | .hbm, ⟨25, _⟩ => ⟨S2, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S1, .i32⟩
  | .hbm, ⟨35, _⟩ => ⟨S_, .i32⟩
  | .hbm, ⟨36, _⟩ => ⟨S8192x1, .i32⟩
  | .hbm, ⟨37, _⟩ => ⟨S8192x1, .i1⟩
  | .hbm, ⟨38, _⟩ => ⟨S1x1, .i32⟩
  | .hbm, ⟨39, _⟩ => ⟨S8192x1, .i32⟩
  | .hbm, ⟨40, _⟩ => ⟨S8192x1, .i1⟩
  | .hbm, ⟨41, _⟩ => ⟨S8192x1, .i1⟩
  | .hbm, ⟨42, _⟩ => ⟨S_, .i1⟩
  | .hbm, ⟨43, _⟩ => ⟨S8192, .i1⟩
  | .hbm, ⟨44, _⟩ => ⟨S8192x1024, .f32⟩
  | .hbm, ⟨45, _⟩ => ⟨S8192x1024, .i1⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S1024x2048, .f32⟩
  | .hbm, ⟨51, _⟩ => ⟨S1024x2048, .bf16⟩
  | .hbm, ⟨52, _⟩ => ⟨S2048x2048, .f32⟩
  | .hbm, ⟨53, _⟩ => ⟨S2048x2048, .bf16⟩
  | .hbm, ⟨54, _⟩ => ⟨S1024x2048, .f32⟩
  | .hbm, ⟨55, _⟩ => ⟨S1024x2048, .bf16⟩
  | .hbm, ⟨56, _⟩ => ⟨S2048x2048, .f32⟩
  | .hbm, ⟨57, _⟩ => ⟨S2048x2048, .bf16⟩
  | .hbm, ⟨58, _⟩ => ⟨S1024x2048, .f32⟩
  | .hbm, ⟨59, _⟩ => ⟨S1024x2048, .bf16⟩
  | .hbm, ⟨60, _⟩ => ⟨S2048x2048, .f32⟩
  | .hbm, ⟨61, _⟩ => ⟨S2048x2048, .bf16⟩
  | .hbm, ⟨62, _⟩ => ⟨S1024x2048, .f32⟩
  | .hbm, ⟨63, _⟩ => ⟨S1024x2048, .bf16⟩
  | .hbm, ⟨64, _⟩ => ⟨S2048x2048, .f32⟩
  | .hbm, ⟨65, _⟩ => ⟨S2048x2048, .bf16⟩
  | .hbm, ⟨66, _⟩ => ⟨S1024x2048, .f32⟩
  | .hbm, ⟨67, _⟩ => ⟨S1024x2048, .bf16⟩
  | .hbm, ⟨68, _⟩ => ⟨S2048x2048, .f32⟩
  | .hbm, ⟨69, _⟩ => ⟨S2048x2048, .bf16⟩
  | .hbm, ⟨70, _⟩ => ⟨S1x2048, .f32⟩
  | .hbm, ⟨71, _⟩ => ⟨S1x2048, .f32⟩
  | .hbm, ⟨72, _⟩ => ⟨S1x2048, .f32⟩
  | .hbm, ⟨73, _⟩ => ⟨S1x2048, .f32⟩
  | .hbm, ⟨74, _⟩ => ⟨S1x2048, .f32⟩
  | .hbm, ⟨75, _⟩ => ⟨S1x2048, .f32⟩
  | .hbm, ⟨76, _⟩ => ⟨S1x2048, .f32⟩
  | .hbm, ⟨77, _⟩ => ⟨S1x2048, .f32⟩
  | .hbm, ⟨78, _⟩ => ⟨S1x2048, .f32⟩
  | .hbm, ⟨79, _⟩ => ⟨S1x2048, .f32⟩
  | .hbm, ⟨80, _⟩ => ⟨S8192x2048, .f32⟩
  | .hbm, ⟨81, _⟩ => ⟨S8192x2048, .f32⟩
  | .hbm, ⟨82, _⟩ => ⟨S8192x2048, .f32⟩
  | .hbm, ⟨83, _⟩ => ⟨S2048x2, .f32⟩
  | .hbm, ⟨84, _⟩ => ⟨S8192x2, .f32⟩
  | .hbm, ⟨85, _⟩ => ⟨S1x2, .f32⟩
  | .hbm, ⟨86, _⟩ => ⟨S8192x2, .f32⟩
  | .hbm, ⟨87, _⟩ => ⟨S8192x2, .f32⟩
  | .local _ .vmem, ⟨0, _⟩ => ⟨S256x1024, .bf16⟩
  | .local _ .vmem, ⟨1, _⟩ => ⟨S256x1024, .bf16⟩
  | .local _ .vmem, ⟨2, _⟩ => ⟨S256x2048, .f32⟩
  | .local _ .vmem, ⟨3, _⟩ => ⟨S256x2048, .f32⟩
  | .local _ .vmem, ⟨4, _⟩ => ⟨S1024x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x1024, .bf16⟩
  | .local _ .vmem, ⟨11, _⟩ => ⟨S256x1024, .bf16⟩
  | .local _ .vmem, ⟨12, _⟩ => ⟨S256x2048, .f32⟩
  | .local _ .vmem, ⟨13, _⟩ => ⟨S256x2048, .f32⟩
  | .local _ .vmem, ⟨14, _⟩ => ⟨S256x512, .f32⟩
  | .local _ .vmem, ⟨15, _⟩ => ⟨S256x512, .f32⟩
  | .local _ .vmem, ⟨16, _⟩ => ⟨S1024x512, .bf16⟩
  | .local _ .vmem, ⟨17, _⟩ => ⟨S1024x512, .bf16⟩
  | .local _ .vmem, ⟨18, _⟩ => ⟨S1x512, .f32⟩
  | .local _ .vmem, ⟨19, _⟩ => ⟨S1x512, .f32⟩
  | .local _ .vmem, ⟨20, _⟩ => ⟨S2048x512, .bf16⟩
  | .local _ .vmem, ⟨21, _⟩ => ⟨S2048x512, .bf16⟩
  | .local _ .vmem, ⟨22, _⟩ => ⟨S1x512, .f32⟩
  | .local _ .vmem, ⟨23, _⟩ => ⟨S1x512, .f32⟩
  | .local _ .vmem, ⟨24, _⟩ => ⟨S1024x512, .bf16⟩
  | .local _ .vmem, ⟨25, _⟩ => ⟨S1024x512, .bf16⟩
  | .local _ .vmem, ⟨26, _⟩ => ⟨S1x512, .f32⟩
  | .local _ .vmem, ⟨27, _⟩ => ⟨S1x512, .f32⟩
  | .local _ .vmem, ⟨28, _⟩ => ⟨S2048x512, .bf16⟩
  | .local _ .vmem, ⟨29, _⟩ => ⟨S2048x512, .bf16⟩
  | .local _ .vmem, ⟨30, _⟩ => ⟨S1x512, .f32⟩
  | .local _ .vmem, ⟨31, _⟩ => ⟨S1x512, .f32⟩
  | .local _ .vmem, ⟨32, _⟩ => ⟨S1024x512, .bf16⟩
  | .local _ .vmem, ⟨33, _⟩ => ⟨S1024x512, .bf16⟩
  | .local _ .vmem, ⟨34, _⟩ => ⟨S1x512, .f32⟩
  | .local _ .vmem, ⟨35, _⟩ => ⟨S1x512, .f32⟩
  | .local _ .vmem, ⟨36, _⟩ => ⟨S2048x512, .bf16⟩
  | .local _ .vmem, ⟨37, _⟩ => ⟨S2048x512, .bf16⟩
  | .local _ .vmem, ⟨38, _⟩ => ⟨S1x512, .f32⟩
  | .local _ .vmem, ⟨39, _⟩ => ⟨S1x512, .f32⟩
  | .local _ .vmem, ⟨40, _⟩ => ⟨S1024x512, .bf16⟩
  | .local _ .vmem, ⟨41, _⟩ => ⟨S1024x512, .bf16⟩
  | .local _ .vmem, ⟨42, _⟩ => ⟨S1x512, .f32⟩
  | .local _ .vmem, ⟨43, _⟩ => ⟨S1x512, .f32⟩
  | .local _ .vmem, ⟨44, _⟩ => ⟨S2048x512, .bf16⟩
  | .local _ .vmem, ⟨45, _⟩ => ⟨S2048x512, .bf16⟩
  | .local _ .vmem, ⟨46, _⟩ => ⟨S1x512, .f32⟩
  | .local _ .vmem, ⟨47, _⟩ => ⟨S1x512, .f32⟩
  | .local _ .vmem, ⟨48, _⟩ => ⟨S256x512, .f32⟩
  | .local _ .vmem, ⟨49, _⟩ => ⟨S256x512, .f32⟩
  | .local _ .vmem, ⟨50, _⟩ => ⟨S256x512, .f32⟩
  | .local _ .vmem, ⟨51, _⟩ => ⟨S256x512, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_call0_c : Ref sig .tc := ⟨.hbm, 26, rfl⟩
abbrev main_call0_v0 : Ref sig .tc := ⟨.hbm, 27, rfl⟩
abbrev main_call0_v1 : Ref sig .tc := ⟨.hbm, 28, rfl⟩
abbrev main_call0_c_0 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_c_1 : Ref sig .tc := ⟨.hbm, 34, rfl⟩
abbrev main_call0_c_2 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_3 : Ref sig .tc := ⟨.hbm, 42, rfl⟩
abbrev main_call0_v12 : Ref sig .tc := ⟨.hbm, 43, rfl⟩
abbrev main_call0_v13 : Ref sig .tc := ⟨.hbm, 44, rfl⟩
abbrev main_call0_v14 : Ref sig .tc := ⟨.hbm, 45, rfl⟩
abbrev main_call0_cst : Ref sig .tc := ⟨.hbm, 46, rfl⟩
abbrev main_call0_v15 : Ref sig .tc := ⟨.hbm, 47, rfl⟩
abbrev main_v0 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33_0 : Ref sig .tc := ⟨.hbm, 81, rfl⟩
abbrev main_v33_1 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc1_stg11_0 : Ref sig .tc := ⟨.vmem, 32, rfl⟩
abbrev cc1_stg11_1 : Ref sig .tc := ⟨.vmem, 33, rfl⟩
abbrev cc1_stg12_0 : Ref sig .tc := ⟨.vmem, 34, rfl⟩
abbrev cc1_stg12_1 : Ref sig .tc := ⟨.vmem, 35, rfl⟩
abbrev cc1_stg13_0 : Ref sig .tc := ⟨.vmem, 36, rfl⟩
abbrev cc1_stg13_1 : Ref sig .tc := ⟨.vmem, 37, rfl⟩
abbrev cc1_stg14_0 : Ref sig .tc := ⟨.vmem, 38, rfl⟩
abbrev cc1_stg14_1 : Ref sig .tc := ⟨.vmem, 39, rfl⟩
abbrev cc1_stg15_0 : Ref sig .tc := ⟨.vmem, 40, rfl⟩
abbrev cc1_stg15_1 : Ref sig .tc := ⟨.vmem, 41, rfl⟩
abbrev cc1_stg16_0 : Ref sig .tc := ⟨.vmem, 42, rfl⟩
abbrev cc1_stg16_1 : Ref sig .tc := ⟨.vmem, 43, rfl⟩
abbrev cc1_stg17_0 : Ref sig .tc := ⟨.vmem, 44, rfl⟩
abbrev cc1_stg17_1 : Ref sig .tc := ⟨.vmem, 45, rfl⟩
abbrev cc1_stg18_0 : Ref sig .tc := ⟨.vmem, 46, rfl⟩
abbrev cc1_stg18_1 : Ref sig .tc := ⟨.vmem, 47, rfl⟩
abbrev cc1_stg19_0 : Ref sig .tc := ⟨.vmem, 48, rfl⟩
abbrev cc1_stg19_1 : Ref sig .tc := ⟨.vmem, 49, rfl⟩
abbrev cc1_stg20_0 : Ref sig .tc := ⟨.vmem, 50, rfl⟩
abbrev cc1_stg20_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc1_sem11_0 : DmaSem sig := 32
abbrev cc1_sem11_1 : DmaSem sig := 33
abbrev cc1_sem12_0 : DmaSem sig := 34
abbrev cc1_sem12_1 : DmaSem sig := 35
abbrev cc1_sem13_0 : DmaSem sig := 36
abbrev cc1_sem13_1 : DmaSem sig := 37
abbrev cc1_sem14_0 : DmaSem sig := 38
abbrev cc1_sem14_1 : DmaSem sig := 39
abbrev cc1_sem15_0 : DmaSem sig := 40
abbrev cc1_sem15_1 : DmaSem sig := 41
abbrev cc1_sem16_0 : DmaSem sig := 42
abbrev cc1_sem16_1 : DmaSem sig := 43
abbrev cc1_sem17_0 : DmaSem sig := 44
abbrev cc1_sem17_1 : DmaSem sig := 45
abbrev cc1_sem18_0 : DmaSem sig := 46
abbrev cc1_sem18_1 : DmaSem sig := 47
abbrev cc1_sem19_0 : DmaSem sig := 48
abbrev cc1_sem19_1 : DmaSem sig := 49
abbrev cc1_sem20_0 : DmaSem sig := 50
abbrev cc1_sem20_1 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_16 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_17 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_18 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_20 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2048x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2048x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S1x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev stage1_11 : Fin 2 → Memref sig .tc .vmem S1024x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, false]

abbrev stage1_12 : Fin 2 → Memref sig .tc .vmem S1x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, false]

abbrev stage1_13 : Fin 2 → Memref sig .tc .vmem S2048x512 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, false]

abbrev stage1_14 : Fin 2 → Memref sig .tc .vmem S1x512 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, false]

abbrev stage1_15 : Fin 2 → Memref sig .tc .vmem S1024x512 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, false]

abbrev stage1_16 : Fin 2 → Memref sig .tc .vmem S1x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, false]

abbrev stage1_17 : Fin 2 → Memref sig .tc .vmem S2048x512 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, false]

abbrev stage1_18 : Fin 2 → Memref sig .tc .vmem S1x512 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, false]

abbrev stage1_19 : Fin 2 → Memref sig .tc .vmem S256x512 .f32 := fun | 0 => Memref.whole cc1_stg19_0 | 1 => Memref.whole cc1_stg19_1 | ⟨_ + 2, h⟩ => absurd h (Nat.not_lt.2 (Nat.le_add_left _ _))
abbrev sem1_19 : Fin 2 → DmaSem sig := fun | 0 => cc1_sem19_0 | 1 => cc1_sem19_1 | ⟨_ + 2, h⟩ => absurd h (Nat.not_lt.2 (Nat.le_add_left _ _))
abbrev reads1_19 : Fin grid1.rank → Bool := ![true, true]

abbrev stage1_20 : Fin 2 → Memref sig .tc .vmem S256x512 .f32 := fun | 0 => Memref.whole cc1_stg20_0 | 1 => Memref.whole cc1_stg20_1 | ⟨_ + 2, h⟩ => absurd h (Nat.not_lt.2 (Nat.le_add_left _ _))
abbrev sem1_20 : Fin 2 → DmaSem sig := fun | 0 => cc1_sem20_0 | 1 => cc1_sem20_1 | ⟨_ + 2, h⟩ => absurd h (Nat.not_lt.2 (Nat.le_add_left _ _))
abbrev reads1_20 : Fin grid1.rank → Bool := ![true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bitsLt_bf16_f32 : FTy.bits .bf16 < FTy.bits .f32
  transposes_S2048x1024_S1024x2048_1_0 : S2048x1024.Transposes [1, 0] S1024x2048
  transposes_S2048x2048_S2048x2048_1_0 : S2048x2048.Transposes [1, 0] S2048x2048
  shapeCasts_S2048_S1x2048 : S2048.ShapeCasts S1x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S256x2048_S256x2048 : S256x2048.ShapeCasts S256x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x512_S256x512_0_0 : ∀ a, (![0, 0] : Fin 2 → Nat) a + S256x512.size a ≤ S256x512.size a
  h_S256x512 : 0 < S256x512.numel
  transposes_S2x2048_S2048x2_1_0 : S2x2048.Transposes [1, 0] S2048x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  gather_S50257x1024_S8192x1_S8192x1024_1_0_n_n_0_1_11024_wf : GatherDims.WF S50257x1024 S8192x1 S8192x1024 [1] [0] [] [0] [] 1 ![1, 1024]
  dot_S256x1024_S1024x2048_S256x2048_1_0_0_1_n_n_wf : DotDims.WF S256x1024 S1024x2048 S256x2048 [1] [0] [0] [1] [] []
  dot_S256x2048_S2048x2048_S256x2048_1_0_0_1_n_n_wf : DotDims.WF S256x2048 S2048x2048 S256x2048 [1] [0] [0] [1] [] []
  dot_S256x1024_S1024x512_S256x512_1_0_0_1_n_n_wf : DotDims.WF S256x1024 S1024x512 S256x512 [1] [0] [0] [1] [] []
  dot_S256x2048_S2048x512_S256x512_1_0_0_1_n_n_wf : DotDims.WF S256x2048 S2048x512 S256x512 [1] [0] [0] [1] [] []
  dot_S8192x2048_S2048x2_S8192x2_1_0_0_1_n_n_wf : DotDims.WF S8192x2048 S2048x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .bf16 = 32 ∨ (Rect.block (s := S8192x1024) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S8192x2048.size a
  hwx0_6 : ∀ i : grid0.Coords, EltTy.bits .f32 = 32 ∨ (Rect.block (s := S8192x2048) S256x2048.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .bf16 = 32 ∨ (Rect.block (s := S8192x1024) S256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S8192x2048.size a
  hwx1_2 : ∀ i : grid1.Coords, EltTy.bits .f32 = 32 ∨ (Rect.block (s := S8192x2048) S256x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S1024x2048.size a
  hwx1_3 : ∀ i : grid1.Coords, EltTy.bits .bf16 = 32 ∨ (Rect.block (s := S1024x2048) S1024x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x2048.size a
  hwx1_4 : ∀ i : grid1.Coords, EltTy.bits .f32 = 32 ∨ (Rect.block (s := S1x2048) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S2048x2048.size a
  hwx1_5 : ∀ i : grid1.Coords, EltTy.bits .bf16 = 32 ∨ (Rect.block (s := S2048x2048) S2048x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x2048.size a
  hwx1_6 : ∀ i : grid1.Coords, EltTy.bits .f32 = 32 ∨ (Rect.block (s := S1x2048) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S1024x2048.size a
  hwx1_7 : ∀ i : grid1.Coords, EltTy.bits .bf16 = 32 ∨ (Rect.block (s := S1024x2048) S1024x512.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x512.size a ≤ S1x2048.size a
  hwx1_8 : ∀ i : grid1.Coords, EltTy.bits .f32 = 32 ∨ (Rect.block (s := S1x2048) S1x512.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2048x512.size a ≤ S2048x2048.size a
  hwx1_9 : ∀ i : grid1.Coords, EltTy.bits .bf16 = 32 ∨ (Rect.block (s := S2048x2048) S2048x512.size (cc1_transform_9 i) (hinb1_9 i)).WholeWords (EltTy.packing .bf16)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x512.size a ≤ S1x2048.size a
  hwx1_10 : ∀ i : grid1.Coords, EltTy.bits .f32 = 32 ∨ (Rect.block (s := S1x2048) S1x512.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1024x512.size a ≤ S1024x2048.size a
  hwx1_11 : ∀ i : grid1.Coords, EltTy.bits .bf16 = 32 ∨ (Rect.block (s := S1024x2048) S1024x512.size (cc1_transform_11 i) (hinb1_11 i)).WholeWords (EltTy.packing .bf16)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x512.size a ≤ S1x2048.size a
  hwx1_12 : ∀ i : grid1.Coords, EltTy.bits .f32 = 32 ∨ (Rect.block (s := S1x2048) S1x512.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2048x512.size a ≤ S2048x2048.size a
  hwx1_13 : ∀ i : grid1.Coords, EltTy.bits .bf16 = 32 ∨ (Rect.block (s := S2048x2048) S2048x512.size (cc1_transform_13 i) (hinb1_13 i)).WholeWords (EltTy.packing .bf16)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1x512.size a ≤ S1x2048.size a
  hwx1_14 : ∀ i : grid1.Coords, EltTy.bits .f32 = 32 ∨ (Rect.block (s := S1x2048) S1x512.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S1024x512.size a ≤ S1024x2048.size a
  hwx1_15 : ∀ i : grid1.Coords, EltTy.bits .bf16 = 32 ∨ (Rect.block (s := S1024x2048) S1024x512.size (cc1_transform_15 i) (hinb1_15 i)).WholeWords (EltTy.packing .bf16)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S1x512.size a ≤ S1x2048.size a
  hwx1_16 : ∀ i : grid1.Coords, EltTy.bits .f32 = 32 ∨ (Rect.block (s := S1x2048) S1x512.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2048x512.size a ≤ S2048x2048.size a
  hwx1_17 : ∀ i : grid1.Coords, EltTy.bits .bf16 = 32 ∨ (Rect.block (s := S2048x2048) S2048x512.size (cc1_transform_17 i) (hinb1_17 i)).WholeWords (EltTy.packing .bf16)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S1x512.size a ≤ S1x2048.size a
  hwx1_18 : ∀ i : grid1.Coords, EltTy.bits .f32 = 32 ∨ (Rect.block (s := S1x2048) S1x512.size (cc1_transform_18 i) (hinb1_18 i)).WholeWords (EltTy.packing .f32)
  hstage1_19 : ∀ j, (stage1_19 j).IsWhole
  nbuf1_19 : grid1.bufCount reads1_19 false = 2
  hreads1_19 : ∀ i i' : grid1.Coords, (∀ a, reads1_19 a = true → i a = i' a) → cc1_transform_19 i = cc1_transform_19 i'
  hinb1_19 : ∀ (i : grid1.Coords) a, (cc1_transform_19 i a + 1) * S256x512.size a ≤ S8192x2048.size a
  hwx1_19 : ∀ i : grid1.Coords, EltTy.bits .f32 = 32 ∨ (Rect.block (s := S8192x2048) S256x512.size (cc1_transform_19 i) (hinb1_19 i)).WholeWords (EltTy.packing .f32)
  hstage1_20 : ∀ j, (stage1_20 j).IsWhole
  nbuf1_20 : grid1.bufCount reads1_20 false = 2
  hreads1_20 : ∀ i i' : grid1.Coords, (∀ a, reads1_20 a = true → i a = i' a) → cc1_transform_20 i = cc1_transform_20 i'
  hinb1_20 : ∀ (i : grid1.Coords) a, (cc1_transform_20 i a + 1) * S256x512.size a ≤ S8192x2048.size a
  hwx1_20 : ∀ i : grid1.Coords, EltTy.bits .f32 = 32 ∨ (Rect.block (s := S8192x2048) S256x512.size (cc1_transform_20 i) (hinb1_20 i)).WholeWords (EltTy.packing .f32)

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S8192x2048_S2048x2_S8192x2_1_0_0_1_n_n : DotDims S8192x2048 S2048x2 S8192x2 where
  lhsContracting := [1]
  rhsContracting := [0]
  lhsNonContracting := [0]
  rhsNonContracting := [1]
  lhsBatch := []
  rhsBatch := []
  wf := dot_S8192x2048_S2048x2_S8192x2_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v1) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S2048x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11) S1024x512.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v26) S1x512.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v13) S2048x512.size cc1_transform_9 reads1_9 false false 2 stage1_9 sem1_9
    hrank1 hreads1_9 hinb1_9 nbuf1_9 (Memref.isWhole_whole _) hwx1_9 hstage1_9

abbrev win1_10 : Pipeline.Window sig grid1 :=
  Pipeline.Window.ofSpec (Memref.whole main_v27) S1x512.size cc1_transform_10 reads1_10 false false 2 stage1_10 sem1_10
    hrank1 hreads1_10 hinb1_10 nbuf1_10 (Memref.isWhole_whole _) hwx1_10 hstage1_10

abbrev win1_11 : Pipeline.Window sig grid1 :=
  Pipeline.Window.ofSpec (Memref.whole main_v15) S1024x512.size cc1_transform_11 reads1_11 false false 2 stage1_11 sem1_11
    hrank1 hreads1_11 hinb1_11 nbuf1_11 (Memref.isWhole_whole _) hwx1_11 hstage1_11

abbrev win1_12 : Pipeline.Window sig grid1 :=
  Pipeline.Window.ofSpec (Memref.whole main_v28) S1x512.size cc1_transform_12 reads1_12 false false 2 stage1_12 sem1_12
    hrank1 hreads1_12 hinb1_12 nbuf1_12 (Memref.isWhole_whole _) hwx1_12 hstage1_12

abbrev win1_13 : Pipeline.Window sig grid1 :=
  Pipeline.Window.ofSpec (Memref.whole main_v17) S2048x512.size cc1_transform_13 reads1_13 false false 2 stage1_13 sem1_13
    hrank1 hreads1_13 hinb1_13 nbuf1_13 (Memref.isWhole_whole _) hwx1_13 hstage1_13

abbrev win1_14 : Pipeline.Window sig grid1 :=
  Pipeline.Window.ofSpec (Memref.whole main_v29) S1x512.size cc1_transform_14 reads1_14 false false 2 stage1_14 sem1_14
    hrank1 hreads1_14 hinb1_14 nbuf1_14 (Memref.isWhole_whole _) hwx1_14 hstage1_14

abbrev win1_15 : Pipeline.Window sig grid1 :=
  Pipeline.Window.ofSpec (Memref.whole main_v19) S1024x512.size cc1_transform_15 reads1_15 false false 2 stage1_15 sem1_15
    hrank1 hreads1_15 hinb1_15 nbuf1_15 (Memref.isWhole_whole _) hwx1_15 hstage1_15

abbrev win1_16 : Pipeline.Window sig grid1 :=
  Pipeline.Window.ofSpec (Memref.whole main_v30) S1x512.size cc1_transform_16 reads1_16 false false 2 stage1_16 sem1_16
    hrank1 hreads1_16 hinb1_16 nbuf1_16 (Memref.isWhole_whole _) hwx1_16 hstage1_16

abbrev win1_17 : Pipeline.Window sig grid1 :=
  Pipeline.Window.ofSpec (Memref.whole main_v21) S2048x512.size cc1_transform_17 reads1_17 false false 2 stage1_17 sem1_17
    hrank1 hreads1_17 hinb1_17 nbuf1_17 (Memref.isWhole_whole _) hwx1_17 hstage1_17

abbrev win1_18 : Pipeline.Window sig grid1 :=
  Pipeline.Window.ofSpec (Memref.whole main_v31) S1x512.size cc1_transform_18 reads1_18 false false 2 stage1_18 sem1_18
    hrank1 hreads1_18 hinb1_18 nbuf1_18 (Memref.isWhole_whole _) hwx1_18 hstage1_18

abbrev win1_19 : Pipeline.Window sig grid1 :=
  Pipeline.Window.ofSpec (Memref.whole main_v33_0) S256x512.size cc1_transform_19 reads1_19 true false 2 stage1_19 sem1_19
    hrank1 hreads1_19 hinb1_19 nbuf1_19 (Memref.isWhole_whole _) hwx1_19 hstage1_19

abbrev win1_20 : Pipeline.Window sig grid1 :=
  Pipeline.Window.ofSpec (Memref.whole main_v33_1) S256x512.size cc1_transform_20 reads1_20 true false 2 stage1_20 sem1_20
    hrank1 hreads1_20 hinb1_20 nbuf1_20 (Memref.isWhole_whole _) hwx1_20 hstage1_20

abbrev win1 : Fin 21 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | 19 => win1_19 | 20 => win1_20 | ⟨_ + 21, h⟩ => absurd h (Nat.not_lt.2 (Nat.le_add_left _ _))
abbrev spec1 : Fin 21 → Pipeline.WinSpec sig grid1.rank := fun w => (win1 w).toWinSpec

class Facts : Prop extends Facts₀ where

variable [Facts]
-- ==== ReferenceIdeal.lean ====
abbrev S8192 : Shape := ⟨1, ![8192]⟩
abbrev S8192x2048 : Shape := ⟨2, ![8192, 2048]⟩
abbrev S50257x1024 : Shape := ⟨2, ![50257, 1024]⟩
abbrev S2048x1024 : Shape := ⟨2, ![2048, 1024]⟩
abbrev S2048 : Shape := ⟨1, ![2048]⟩
abbrev S2048x2048 : Shape := ⟨2, ![2048, 2048]⟩
abbrev S2x2048 : Shape := ⟨2, ![2, 2048]⟩
abbrev S2 : Shape := ⟨1, ![2]⟩
abbrev S_ : Shape := ⟨0, ![]⟩
abbrev S8192x1 : Shape := ⟨2, ![8192, 1]⟩
abbrev S8192x1024 : Shape := ⟨2, ![8192, 1024]⟩
abbrev S1024x2048 : Shape := ⟨2, ![1024, 2048]⟩
abbrev S1x2048 : Shape := ⟨2, ![1, 2048]⟩
abbrev S2048x2 : Shape := ⟨2, ![2048, 2]⟩
abbrev S8192x2 : Shape := ⟨2, ![8192, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192x2048, .f32⟩
  | .hbm, ⟨2, _⟩ => ⟨S8192x2048, .f32⟩
  | .hbm, ⟨3, _⟩ => ⟨S50257x1024, .f32⟩
  | .hbm, ⟨4, _⟩ => ⟨S2048x1024, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x1024, .f32⟩
  | .hbm, ⟨9, _⟩ => ⟨S2048, .f32⟩
  | .hbm, ⟨10, _⟩ => ⟨S2048x2048, .f32⟩
  | .hbm, ⟨11, _⟩ => ⟨S2048, .f32⟩
  | .hbm, ⟨12, _⟩ => ⟨S2048x1024, .f32⟩
  | .hbm, ⟨13, _⟩ => ⟨S2048, .f32⟩
  | .hbm, ⟨14, _⟩ => ⟨S2048x2048, .f32⟩
  | .hbm, ⟨15, _⟩ => ⟨S2048, .f32⟩
  | .hbm, ⟨16, _⟩ => ⟨S2048x1024, .f32⟩
  | .hbm, ⟨17, _⟩ => ⟨S2048, .f32⟩
  | .hbm, ⟨18, _⟩ => ⟨S2048x2048, .f32⟩
  | .hbm, ⟨19, _⟩ => ⟨S2048, .f32⟩
  | .hbm, ⟨20, _⟩ => ⟨S2048x1024, .f32⟩
  | .hbm, ⟨21, _⟩ => ⟨S2048, .f32⟩
  | .hbm, ⟨22, _⟩ => ⟨S2048x2048, .f32⟩
  | .hbm, ⟨23, _⟩ => ⟨S2048, .f32⟩
  | .hbm, ⟨24, _⟩ => ⟨S2x2048, .f32⟩
  | .hbm, ⟨25, _⟩ => ⟨S2, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x1024, .f32⟩
  | .hbm, ⟨35, _⟩ => ⟨S1024x2048, .f32⟩
  | .hbm, ⟨36, _⟩ => ⟨S8192x2048, .f32⟩
  | .hbm, ⟨37, _⟩ => ⟨S1x2048, .f32⟩
  | .hbm, ⟨38, _⟩ => ⟨S8192x2048, .f32⟩
  | .hbm, ⟨39, _⟩ => ⟨S8192x2048, .f32⟩
  | .hbm, ⟨40, _⟩ => ⟨S2048x2048, .f32⟩
  | .hbm, ⟨41, _⟩ => ⟨S8192x2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1024x2048, .f32⟩
  | .hbm, ⟨47, _⟩ => ⟨S8192x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S2048x2048, .f32⟩
  | .hbm, ⟨52, _⟩ => ⟨S8192x2048, .f32⟩
  | .hbm, ⟨53, _⟩ => ⟨S8192x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S1024x2048, .f32⟩
  | .hbm, ⟨66, _⟩ => ⟨S8192x2048, .f32⟩
  | .hbm, ⟨67, _⟩ => ⟨S1x2048, .f32⟩
  | .hbm, ⟨68, _⟩ => ⟨S8192x2048, .f32⟩
  | .hbm, ⟨69, _⟩ => ⟨S8192x2048, .f32⟩
  | .hbm, ⟨70, _⟩ => ⟨S2048x2048, .f32⟩
  | .hbm, ⟨71, _⟩ => ⟨S8192x2048, .f32⟩
  | .hbm, ⟨72, _⟩ => ⟨S8192x2048, .f32⟩
  | .hbm, ⟨73, _⟩ => ⟨S1x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S_, .f32⟩
  | .hbm, ⟨79, _⟩ => ⟨S8192x2048, .f32⟩
  | .hbm, ⟨80, _⟩ => ⟨S8192x2048, .f32⟩
  | .hbm, ⟨81, _⟩ => ⟨S_, .f32⟩
  | .hbm, ⟨82, _⟩ => ⟨S8192x2048, .f32⟩
  | .hbm, ⟨83, _⟩ => ⟨S8192x2048, .f32⟩
  | .hbm, ⟨84, _⟩ => ⟨S1024x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S2048x2048, .f32⟩
  | .hbm, ⟨90, _⟩ => ⟨S8192x2048, .f32⟩
  | .hbm, ⟨91, _⟩ => ⟨S8192x2048, .f32⟩
  | .hbm, ⟨92, _⟩ => ⟨S1x2048, .f32⟩
  | .hbm, ⟨93, _⟩ => ⟨S8192x2048, .f32⟩
  | .hbm, ⟨94, _⟩ => ⟨S8192x2048, .f32⟩
  | .hbm, ⟨95, _⟩ => ⟨S8192x2048, .f32⟩
  | .hbm, ⟨96, _⟩ => ⟨S8192x2048, .f32⟩
  | .hbm, ⟨97, _⟩ => ⟨S_, .f32⟩
  | .hbm, ⟨98, _⟩ => ⟨S8192x2048, .f32⟩
  | .hbm, ⟨99, _⟩ => ⟨S8192x2048, .f32⟩
  | .hbm, ⟨100, _⟩ => ⟨S_, .f32⟩
  | .hbm, ⟨101, _⟩ => ⟨S8192x2048, .f32⟩
  | .hbm, ⟨102, _⟩ => ⟨S8192x2048, .f32⟩
  | .hbm, ⟨103, _⟩ => ⟨S1024x2048, .f32⟩
  | .hbm, ⟨104, _⟩ => ⟨S8192x2048, .f32⟩
  | .hbm, ⟨105, _⟩ => ⟨S1x2048, .f32⟩
  | .hbm, ⟨106, _⟩ => ⟨S8192x2048, .f32⟩
  | .hbm, ⟨107, _⟩ => ⟨S8192x2048, .f32⟩
  | .hbm, ⟨108, _⟩ => ⟨S2048x2048, .f32⟩
  | .hbm, ⟨109, _⟩ => ⟨S8192x2048, .f32⟩
  | .hbm, ⟨110, _⟩ => ⟨S8192x2048, .f32⟩
  | .hbm, ⟨111, _⟩ => ⟨S1x2048, .f32⟩
  | .hbm, ⟨112, _⟩ => ⟨S8192x2048, .f32⟩
  | .hbm, ⟨113, _⟩ => ⟨S8192x2048, .f32⟩
  | .hbm, ⟨114, _⟩ => ⟨S8192x2048, .f32⟩
  | .hbm, ⟨115, _⟩ => ⟨S8192x2048, .f32⟩
  | .hbm, ⟨116, _⟩ => ⟨S8192x2048, .f32⟩
  | .hbm, ⟨117, _⟩ => ⟨S8192x2048, .f32⟩
  | .hbm, ⟨118, _⟩ => ⟨S8192x2048, .f32⟩
  | .hbm, ⟨119, _⟩ => ⟨S8192x2048, .f32⟩
  | .hbm, ⟨120, _⟩ => ⟨S2048x2, .f32⟩
  | .hbm, ⟨121, _⟩ => ⟨S8192x2, .f32⟩
  | .hbm, ⟨122, _⟩ => ⟨S1x2, .f32⟩
  | .hbm, ⟨123, _⟩ => ⟨S8192x2, .f32⟩
  | .hbm, ⟨124, _⟩ => ⟨S8192x2, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst : Ref sig .tc := ⟨.hbm, 59, rfl⟩
abbrev main_v31 : Ref sig .tc := ⟨.hbm, 60, rfl⟩
abbrev main_v32 : Ref sig .tc := ⟨.hbm, 61, rfl⟩
abbrev main_cst_1 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_2 : Ref sig .tc := ⟨.hbm, 78, rfl⟩
abbrev main_v48 : Ref sig .tc := ⟨.hbm, 79, rfl⟩
abbrev main_v49 : Ref sig .tc := ⟨.hbm, 80, rfl⟩
abbrev main_cst_3 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_4 : Ref sig .tc := ⟨.hbm, 97, rfl⟩
abbrev main_v65 : Ref sig .tc := ⟨.hbm, 98, rfl⟩
abbrev main_v66 : Ref sig .tc := ⟨.hbm, 99, rfl⟩
abbrev main_cst_5 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S2048x1024_S1024x2048_1_0 : S2048x1024.Transposes [1, 0] S1024x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  transposes_S2048x2048_S2048x2048_1_0 : S2048x2048.Transposes [1, 0] S2048x2048
  bcast_S_S8192x2048 : S_.BroadcastsInDim S8192x2048 (![] : Fin 0 → Fin S8192x2048.rank)
  transposes_S2x2048_S2048x2_1_0 : S2x2048.Transposes [1, 0] S2048x2
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  gather_S50257x1024_S8192x1_S8192x1024_1_0_n_n_0_1_11024_wf : GatherDims.WF S50257x1024 S8192x1 S8192x1024 [1] [0] [] [0] [] 1 ![1, 1024]
  dot_S8192x1024_S1024x2048_S8192x2048_1_0_0_1_n_n_wf : DotDims.WF S8192x1024 S1024x2048 S8192x2048 [1] [0] [0] [1] [] []
  dot_S8192x2048_S2048x2048_S8192x2048_1_0_0_1_n_n_wf : DotDims.WF S8192x2048 S2048x2048 S8192x2048 [1] [0] [0] [1] [] []
  dot_S8192x2048_S2048x2_S8192x2_1_0_0_1_n_n_wf : DotDims.WF S8192x2048 S2048x2 S8192x2 [1] [0] [0] [1] [] []

variable [Facts₀]

def gather_S50257x1024_S8192x1_S8192x1024_1_0_n_n_0_1_11024 : GatherDims S50257x1024 S8192x1 S8192x1024 where
  offsetDims := [1]
  collapsedSliceDims := [0]
  operandBatchingDims := []
  startIndicesBatchingDims := []
  startIndexMap := [0]
  indexVectorDim := 1
  sliceSizes := ![1, 1024]
  wf := gather_S50257x1024_S8192x1_S8192x1024_1_0_n_n_0_1_11024_wf
def dot_S8192x1024_S1024x2048_S8192x2048_1_0_0_1_n_n : DotDims S8192x1024 S1024x2048 S8192x2048 where
  lhsContracting := [1]
  rhsContracting := [0]
  lhsNonContracting := [0]
  rhsNonContracting := [1]
  lhsBatch := []
  rhsBatch := []
  wf := dot_S8192x1024_S1024x2048_S8192x2048_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x2048_S2048x2_S8192x2_1_0_0_1_n_n : DotDims S8192x2048 S2048x2 S8192x2 where
  lhsContracting := [1]
  rhsContracting := [0]
  lhsNonContracting := [0]
  rhsNonContracting := [1]
  lhsBatch := []
  rhsBatch := []
  wf := dot_S8192x2048_S2048x2_S8192x2_1_0_0_1_n_n_wf

class Facts : Prop extends Facts₀ where

variable [Facts]
-- ==== Proof.Rows.lean ====
/-
  The embedded input rows. Both programs first move a negative index up by the table's height `V = 50257`
  (`i < 0 ↦ i + V`) and gather row `i` of the table. The kernel's `take` then tests the moved index,
  `0 ≤ i' ≤ V - 1`, and where the test fails puts a fill pattern in the row's place; the reference gathers with no
  test. Under the precondition's last conjunct, `-V ≤ i < V` for every batch row (signed 32-bit words), the moved
  index always passes: for `i < 0` it is `i + V ∈ [0, V - 1]` with no wrap-around of the word sum, for `i ≥ 0` it
  is `i` itself. So the test's mask is all ones and the kernel's rows are the bare gather — the same term the
  reference computes. Which row an index reads is never opened: the gather stays closed on both sides.
-/
import proofs.«400341_j38800734552172_3_alg».proof.Proof.Gen.KernelIdeal.Frame
import proofs.«400341_j38800734552172_3_alg».proof.Proof.Gen.Pre_finite_inputs
import Idealize.ShloMosaic.Lib.ReduceAll
import Idealize.ShloMosaic.Lib.Affine
import Idealize.ShloMosaic.Lib.IdealHost
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx

/-! ## Words -/

namespace Cert.Words

theorem toInt_negV : (4294917039#32 : BitVec 32).toInt = -50257 := by decide
theorem toInt_V : (50257#32 : BitVec 32).toInt = 50257 := by decide
theorem toInt_top : (50256#32 : BitVec 32).toInt = 50256 := by decide
theorem toInt_zero : (0#32 : BitVec 32).toInt = 0 := by decide

/-- A signed word in `[-V, V)`, moved up by `V` when negative, lands in `[0, V - 1]`: the word sum does not wrap,
    since `x + V` is a small non-negative integer. -/
theorem wrap_range (x : BitVec 32) (hlo : -50257 ≤ x.toInt) (hhi : x.toInt < 50257) :
    0 ≤ (Scalar.select (IntOp.cmpi .slt x 0#32) (IntOp.addi x 50257#32) x).toInt
      ∧ (Scalar.select (IntOp.cmpi .slt x 0#32) (IntOp.addi x 50257#32) x).toInt ≤ 50256 := by
  by_cases hneg : x.toInt < 0
  · have hc : IntOp.cmpi .slt x 0#32 = 1#1 := IntOp.cmpi_slt.2 (by rw [toInt_zero]; exact hneg)
    rw [hc, ValueIdx.select_one]
    have hadd : (IntOp.addi x 50257#32).toInt = x.toInt + 50257 := by
      show (x + 50257#32).toInt = _
      rw [BitVec.toInt_add, toInt_V]
      exact Int.bmod_eq_of_le_mul_two (by omega) (by omega)
    rw [hadd]; omega
  · have hc : IntOp.cmpi .slt x 0#32 = 0#1 := ValueIdx.eq_zero_of_ne_one (fun h => hneg (by
      have := IntOp.cmpi_slt.1 h; rwa [toInt_zero] at this))
    rw [hc, ValueIdx.select_zero]
    omega

/-- A left fold by `and` from 1 over words that are all 1 is 1. -/
theorem foldl_andi_of_all_one {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hf => foldl_andi_of_all_one f l _
      (by show IntOp.andi init (f a) = 1#1; rw [hi, hf a List.mem_cons_self]; decide)
      (fun n hn => hf n (List.mem_cons_of_mem _ hn))

/-- A `reduce` by `and` from the constant 1 over an array of ones is 1 at every result index. -/
theorem reduce_andi_of_all_one {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_of_all_one x _ _ (hinit _) (fun n _ => hx n)

end Cert.Words

/-! ## The range, read off the precondition -/

namespace Cert.Pre_finite_inputs.Range

open Cert.Pre_finite_inputs

instance : Subsingleton S_.Idx := ⟨fun a b => funext fun d => d.elim0⟩

/-- The precondition's last part holds only if every index word is in `[-V, V)`: its closing `and` is 1, so the
    all-reduce of the two compares is 1, so each lane's two compares are. -/
theorem of_part7 (inp : IVec S8192 32) (v118 : IVec S_ 1) (v119 : FVec Ideal S2 .f32)
    (h : fn_part7 (F := Ideal) inp v118 v119 ix0 = 1#1) (k : S8192.Idx) :
    -50257 ≤ (inp k).toInt ∧ (inp k).toInt < 50257 := by
  unfold fn_part7 at h
  dsimp only at h
  have h1 := (IntOp.andi_eq_one.1 h).2
  have h2 := Host.reduce_andi_all _ _ _ _ _ h1 k
  obtain ⟨hge, hlt⟩ := IntOp.andi_eq_one.1 h2
  have hge' := IntOp.cmpi_sge.1 hge
  have hlt' := IntOp.cmpi_slt.1 hlt
  change (4294917039#32 : BitVec 32).toInt ≤ (inp k).toInt at hge'
  change (inp k).toInt < (50257#32 : BitVec 32).toInt at hlt'
  rw [Cert.Words.toInt_negV] at hge'
  rw [Cert.Words.toInt_V] at hlt'
  exact ⟨hge', hlt'⟩

end Cert.Pre_finite_inputs.Range

/-! ## The kernel's rows -/

namespace Cert.KernelIdeal.Rows

open Cert.KernelIdeal Cert.KernelIdeal.Gen

/-- The index column both programs gather with: a negative index moved up by `V`. -/
def wrapped (inp : IVec S8192 32) : IVec S8192x1 32 :=
  broadcastInDim S8192x1 ![0] bcast_S8192_S8192x1_0
    (select (cmpi .slt inp (broadcastInDim S8192 ![] bcast_S_S8192 (constantI S_ 32 0#32)))
      (addi inp (broadcastInDim S8192 ![] bcast_S_S8192 (constantI S_ 32 50257#32))) inp)

/-- The gathered rows: row `b` is the table's row at the moved index of `b`. -/
def rows (inp : IVec S8192 32) (emb : FVec Ideal S50257x1024 .f32) : FVec Ideal S8192x1024 .f32 :=
  Host.gather gather_S50257x1024_S8192x1_S8192x1024_1_0_n_n_0_1_11024 emb (wrapped inp)

/-- The kernel's per-row test `0 ≤ i' ∧ i' ≤ V - 1` of the moved index. -/
def passes (inp : IVec S8192 32) : IVec S8192 1 :=
  Host.reduce IntOp.andi
    (andi (cmpi .sge (wrapped inp) (broadcastInDim S8192x1 ![] bcast_S_S8192x1 (constantI S_ 32 0#32)))
      (cmpi .sle (wrapped inp) (broadcastInDim S8192x1 ![0, 1] bcast_S1x1_S8192x1_0_1
        (broadcastInDim S1x1 ![1] bcast_S1_S1x1_1 (constantI S1 32 50256#32)))))
    (constantI S_ 1 1#1) reducesTo_S8192x1_S8192_d1 h_S_

/-- Every moved index is in `[0, V - 1]` when every index is in `[-V, V)`. -/
theorem wrapped_range (inp : IVec S8192 32) (hr : ∀ k, -50257 ≤ (inp k).toInt ∧ (inp k).toInt < 50257)
    (i : S8192x1.Idx) : 0 ≤ (wrapped inp i).toInt ∧ (wrapped inp i).toInt ≤ 50256 := by
  unfold wrapped broadcastInDim
  exact Cert.Words.wrap_range _ (hr _).1 (hr _).2

/-- Then every row passes the kernel's test. -/
theorem passes_one (inp : IVec S8192 32) (hr : ∀ k, -50257 ≤ (inp k).toInt ∧ (inp k).toInt < 50257)
    (j : S8192.Idx) : passes inp j = 1#1 := by
  unfold passes
  refine Cert.Words.reduce_andi_of_all_one _ _ _ _ (fun _ => rfl) (fun i => ?_) j
  show IntOp.andi (IntOp.cmpi .sge (wrapped inp i) 0#32) (IntOp.cmpi .sle (wrapped inp i) 50256#32) = 1#1
  obtain ⟨h0, h1⟩ := wrapped_range inp hr i
  exact IntOp.andi_eq_one.2 ⟨IntOp.cmpi_sge.2 (by rw [Cert.Words.toInt_zero]; exact h0),
    IntOp.cmpi_sle.2 (by rw [Cert.Words.toInt_top]; exact h1)⟩

variable (m : (ℓ : Loc nD τ sig) → Buf (Elt Ideal) ℓ) (ρ : Dev nD → PrngReg)

-- the fold through the 23 operations of `take` is evaluated at one buffer: each operation's result is a case split on
-- the buffer read, and the operands' reads repeat the walk
set_option maxHeartbeats 4000000 in
set_option maxRecDepth 131072 in
/-- What the kernel's `take` leaves: the gathered rows where the test passes, the fill pattern elsewhere. -/
theorem taken (c : Dev nD) :
    W1 m ρ c (Proc.devRef .tc main_v0)
      = select (broadcastInDim S8192x1024 ![0] bcast_S8192_S8192x1024_0 (passes (m ((c : Thread nD τ).loc main_arg0))))
          (rows (m ((c : Thread nD τ).loc main_arg0)) (m ((c : Thread nD τ).loc main_arg3)))
          (broadcastInDim S8192x1024 ![] bcast_S_S8192x1024 (constant S_ .f32 0x7FC00000#32)) := rfl

/-- With every index in `[-V, V)` the fill is never used: the kernel's rows are the gathered rows. -/
theorem taken_rows (c : Dev nD)
    (hr : ∀ k, -50257 ≤ (m ((c : Thread nD τ).loc main_arg0) k).toInt ∧ (m ((c : Thread nD τ).loc main_arg0) k).toInt < 50257) :
    W1 m ρ c (Proc.devRef .tc main_v0)
      = rows (m ((c : Thread nD τ).loc main_arg0)) (m ((c : Thread nD τ).loc main_arg3)) := by
  rw [taken]
  funext i
  show Scalar.select (passes (m ((c : Thread nD τ).loc main_arg0)) _) _ _ = _
  rw [passes_one _ hr, ValueIdx.select_one]

end Cert.KernelIdeal.Rows
-- ==== Proof.HostReads.lean ====
/-
  What the launches find in their buffers. Before the first launch the host program prepares each affine map's
  weight `W : [H, K]` as its transpose `Wᵀ : [K, H]` (and narrows it to a 16-bit float format, which changes nothing
  over the extended reals) and each bias `β : [H]` as the row `[1, H]`; the embedded rows are narrowed likewise. So
  at a launch's entry, entry `(k, h)` of a prepared weight is `W (h, k)`, entry `(0, h)` of a prepared bias is
  `β h`, and the previous states are the arguments themselves. A launch writes only its own output array, so the
  second launch finds what the first found, plus the first's result.
-/
import proofs.«400341_j38800734552172_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Reads

open Cert.KernelIdeal Cert.KernelIdeal.Gen

/-! ## Layout operations at an index -/

section Layout
variable {α : Type}

/-- A `[2048, 1024]` matrix transposed, at `(k, h)`. -/
theorem transpose_1024x2048_at (W : S2048x1024.Idx → α) (k : Fin 1024) (h : Fin 2048) :
    transpose S1024x2048 [1, 0] W transposes_S2048x1024_S1024x2048_1_0 (ix2 k h) = W (ix2 h k) :=
  transpose_apply [1, 0] W transposes_S2048x1024_S1024x2048_1_0 (ix2 k h) (ix2 h k) (fun b => match b with
    | ⟨0, _⟩ => rfl
    | ⟨1, _⟩ => rfl)

/-- A `[2048, 2048]` matrix transposed, at `(l, h)`. -/
theorem transpose_2048x2048_at (W : S2048x2048.Idx → α) (l h : Fin 2048) :
    transpose S2048x2048 [1, 0] W transposes_S2048x2048_S2048x2048_1_0 (ix2 l h) = W (ix2 h l) :=
  transpose_apply [1, 0] W transposes_S2048x2048_S2048x2048_1_0 (ix2 l h) (ix2 h l) (fun b => match b with
    | ⟨0, _⟩ => rfl
    | ⟨1, _⟩ => rfl)

/-- A vector `[2048]` laid out as the row `[1, 2048]`, at `(0, h)`. -/
theorem row_at (β : S2048.Idx → α) (h : Fin 2048) :
    shapeCast S1x2048 β shapeCasts_S2048_S1x2048 (ix2 (0 : Fin 1) h) = β (ix1 h) := by
  refine shapeCast_apply β shapeCasts_S2048_S1x2048 (ix2 (0 : Fin 1) h) (ix1 h) ?_
  rw [Shape.rowMajor_val_one, Shape.rowMajor_val_two]
  show h.val = (0 : Fin 1).val * 2048 + h.val
  simp

end Layout

/-! ## The prepared forms -/

/-- A weight `[2048, 1024]` as the host prepares it: transposed to `[1024, 2048]` and narrowed. -/
abbrev prepX (W : FVec Ideal S2048x1024 .f32) : FVec Ideal S1024x2048 .bf16 :=
  truncf (F := Ideal) .bf16 (transpose S1024x2048 [1, 0] W transposes_S2048x1024_S1024x2048_1_0) bitsLt_bf16_f32

/-- A weight `[2048, 2048]` as the host prepares it: transposed and narrowed. -/
abbrev prepM (W : FVec Ideal S2048x2048 .f32) : FVec Ideal S2048x2048 .bf16 :=
  truncf (F := Ideal) .bf16 (transpose S2048x2048 [1, 0] W transposes_S2048x2048_S2048x2048_1_0) bitsLt_bf16_f32

/-- A bias `[2048]` as the host prepares it: the row `[1, 2048]`. -/
abbrev prepB (β : FVec Ideal S2048 .f32) : FVec Ideal S1x2048 .f32 :=
  shapeCast S1x2048 β shapeCasts_S2048_S1x2048

/-- A prepared x-weight at `(k, h)` is the weight at `(h, k)`. -/
theorem prepX_at (W : FVec Ideal S2048x1024 .f32) (k : Fin 1024) (h : Fin 2048) : prepX W (ix2 k h) = W (ix2 h k) :=
  transpose_1024x2048_at W k h

/-- A prepared m-weight at `(l, h)` is the weight at `(h, l)`. -/
theorem prepM_at (W : FVec Ideal S2048x2048 .f32) (l h : Fin 2048) : prepM W (ix2 l h) = W (ix2 h l) :=
  transpose_2048x2048_at W l h

/-- A prepared bias at `(0, h)` is the bias at `h`. -/
theorem prepB_at (β : FVec Ideal S2048 .f32) (h : Fin 2048) : prepB β (ix2 (0 : Fin 1) h) = β (ix1 h) :=
  row_at β h

variable (m : (ℓ : Loc nD τ sig) → Buf (Elt Ideal) ℓ) (ρ : Dev nD → PrngReg)

/-- Reads a buffer the host prologue wrote (or left alone) back to the launch memory. -/
local macro "read_fold" : tactic => `(tactic| (dsimp only [V2, W2]; after_results; all_goals rfl))

/-! ## The first launch's entry contents -/

/-- The embedded rows, narrowed: what the `take` stretch left. -/
theorem v1_eq (c : Dev nD) : V2 m ρ c main_v1 = W1 m ρ c (Proc.devRef .tc main_v0) := by
  show StableHlo.after hostOps0_1 (W1 m ρ c) (Proc.devRef .tc main_v1) = _
  generalize W1 m ρ c = Wg
  after_results
  rfl

/-- The previous hidden state is the argument. -/
theorem arg1_eq (c : Dev nD) : V2 m ρ c main_arg1 = m ((c : Thread nD τ).loc main_arg1) := by
  read_fold

/-- `W_mxᵀ`, `b_mx` as a row, `W_mhᵀ`, `b_mh` as a row. -/
theorem v3_eq (c : Dev nD) : V2 m ρ c main_v3 = prepX (m ((c : Thread nD τ).loc main_arg4)) := by
  read_fold
theorem v22_eq (c : Dev nD) : V2 m ρ c main_v22 = prepB (m ((c : Thread nD τ).loc main_arg5)) := by
  read_fold
theorem v5_eq (c : Dev nD) : V2 m ρ c main_v5 = prepM (m ((c : Thread nD τ).loc main_arg6)) := by
  read_fold
theorem v23_eq (c : Dev nD) : V2 m ρ c main_v23 = prepB (m ((c : Thread nD τ).loc main_arg7)) := by
  read_fold

/-! ## The second launch's entry contents: what the first found, and the first's result -/

/-- The embedded rows are an input of the first launch, which leaves its inputs as it found them. -/
theorem v1_eq' (c : Dev nD) : V3 m ρ c main_v1 = V2 m ρ c main_v1 :=
  (W3_arr m ρ c 0).trans (((dat0 (V2 m ρ) c).arrAt_in 0 rfl _).trans (A_eq0 (V2 m ρ) c 0))

/-- The multiplicative state is the first launch's output array. -/
theorem v32_eq (c : Dev nD) : V3 m ρ c main_v32 = (dat0 (V2 m ρ) c).arrAt 6 cfg0.N := W3_arr m ρ c 6

/-- The previous cell state is the argument. -/
theorem arg2_eq (c : Dev nD) : V3 m ρ c main_arg2 = m ((c : Thread nD τ).loc main_arg2) :=
  (W3_of_ne m ρ c main_arg2 (by decide)).trans (by read_fold)

/-- Forget gate: `W_fxᵀ`, `b_fx`, `W_fmᵀ`, `b_fm`. -/
theorem v7_eq (c : Dev nD) : V3 m ρ c main_v7 = prepX (m ((c : Thread nD τ).loc main_arg8)) :=
  (W3_of_ne m ρ c main_v7 (by decide)).trans (by read_fold)
theorem v24_eq (c : Dev nD) : V3 m ρ c main_v24 = prepB (m ((c : Thread nD τ).loc main_arg9)) :=
  (W3_of_ne m ρ c main_v24 (by decide)).trans (by read_fold)
theorem v9_eq (c : Dev nD) : V3 m ρ c main_v9 = prepM (m ((c : Thread nD τ).loc main_arg10)) :=
  (W3_of_ne m ρ c main_v9 (by decide)).trans (by read_fold)
theorem v25_eq (c : Dev nD) : V3 m ρ c main_v25 = prepB (m ((c : Thread nD τ).loc main_arg11)) :=
  (W3_of_ne m ρ c main_v25 (by decide)).trans (by read_fold)

/-- Input gate: `W_ixᵀ`, `b_ix`, `W_imᵀ`, `b_im`. -/
theorem v11_eq (c : Dev nD) : V3 m ρ c main_v11 = prepX (m ((c : Thread nD τ).loc main_arg12)) :=
  (W3_of_ne m ρ c main_v11 (by decide)).trans (by read_fold)
theorem v26_eq (c : Dev nD) : V3 m ρ c main_v26 = prepB (m ((c : Thread nD τ).loc main_arg13)) :=
  (W3_of_ne m ρ c main_v26 (by decide)).trans (by read_fold)
theorem v13_eq (c : Dev nD) : V3 m ρ c main_v13 = prepM (m ((c : Thread nD τ).loc main_arg14)) :=
  (W3_of_ne m ρ c main_v13 (by decide)).trans (by read_fold)
theorem v27_eq (c : Dev nD) : V3 m ρ c main_v27 = prepB (m ((c : Thread nD τ).loc main_arg15)) :=
  (W3_of_ne m ρ c main_v27 (by decide)).trans (by read_fold)

/-- Output gate: `W_oxᵀ`, `b_ox`, `W_omᵀ`, `b_om`. -/
theorem v15_eq (c : Dev nD) : V3 m ρ c main_v15 = prepX (m ((c : Thread nD τ).loc main_arg16)) :=
  (W3_of_ne m ρ c main_v15 (by decide)).trans (by read_fold)
theorem v28_eq (c : Dev nD) : V3 m ρ c main_v28 = prepB (m ((c : Thread nD τ).loc main_arg17)) :=
  (W3_of_ne m ρ c main_v28 (by decide)).trans (by read_fold)
theorem v17_eq (c : Dev nD) : V3 m ρ c main_v17 = prepM (m ((c : Thread nD τ).loc main_arg18)) :=
  (W3_of_ne m ρ c main_v17 (by decide)).trans (by read_fold)
theorem v29_eq (c : Dev nD) : V3 m ρ c main_v29 = prepB (m ((c : Thread nD τ).loc main_arg19)) :=
  (W3_of_ne m ρ c main_v29 (by decide)).trans (by read_fold)

/-- Candidate: `W_cxᵀ`, `b_cx`, `W_cmᵀ`, `b_cm`. -/
theorem v19_eq (c : Dev nD) : V3 m ρ c main_v19 = prepX (m ((c : Thread nD τ).loc main_arg20)) :=
  (W3_of_ne m ρ c main_v19 (by decide)).trans (by read_fold)
theorem v30_eq (c : Dev nD) : V3 m ρ c main_v30 = prepB (m ((c : Thread nD τ).loc main_arg21)) :=
  (W3_of_ne m ρ c main_v30 (by decide)).trans (by read_fold)
theorem v21_eq (c : Dev nD) : V3 m ρ c main_v21 = prepM (m ((c : Thread nD τ).loc main_arg22)) :=
  (W3_of_ne m ρ c main_v21 (by decide)).trans (by read_fold)
theorem v31_eq (c : Dev nD) : V3 m ρ c main_v31 = prepB (m ((c : Thread nD τ).loc main_arg23)) :=
  (W3_of_ne m ρ c main_v31 (by decide)).trans (by read_fold)

end Cert.KernelIdeal.Reads
-- ==== Proof.TailReads.lean ====
/-
  What the program's three results hold at the end. After the second launch the host runs the decoder over the new
  hidden state: the first result is that stretch's value; the second and third results are the second launch's two
  output arrays, which the decoder stretch does not write. The decoder's weight and bias are arguments no host
  operation and no launch writes.
-/
import proofs.«400341_j38800734552172_3_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.Tail

open Cert.KernelIdeal Cert.KernelIdeal.Gen

variable (m : (ℓ : Loc nD τ sig) → Buf (Elt Ideal) ℓ) (ρ : Dev nD → PrngReg)

/-- The decoder stretch's value, over what the second launch left. -/
theorem out_eq (c : Dev nD) :
    W5 m ρ c (Proc.devRef .tc main_v38)
      = addf (Host.dotGeneral (F := Ideal) (φ₁ := .f32) (φ₂ := .f32) dot_S8192x2048_S2048x2_S8192x2_1_0_0_1_n_n none
            (W4 m ρ c (Proc.devRef .tc main_v33_0) : FVec Ideal S8192x2048 .f32)
            (transpose S2048x2 [1, 0] (W4 m ρ c (Proc.devRef .tc main_arg24) : FVec Ideal S2x2048 .f32)
              transposes_S2x2048_S2048x2_1_0))
          (broadcastInDim S8192x2 ![0, 1] bcast_S1x2_S8192x2_0_1
            (broadcastInDim S1x2 ![1] bcast_S2_S1x2_1 (W4 m ρ c (Proc.devRef .tc main_arg25) : FVec Ideal S2 .f32))) := by
  show StableHlo.after hostOps2 (W4 m ρ c) (Proc.devRef .tc main_v38) = _
  generalize W4 m ρ c = Wg
  after_results
  all_goals rfl

/-- The new hidden state is the second launch's window 19, untouched by the decoder stretch. -/
theorem hx_eq (c : Dev nD) : W5 m ρ c (Proc.devRef .tc main_v33_0) = (dat1 (V3 m ρ) c).arrAt 19 cfg1.N := by
  refine Eq.trans ?_ (W4_arr m ρ c 19)
  show StableHlo.after hostOps2 (W4 m ρ c) (Proc.devRef .tc main_v33_0) = _
  generalize W4 m ρ c = Wg
  after_results
  all_goals rfl

/-- The new cell state is the second launch's window 20, untouched by the decoder stretch. -/
theorem cx_eq (c : Dev nD) : W5 m ρ c (Proc.devRef .tc main_v33_1) = (dat1 (V3 m ρ) c).arrAt 20 cfg1.N := by
  refine Eq.trans ?_ (W4_arr m ρ c 20)
  show StableHlo.after hostOps2 (W4 m ρ c) (Proc.devRef .tc main_v33_1) = _
  generalize W4 m ρ c = Wg
  after_results
  all_goals rfl

/-- The decoder's weight, as the second launch left it, is the argument. -/
theorem arg24_eq (c : Dev nD) : W4 m ρ c (Proc.devRef .tc main_arg24) = m ((c : Thread nD τ).loc main_arg24) :=
  (W4_of_ne m ρ c main_arg24 (by decide)).trans ((W3_of_ne m ρ c main_arg24 (by decide)).trans (by
    show StableHlo.after hostOps0_1 (W1 m ρ c) (Proc.devRef .tc main_arg24) = _
    after_results
    all_goals rfl))

/-- The decoder's bias likewise. -/
theorem arg25_eq (c : Dev nD) : W4 m ρ c (Proc.devRef .tc main_arg25) = m ((c : Thread nD τ).loc main_arg25) :=
  (W4_of_ne m ρ c main_arg25 (by decide)).trans ((W3_of_ne m ρ c main_arg25 (by decide)).trans (by
    show StableHlo.after hostOps0_1 (W1 m ρ c) (Proc.devRef .tc main_arg25) = _
    after_results
    all_goals rfl))

end Cert.KernelIdeal.Tail
-- ==== Proof.Cell.lean ====
/-
  One step of a multiplicative LSTM over the extended reals, entry by entry.

  A batch row `b` carries an embedded input row `x b`, a previous hidden row `h₀ b` and a previous cell row
  `c₀ b`. With `aff x W β` the affine map `x Wᵀ + β` read at one entry,

    m   = (x W_mxᵀ + b_mx) ⊙ (h₀ W_mhᵀ + b_mh)                    the multiplicative state
    p_g = (x W_gxᵀ + b_gx) + (m W_gmᵀ + b_gm)      g ∈ {f, i, o, c}   a gate's pre-activation
    c   = σ(p_f) ⊙ c₀ + σ(p_i) ⊙ tanh(p_c)                          the new cell state
    h   = σ(p_o) ⊙ tanh(c)                                           the new hidden state
    y   = h W_decᵀ + b_dec                                           the decoded output

  with `σ z = 1 / (1 + e^(-z))`. Every sum here is a finite sum in the commutative monoid of extended reals, so the
  one law that joins two ways of writing a pre-activation — adding the four summands as `(s + β) + (t + γ)` or as
  `((s + β) + t) + γ` — is associativity of `+`, which holds at the infinities too: nothing below asks an entry
  to be finite.
-/
import Idealize.ShloMosaic.PureOps.Ideal
import Idealize.ShloMosaic.Lib.ValueIdx
import Idealize.ShloMosaic.Lib.IdealHost

noncomputable section

open Idealize.ShloMosaic
open scoped BigOperators

namespace Cert.Cell

/-- Entry `(b, h)` of `x Wᵀ + β`: row `b` of `x` against row `h` of `W`, plus `β h`. -/
def aff {B H K : ℕ} (x : Fin B → Fin K → EReal) (W : Fin H → Fin K → EReal) (β : Fin H → EReal)
    (b : Fin B) (h : Fin H) : EReal :=
  (∑ k : Fin K, x b k * W h k) + β h

/-- The two groupings of a pre-activation's four summands agree: `+` on the extended reals is associative. -/
theorem pre_assoc (s β u γ : EReal) : ((s + β) + u) + γ = (s + β) + (u + γ) := add_assoc _ _ _

/-- `σ z` as the quotient `1 / (1 + e^(-z))` is the logistic function (its definition, read backwards). -/
theorem logistic_quot (z : EReal) : Ideal.div 1 (1 + Ideal.exp (-z)) = Ideal.logistic z := rfl

/-- The cell update at one entry, from the three pre-activations that enter it and the old cell entry. -/
def cellAt (pf pi pc c0 : EReal) : EReal := Ideal.logistic pf * c0 + Ideal.logistic pi * Ideal.tanh pc

/-- The hidden update at one entry, from the output gate's pre-activation and the new cell entry. -/
def hiddenAt (po c : EReal) : EReal := Ideal.logistic po * Ideal.tanh c

/-- The data of one step: the embedded input rows, the previous states, and the weights, each as a function of its
    coordinates (a weight matrix by output feature, then input feature: the layout in which `x Wᵀ` pairs rows). -/
structure Net where
  x : Fin 8192 → Fin 1024 → EReal
  h0 : Fin 8192 → Fin 2048 → EReal
  c0 : Fin 8192 → Fin 2048 → EReal
  Wmx : Fin 2048 → Fin 1024 → EReal
  bmx : Fin 2048 → EReal
  Wmh : Fin 2048 → Fin 2048 → EReal
  bmh : Fin 2048 → EReal
  Wfx : Fin 2048 → Fin 1024 → EReal
  bfx : Fin 2048 → EReal
  Wfm : Fin 2048 → Fin 2048 → EReal
  bfm : Fin 2048 → EReal
  Wix : Fin 2048 → Fin 1024 → EReal
  bix : Fin 2048 → EReal
  Wim : Fin 2048 → Fin 2048 → EReal
  bim : Fin 2048 → EReal
  Wox : Fin 2048 → Fin 1024 → EReal
  box : Fin 2048 → EReal
  Wom : Fin 2048 → Fin 2048 → EReal
  bom : Fin 2048 → EReal
  Wcx : Fin 2048 → Fin 1024 → EReal
  bcx : Fin 2048 → EReal
  Wcm : Fin 2048 → Fin 2048 → EReal
  bcm : Fin 2048 → EReal
  Wdec : Fin 2 → Fin 2048 → EReal
  bdec : Fin 2 → EReal

namespace Net

variable (N : Net)

/-- The multiplicative state `m = (x W_mxᵀ + b_mx) ⊙ (h₀ W_mhᵀ + b_mh)`. -/
def m (b : Fin 8192) (h : Fin 2048) : EReal := aff N.x N.Wmx N.bmx b h * aff N.h0 N.Wmh N.bmh b h

/-- A gate's pre-activation `(x W_xᵀ + b_x) + (m W_mᵀ + b_m)` from that gate's four parameters. -/
def pre (Wx : Fin 2048 → Fin 1024 → EReal) (bx : Fin 2048 → EReal) (Wm : Fin 2048 → Fin 2048 → EReal)
    (bm : Fin 2048 → EReal) (b : Fin 8192) (h : Fin 2048) : EReal :=
  aff N.x Wx bx b h + aff N.m Wm bm b h

/-- The new cell state. -/
def cx (b : Fin 8192) (h : Fin 2048) : EReal :=
  cellAt (N.pre N.Wfx N.bfx N.Wfm N.bfm b h) (N.pre N.Wix N.bix N.Wim N.bim b h) (N.pre N.Wcx N.bcx N.Wcm N.bcm b h)
    (N.c0 b h)

/-- The new hidden state. -/
def hx (b : Fin 8192) (h : Fin 2048) : EReal := hiddenAt (N.pre N.Wox N.box N.Wom N.bom b h) (N.cx b h)

/-- The decoded output `h W_decᵀ + b_dec`. -/
def out (b : Fin 8192) (o : Fin 2) : EReal := aff N.hx N.Wdec N.bdec b o

end Net

end Cert.Cell
-- ==== Proof.CellArrays.lean ====
/-
  The step's quantities read from ARRAYS. Two layouts of an affine map `x Wᵀ + β` occur:

  * the weight as it is given, `W : [H, K]` (output feature, then input feature) with the bias a vector `[H]` —
    the layout of `Cell.Net`'s fields, built from arrays by `netOf`;
  * the weight already transposed, `Wᵀ : [K, H]`, with the bias as a `[1, H]` row — `affT`, `mstateT`, `gateT`.

  Entry `(b, h)` is the same number either way as soon as `Wᵀ (k, h) = W (h, k)` and the row's entry `(0, h)` is
  `β h`: `affT_eq`.
-/
import proofs.«400341_j38800734552172_3_alg».proof.Proof.Cell

noncomputable section

open Idealize.ShloMosaic Idealize.ShloMosaic.ValueIdx
open scoped BigOperators

namespace Cert.Cell

/-- A matrix of extended reals, indexed as an array of shape `[n, m]`. -/
abbrev A2 (n m : ℕ) : Type := (⟨2, ![n, m]⟩ : Shape).Idx → EReal
/-- A vector of extended reals, indexed as an array of shape `[n]`. -/
abbrev A1 (n : ℕ) : Type := (⟨1, ![n]⟩ : Shape).Idx → EReal

/-- Entry `(b, h)` of `x Wᵀ + β` from `x : [B, K]`, the TRANSPOSED weight `Wᵀ : [K, H]` and the bias row `[1, H]`. -/
def affT {B H K : ℕ} (x : A2 B K) (wT : A2 K H) (β : A2 1 H) (b : Fin B) (h : Fin H) : EReal :=
  aff (fun b k => x (ix2 b k)) (fun h k => wT (ix2 k h)) (fun h => β (ix2 (0 : Fin 1) h)) b h

/-- The transposed layout computes the given one's entry once the two weights and the two biases are matched. -/
theorem affT_eq {B H K : ℕ} (x : A2 B K) (wT : A2 K H) (β : A2 1 H) (x' : Fin B → Fin K → EReal)
    (W : Fin H → Fin K → EReal) (β' : Fin H → EReal) (hx : ∀ b k, x (ix2 b k) = x' b k)
    (hw : ∀ k h, wT (ix2 k h) = W h k) (hβ : ∀ h, β (ix2 (0 : Fin 1) h) = β' h) (b : Fin B) (h : Fin H) :
    affT x wT β b h = aff x' W β' b h := by
  show (∑ k : Fin K, x (ix2 b k) * wT (ix2 k h)) + β (ix2 (0 : Fin 1) h) = (∑ k : Fin K, x' b k * W h k) + β' h
  rw [hβ h]
  exact congrArg (· + β' h) (Finset.sum_congr rfl fun k _ => by rw [hx b k, hw k h])

/-- The multiplicative state's entry from arrays in the transposed layout. -/
def mstateT (x : A2 8192 1024) (h0 : A2 8192 2048) (wx : A2 1024 2048) (bx : A2 1 2048) (wh : A2 2048 2048)
    (bh : A2 1 2048) (b : Fin 8192) (h : Fin 2048) : EReal :=
  affT x wx bx b h * affT h0 wh bh b h

/-- A gate's pre-activation `(x W_xᵀ + b_x) + (m W_mᵀ + b_m)` from arrays in the transposed layout. -/
def gateT (x : A2 8192 1024) (mm : A2 8192 2048) (wx : A2 1024 2048) (bx : A2 1 2048) (wm : A2 2048 2048)
    (bm : A2 1 2048) (b : Fin 8192) (h : Fin 2048) : EReal :=
  affT x wx bx b h + affT mm wm bm b h

/-- The step's data from arrays in the given layout: the embedded rows `X`, the two previous states, then per
    affine map its weight `[H, K]` and its bias `[H]`, in the order m-from-x, m-from-h, then the forget, input,
    output and candidate gates (each from x, then from m), then the decoder. -/
def netOf (X : A2 8192 1024) (h0 c0 : A2 8192 2048)
    (Wmx : A2 2048 1024) (bmx : A1 2048) (Wmh : A2 2048 2048) (bmh : A1 2048)
    (Wfx : A2 2048 1024) (bfx : A1 2048) (Wfm : A2 2048 2048) (bfm : A1 2048)
    (Wix : A2 2048 1024) (bix : A1 2048) (Wim : A2 2048 2048) (bim : A1 2048)
    (Wox : A2 2048 1024) (box : A1 2048) (Wom : A2 2048 2048) (bom : A1 2048)
    (Wcx : A2 2048 1024) (bcx : A1 2048) (Wcm : A2 2048 2048) (bcm : A1 2048)
    (Wdec : A2 2 2048) (bdec : A1 2) : Net where
  x := fun b k => X (ix2 b k)
  h0 := fun b l => h0 (ix2 b l)
  c0 := fun b h => c0 (ix2 b h)
  Wmx := fun h k => Wmx (ix2 h k)
  bmx := fun h => bmx (ix1 h)
  Wmh := fun h l => Wmh (ix2 h l)
  bmh := fun h => bmh (ix1 h)
  Wfx := fun h k => Wfx (ix2 h k)
  bfx := fun h => bfx (ix1 h)
  Wfm := fun h l => Wfm (ix2 h l)
  bfm := fun h => bfm (ix1 h)
  Wix := fun h k => Wix (ix2 h k)
  bix := fun h => bix (ix1 h)
  Wim := fun h l => Wim (ix2 h l)
  bim := fun h => bim (ix1 h)
  Wox := fun h k => Wox (ix2 h k)
  box := fun h => box (ix1 h)
  Wom := fun h l => Wom (ix2 h l)
  bom := fun h => bom (ix1 h)
  Wcx := fun h k => Wcx (ix2 h k)
  bcx := fun h => bcx (ix1 h)
  Wcm := fun h l => Wcm (ix2 h l)
  bcm := fun h => bcm (ix1 h)
  Wdec := fun o h => Wdec (ix2 o h)
  bdec := fun o => bdec (ix1 o)

end Cert.Cell
-- ==== Proof.Stage0.lean ====
/-
  The first launch's result array, entry by entry. Each of its 32 grid points takes one block of 256 batch rows:
  the rows' embedded inputs `x` and previous hidden rows `h₀`, against the two whole transposed weights and bias
  rows, and writes back the block `(x W_mxᵀ + b_mx) ⊙ (h₀ W_mhᵀ + b_mh)` of the multiplicative state. Both
  contractions run over their whole axis inside one block, so entry `(b, h)` of the finished array is
  `Cell.mstateT` of the arrays the launch found, whatever those hold.
-/
import proofs.«400341_j38800734552172_3_alg».proof.Proof.Gen.KernelIdeal.Frame
import proofs.«400341_j38800734552172_3_alg».proof.Proof.CellArrays
import Idealize.ShloMosaic.Lib.Pipeline.Value
import Idealize.ShloMosaic.Lib.ValueIdx
import Idealize.ShloMosaic.PureOps.Ideal.Laws

-- the arrays' coordinates run to 8192, 2048 and 1024: literal index arithmetic recurses past the default depth
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Stage0

open Cert.KernelIdeal Cert.KernelIdeal.Gen

variable (V : (c : Dev nD) → (b : Ref sig .tc) → Buf (Elt Ideal) ((c : Thread nD τ).loc b))

/-- The left operand of the x contraction is read at the output's row … -/
theorem lhs_x_0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
/-- … and at the contraction index on its second axis; -/
theorem lhs_x_1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
/-- the right operand at the contraction index on its first axis … -/
theorem rhs_x_0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
/-- … and at the output's column. -/
theorem rhs_x_1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The x product into the zero accumulator, read at entry `(p, q)`: row `p` of the left operand against
    column `q` of the right one. -/
theorem matmul_x_apply (x : FVec Ideal S256x1024 .bf16) (y : FVec Ideal S1024x2048 .bf16) (p : Fin 256) (q : Fin 2048) :
    matmul dot_S256x1024_S1024x2048_S256x2048_1_0_0_1_n_n none x y (constant (F := Ideal) S256x2048 .f32 0x00000000#32) (ix2 p q)
      = ∑ k : Fin 1024, x (ix2 p k) * y (ix2 k q) := by
  refine (Ideal.matmul_constant_zero_apply dot_S256x1024_S1024x2048_S256x2048_1_0_0_1_n_n none x y (ix2 p q)).trans ?_
  rw [← Equiv.sum_comp (ValueIdx.contrEquiv1 dot_S256x1024_S1024x2048_S256x2048_1_0_0_1_n_n 1024 rfl rfl).symm]
  refine Finset.sum_congr rfl fun k _ => ?_
  have hk := ValueIdx.contrEquiv1_symm_val dot_S256x1024_S1024x2048_S256x2048_1_0_0_1_n_n 1024 rfl rfl k
  have el : dot_S256x1024_S1024x2048_S256x2048_1_0_0_1_n_n.lhsIdx (ix2 p q) ((ValueIdx.contrEquiv1 dot_S256x1024_S1024x2048_S256x2048_1_0_0_1_n_n 1024 rfl rfl).symm k) = ix2 p k := funext fun a => Fin.ext (by
    match a with
    | ⟨0, _⟩ => exact lhs_x_0 _ _
    | ⟨1, _⟩ => exact (lhs_x_1 _ _).trans hk)
  have er : dot_S256x1024_S1024x2048_S256x2048_1_0_0_1_n_n.rhsIdx (ix2 p q) ((ValueIdx.contrEquiv1 dot_S256x1024_S1024x2048_S256x2048_1_0_0_1_n_n 1024 rfl rfl).symm k) = ix2 k q := funext fun a => Fin.ext (by
    match a with
    | ⟨0, _⟩ => exact (rhs_x_0 _ _).trans hk
    | ⟨1, _⟩ => exact rhs_x_1 _ _)
  rw [el, er]

/-- The left operand of the h contraction is read at the output's row … -/
theorem lhs_h_0 (i : S256x2048.Idx) (q : dot_S256x2048_S2048x2048_S256x2048_1_0_0_1_n_n.contr.Idx) :
    (dot_S256x2048_S2048x2048_S256x2048_1_0_0_1_n_n.lhsIdx i q 0).val = (i 0).val := by
  unfold DotDims.lhsIdx
  rw [dif_neg (show ¬(0 : Fin S256x2048.rank) ∈ dot_S256x2048_S2048x2048_S256x2048_1_0_0_1_n_n.lhsBatch by decide), dif_pos (show (0 : Fin S256x2048.rank) ∈ dot_S256x2048_S2048x2048_S256x2048_1_0_0_1_n_n.lhsNonContracting by decide)]
  rfl
/-- … and at the contraction index on its second axis; -/
theorem lhs_h_1 (i : S256x2048.Idx) (q : dot_S256x2048_S2048x2048_S256x2048_1_0_0_1_n_n.contr.Idx) :
    (dot_S256x2048_S2048x2048_S256x2048_1_0_0_1_n_n.lhsIdx i q 1).val = (q ⟨0, by decide⟩).val :=
  dot_S256x2048_S2048x2048_S256x2048_1_0_0_1_n_n.lhsIdx_val_of_single rfl i q
/-- the right operand at the contraction index on its first axis … -/
theorem rhs_h_0 (i : S256x2048.Idx) (q : dot_S256x2048_S2048x2048_S256x2048_1_0_0_1_n_n.contr.Idx) :
    (dot_S256x2048_S2048x2048_S256x2048_1_0_0_1_n_n.rhsIdx i q 0).val = (q ⟨0, by decide⟩).val :=
  dot_S256x2048_S2048x2048_S256x2048_1_0_0_1_n_n.rhsIdx_val_of_single rfl i q
/-- … and at the output's column. -/
theorem rhs_h_1 (i : S256x2048.Idx) (q : dot_S256x2048_S2048x2048_S256x2048_1_0_0_1_n_n.contr.Idx) :
    (dot_S256x2048_S2048x2048_S256x2048_1_0_0_1_n_n.rhsIdx i q 1).val = (i 1).val := by
  unfold DotDims.rhsIdx
  rw [dif_neg (show ¬(1 : Fin S2048x2048.rank) ∈ dot_S256x2048_S2048x2048_S256x2048_1_0_0_1_n_n.rhsBatch by decide), dif_pos (show (1 : Fin S2048x2048.rank) ∈ dot_S256x2048_S2048x2048_S256x2048_1_0_0_1_n_n.rhsNonContracting by decide)]
  rfl

/-- The h product into the zero accumulator, read at entry `(p, q)`: row `p` of the left operand against
    column `q` of the right one. -/
theorem matmul_h_apply (x : FVec Ideal S256x2048 .bf16) (y : FVec Ideal S2048x2048 .bf16) (p : Fin 256) (q : Fin 2048) :
    matmul dot_S256x2048_S2048x2048_S256x2048_1_0_0_1_n_n none x y (constant (F := Ideal) S256x2048 .f32 0x00000000#32) (ix2 p q)
      = ∑ k : Fin 2048, x (ix2 p k) * y (ix2 k q) := by
  refine (Ideal.matmul_constant_zero_apply dot_S256x2048_S2048x2048_S256x2048_1_0_0_1_n_n none x y (ix2 p q)).trans ?_
  rw [← Equiv.sum_comp (ValueIdx.contrEquiv1 dot_S256x2048_S2048x2048_S256x2048_1_0_0_1_n_n 2048 rfl rfl).symm]
  refine Finset.sum_congr rfl fun k _ => ?_
  have hk := ValueIdx.contrEquiv1_symm_val dot_S256x2048_S2048x2048_S256x2048_1_0_0_1_n_n 2048 rfl rfl k
  have el : dot_S256x2048_S2048x2048_S256x2048_1_0_0_1_n_n.lhsIdx (ix2 p q) ((ValueIdx.contrEquiv1 dot_S256x2048_S2048x2048_S256x2048_1_0_0_1_n_n 2048 rfl rfl).symm k) = ix2 p k := funext fun a => Fin.ext (by
    match a with
    | ⟨0, _⟩ => exact lhs_h_0 _ _
    | ⟨1, _⟩ => exact (lhs_h_1 _ _).trans hk)
  have er : dot_S256x2048_S2048x2048_S256x2048_1_0_0_1_n_n.rhsIdx (ix2 p q) ((ValueIdx.contrEquiv1 dot_S256x2048_S2048x2048_S256x2048_1_0_0_1_n_n 2048 rfl rfl).symm k) = ix2 k q := funext fun a => Fin.ext (by
    match a with
    | ⟨0, _⟩ => exact (rhs_h_0 _ _).trans hk
    | ⟨1, _⟩ => exact rhs_h_1 _ _)
  rw [el, er]

/-- A bias row spread over the 256 rows of a block reads, at entry `(p, q)`, the row's entry `(0, q)`. -/
theorem biasRow_apply (x : FVec Ideal S1x2048 .f32) (p : Fin 256) (q : Fin 2048) :
    broadcastTo S256x2048 (shapeCast S1x2048 x shapeCasts_S1x2048_S1x2048) broadcasts_S1x2048_S256x2048 (ix2 p q)
      = x (ix2 (0 : Fin 1) q) := by
  rw [shapeCast_self]
  refine broadcastTo_apply x broadcasts_S1x2048_S256x2048 (ix2 p q) (ix2 (0 : Fin 1) q) fun a => ?_
  match a with
  | ⟨0, _⟩ => rfl
  | ⟨1, _⟩ => rfl

/-- THE BLOCK'S ARITHMETIC AT AN ENTRY: the product of the two affine maps, each a contraction over its whole axis
    plus its bias row's entry. -/
theorem pay_apply (x0 : Vec Ideal S256x1024 .bf16) (x1 : Vec Ideal S256x2048 .f32) (x2 : Vec Ideal S1024x2048 .bf16)
    (x3 : Vec Ideal S1x2048 .f32) (x4 : Vec Ideal S2048x2048 .bf16) (x5 : Vec Ideal S1x2048 .f32) (p : Fin 256) (q : Fin 2048) :
    k0_pay1 x0 x1 x2 x3 x4 x5 (ix2 p q)
      = ((∑ k : Fin 1024, x0 (ix2 p k) * x2 (ix2 k q)) + x3 (ix2 (0 : Fin 1) q))
        * ((∑ l : Fin 2048, x1 (ix2 p l) * x4 (ix2 l q)) + x5 (ix2 (0 : Fin 1) q)) := by
  unfold k0_pay1
  rw [mulf_apply, addf_apply, addf_apply, biasRow_apply, biasRow_apply, shapeCast_self, shapeCast_self, shapeCast_self]
  rw [matmul_x_apply, matmul_h_apply]
  rfl

/-- The block's loads and its one store sit at the zero offsets of whole staging buffers. -/
theorem zero_offsets : (![0, 0] : Fin 2 → Nat) = fun _ => 0 := funext fun a => by fin_cases a <;> rfl

/-- THE WHOLE ARRAY the launch leaves, as one function of the arrays it found: entry `(b, h)` is the multiplicative
    state of batch row `b` at feature `h`. -/
def mstateArr (c : Dev nD) : S8192x2048.Idx → Elt Ideal .f32 := fun i =>
  Cert.Cell.mstateT (V c main_v1) (V c main_arg1) (V c main_v3) (V c main_v22) (V c main_v5) (V c main_v23) (i 0) (i 1)

/-- The product of two affine maps whose operands are read through any index functions is the multiplicative
    state's entry `(b, h)` as soon as those functions name row `b` of the two row operands, column `h` of the two
    weights and entry `(0, h)` of the two bias rows. -/
theorem mstate_of_reads (X : Cert.Cell.A2 8192 1024) (H : Cert.Cell.A2 8192 2048) (WX : Cert.Cell.A2 1024 2048)
    (BX : Cert.Cell.A2 1 2048) (WH : Cert.Cell.A2 2048 2048) (BH : Cert.Cell.A2 1 2048)
    (fx : Fin 1024 → (⟨2, ![8192, 1024]⟩ : Shape).Idx) (fwx : Fin 1024 → (⟨2, ![1024, 2048]⟩ : Shape).Idx)
    (ibx : (⟨2, ![1, 2048]⟩ : Shape).Idx)
    (fh : Fin 2048 → (⟨2, ![8192, 2048]⟩ : Shape).Idx) (fwh : Fin 2048 → (⟨2, ![2048, 2048]⟩ : Shape).Idx)
    (ibh : (⟨2, ![1, 2048]⟩ : Shape).Idx) (b : Fin 8192) (h : Fin 2048)
    (hx : ∀ k, fx k = ix2 b k) (hwx : ∀ k, fwx k = ix2 k h) (hbx : ibx = ix2 (0 : Fin 1) h)
    (hh : ∀ l, fh l = ix2 b l) (hwh : ∀ l, fwh l = ix2 l h) (hbh : ibh = ix2 (0 : Fin 1) h) :
    ((∑ k : Fin 1024, X (fx k) * WX (fwx k)) + BX ibx) * ((∑ l : Fin 2048, H (fh l) * WH (fwh l)) + BH ibh)
      = Cert.Cell.mstateT X H WX BX WH BH b h := by
  subst hbx hbh
  rw [Finset.sum_congr rfl fun k _ => show X (fx k) * WX (fwx k) = X (ix2 b k) * WX (ix2 k h) by rw [hx k, hwx k],
    Finset.sum_congr rfl fun l _ => show H (fh l) * WH (fwh l) = H (ix2 b l) * WH (ix2 l h) by rw [hh l, hwh l]]
  rfl

/-- The printed index maps, decided over the 32 grid points: the two row-blocked inputs move with the output, block
    `t` of 256 rows at point `t`; the weights and bias rows stay at block `(0, 0)`, which is all of each. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 31 ∧ win0_6.index t (1 : Fin 2) = 0 :=
  (by decide +kernel : ∀ t : Fin grid0.N, _)

/-- Every one of the 32 row blocks is some point's. -/
theorem index_onto : ∀ r : Fin 32, ∃ t : Fin cfg0.N, win0_6.index t = ![r.val, 0] :=
  (by decide +kernel : ∀ r : Fin 32, ∃ t : Fin grid0.N, win0_6.index t = ![r.val, 0])

/-- Block `t` of the input rows is read, for the output's entry `(p, q)`, at the output's row and contraction index `k`. -/
theorem emb_x (t : Fin cfg0.N) (p : Fin 256) (q : Fin 2048) (k : Fin 1024) :
    ((cfg0.win 0).blk t).view.emb (ix2 p k) = ix2 (((cfg0.win 6).blk t).view.emb (ix2 p q) 0) k := by
  obtain ⟨e00, e01, e10, e11, e20, e21, e30, e31, e40, e41, e50, e51, e60, e61⟩ := index_facts t
  funext a; apply Fin.ext
  match a with
  | ⟨0, _⟩ => show win0_0.index t (0 : Fin 2) * 256 + 1 * p.val = win0_6.index t (0 : Fin 2) * 256 + 1 * p.val; omega
  | ⟨1, _⟩ => show win0_0.index t (1 : Fin 2) * 1024 + 1 * k.val = k.val; omega

/-- Block `t` of the previous hidden rows likewise, at the output's row and contraction index `l`. -/
theorem emb_h (t : Fin cfg0.N) (p : Fin 256) (q : Fin 2048) (l : Fin 2048) :
    ((cfg0.win 1).blk t).view.emb (ix2 p l) = ix2 (((cfg0.win 6).blk t).view.emb (ix2 p q) 0) l := by
  obtain ⟨e00, e01, e10, e11, e20, e21, e30, e31, e40, e41, e50, e51, e60, e61⟩ := index_facts t
  funext a; apply Fin.ext
  match a with
  | ⟨0, _⟩ => show win0_1.index t (0 : Fin 2) * 256 + 1 * p.val = win0_6.index t (0 : Fin 2) * 256 + 1 * p.val; omega
  | ⟨1, _⟩ => show win0_1.index t (1 : Fin 2) * 2048 + 1 * l.val = l.val; omega

/-- The input weight's one block is the whole array: entry `(k, q)` of it is entry `(k, column of the output)`. -/
theorem emb_wx (t : Fin cfg0.N) (p : Fin 256) (q : Fin 2048) (k : Fin 1024) :
    ((cfg0.win 2).blk t).view.emb (ix2 k q) = ix2 k (((cfg0.win 6).blk t).view.emb (ix2 p q) 1) := by
  obtain ⟨e00, e01, e10, e11, e20, e21, e30, e31, e40, e41, e50, e51, e60, e61⟩ := index_facts t
  funext a; apply Fin.ext
  match a with
  | ⟨0, _⟩ => show win0_2.index t (0 : Fin 2) * 1024 + 1 * k.val = k.val; omega
  | ⟨1, _⟩ => show win0_2.index t (1 : Fin 2) * 2048 + 1 * q.val = win0_6.index t (1 : Fin 2) * 2048 + 1 * q.val; omega

/-- The input bias row's one block is the whole row. -/
theorem emb_bx (t : Fin cfg0.N) (p : Fin 256) (q : Fin 2048) :
    ((cfg0.win 3).blk t).view.emb (ix2 (0 : Fin 1) q) = ix2 (0 : Fin 1) (((cfg0.win 6).blk t).view.emb (ix2 p q) 1) := by
  obtain ⟨e00, e01, e10, e11, e20, e21, e30, e31, e40, e41, e50, e51, e60, e61⟩ := index_facts t
  funext a; apply Fin.ext
  match a with
  | ⟨0, _⟩ => show win0_3.index t (0 : Fin 2) * 1 + 1 * 0 = 0; omega
  | ⟨1, _⟩ => show win0_3.index t (1 : Fin 2) * 2048 + 1 * q.val = win0_6.index t (1 : Fin 2) * 2048 + 1 * q.val; omega

/-- The hidden weight's one block is the whole array. -/
theorem emb_wh (t : Fin cfg0.N) (p : Fin 256) (q : Fin 2048) (l : Fin 2048) :
    ((cfg0.win 4).blk t).view.emb (ix2 l q) = ix2 l (((cfg0.win 6).blk t).view.emb (ix2 p q) 1) := by
  obtain ⟨e00, e01, e10, e11, e20, e21, e30, e31, e40, e41, e50, e51, e60, e61⟩ := index_facts t
  funext a; apply Fin.ext
  match a with
  | ⟨0, _⟩ => show win0_4.index t (0 : Fin 2) * 2048 + 1 * l.val = l.val; omega
  | ⟨1, _⟩ => show win0_4.index t (1 : Fin 2) * 2048 + 1 * q.val = win0_6.index t (1 : Fin 2) * 2048 + 1 * q.val; omega

/-- The hidden bias row's one block is the whole row. -/
theorem emb_bh (t : Fin cfg0.N) (p : Fin 256) (q : Fin 2048) :
    ((cfg0.win 5).blk t).view.emb (ix2 (0 : Fin 1) q) = ix2 (0 : Fin 1) (((cfg0.win 6).blk t).view.emb (ix2 p q) 1) := by
  obtain ⟨e00, e01, e10, e11, e20, e21, e30, e31, e40, e41, e50, e51, e60, e61⟩ := index_facts t
  funext a; apply Fin.ext
  match a with
  | ⟨0, _⟩ => show win0_5.index t (0 : Fin 2) * 1 + 1 * 0 = 0; omega
  | ⟨1, _⟩ => show win0_5.index t (1 : Fin 2) * 2048 + 1 * q.val = win0_6.index t (1 : Fin 2) * 2048 + 1 * q.val; omega

/-- WHAT POINT `t` WRITES BACK is block `t` of `mstateArr`: each entry of the block is the product of the two affine
    maps, whose operands' blocks are read at the rows the output's block names and at whole weight columns. -/
theorem flushed_eq (c : Dev nD) (t : Fin cfg0.N) :
    (dat0 (F := Ideal) V c).flushed 6 t = ((cfg0.win 6).blk t).view.read (Elt Ideal) (mstateArr V c) := by
  show (cfg0.win 6).cut (grid0.coords t) ((dat0 (F := Ideal) V c).after 6 t) = _
  rw [after0_6]
  unfold out0_6
  rw [View.canon_unit_zero zero_offsets]
  simp only [View.ld_unit_zero (S := S256x1024) zero_offsets, View.ld_unit_zero (S := S256x2048) zero_offsets,
    View.ld_unit_zero (S := S1024x2048) zero_offsets, View.ld_unit_zero (S := S1x2048) zero_offsets,
    View.ld_unit_zero (S := S2048x2048) zero_offsets]
  funext j
  obtain ⟨p, q, rfl⟩ : ∃ (p : Fin 256) (q : Fin 2048), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = mstateArr V c (((cfg0.win 6).blk t).view.emb (ix2 p q))
  refine (pay_apply _ _ _ _ _ _ p q).trans ?_
  exact mstate_of_reads (V c main_v1) (V c main_arg1) (V c main_v3) (V c main_v22) (V c main_v5) (V c main_v23)
    (fun k => ((cfg0.win 0).blk t).view.emb (ix2 p k)) (fun k => ((cfg0.win 2).blk t).view.emb (ix2 k q))
    (((cfg0.win 3).blk t).view.emb (ix2 (0 : Fin 1) q))
    (fun l => ((cfg0.win 1).blk t).view.emb (ix2 p l)) (fun l => ((cfg0.win 4).blk t).view.emb (ix2 l q))
    (((cfg0.win 5).blk t).view.emb (ix2 (0 : Fin 1) q))
    (((cfg0.win 6).blk t).view.emb (ix2 p q) 0) (((cfg0.win 6).blk t).view.emb (ix2 p q) 1)
    (emb_x t p q) (emb_wx t p q) (emb_bx t p q) (emb_h t p q) (emb_wh t p q) (emb_bh t p q)

/-- An index of the array is in point `t`'s block iff each coordinate is in the block's range on its axis. -/
theorem mem_blk (t : Fin cfg0.N) (i : S8192x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v32).slice (win0_6.rect t)).set ↔ _
  rw [View.set_slice_whole, Rect.mem_set_unit]
  exact Iff.rfl

/-- THE BLOCKS FILL THE ARRAY: row `r` lies in the block of the point whose block index is `r / 256`, and a block
    takes all 2048 columns; every point writes its block back. -/
theorem covered (i : S8192x2048.Idx) :
    ∃ t : Fin cfg0.N, (cfg0.win 6).flush t = true ∧ i ∈ ((cfg0.win 6).blk t).view.set := by
  have hi0 : (i 0).val < 8192 := (i 0).isLt
  have hi1 : (i 1).val < 2048 := (i 1).isLt
  obtain ⟨t, ht⟩ := index_onto ⟨(i 0).val / 256, by omega⟩
  have q0 : win0_6.index t (0 : Fin 2) = (i 0).val / 256 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- THE ARRAY when the launch has ended is `mstateArr` of the arrays it found. -/
theorem arr_final (c : Dev nD) : (dat0 (F := Ideal) V c).arrAt 6 cfg0.N = mstateArr V c :=
  (dat0 (F := Ideal) V c).arrAt_eq_of_cover 6 (mstateArr V c) (fun t _ => flushed_eq V c t) covered

/-- Entry `(b, h)` of the multiplicative-state array when the first launch has ended, from the contents `V` the
    launch was entered with. -/
theorem mstate_at (c : Dev nD) (b : Fin 8192) (h : Fin 2048) :
    (dat0 (F := Ideal) V c).arrAt 6 cfg0.N (ix2 b h)
      = Cert.Cell.mstateT (V c main_v1) (V c main_arg1) (V c main_v3) (V c main_v22) (V c main_v5) (V c main_v23) b h :=
  congrFun (arr_final V c) (ix2 b h)

end Cert.KernelIdeal.Stage0
-- ==== Proof.Stage1.lean ====
/-
  The second launch's two result arrays, entry by entry. Its grid is 4 hidden tiles of 512 features (outer) by 32
  batch tiles of 256 rows (inner); point `(i, j)` reads batch tile `j` of `x` and of the multiplicative state
  `m` (all their features), tile `(j, i)` of the previous cell state, and column tile `i` of each gate's two
  transposed weights and two bias rows, and writes tile `(j, i)` of the new cell and hidden states. Every
  contraction again runs over its whole axis inside one block, so the finished arrays hold `Cell.cellAt` and
  `Cell.hiddenAt` of the four gates' pre-activations `Cell.gateT`, of the arrays the launch found.
-/
import proofs.«400341_j38800734552172_3_alg».proof.Proof.Gen.KernelIdeal.Frame
import proofs.«400341_j38800734552172_3_alg».proof.Proof.CellArrays
import Idealize.ShloMosaic.Lib.Pipeline.Value
import Idealize.ShloMosaic.Lib.ValueIdx
import Idealize.ShloMosaic.PureOps.Ideal.Laws

-- the arrays' coordinates run to 8192, 2048 and 1024: literal index arithmetic recurses past the default depth
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Stage1

open Cert.KernelIdeal Cert.KernelIdeal.Gen

variable (V : (c : Dev nD) → (b : Ref sig .tc) → Buf (Elt Ideal) ((c : Thread nD τ).loc b))

/-- The new cell state at `(b, h)` from the launch's entry contents: forget, input and candidate gates. -/
abbrev cellOf (c : Dev nD) (b : Fin 8192) (h : Fin 2048) : EReal :=
  Cert.Cell.cellAt
    (Cert.Cell.gateT (V c main_v1) (V c main_v32) (V c main_v7) (V c main_v24) (V c main_v9) (V c main_v25) b h)
    (Cert.Cell.gateT (V c main_v1) (V c main_v32) (V c main_v11) (V c main_v26) (V c main_v13) (V c main_v27) b h)
    (Cert.Cell.gateT (V c main_v1) (V c main_v32) (V c main_v19) (V c main_v30) (V c main_v21) (V c main_v31) b h)
    (V c main_arg2 (ix2 b h))

/-! ## One block: a contraction, a bias row, a gate's pre-activation, at an entry -/

/-- The x-contraction's operand indices, axis by axis: the left operand is read at the output's row and the
    contraction index, the right at the contraction index and the output's column. -/
theorem lhsX_0 (i : S256x512.Idx) (q : dot_S256x1024_S1024x512_S256x512_1_0_0_1_n_n.contr.Idx) :
    (dot_S256x1024_S1024x512_S256x512_1_0_0_1_n_n.lhsIdx i q 0).val = (i 0).val := by
  unfold DotDims.lhsIdx
  rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
  rfl
theorem lhsX_1 (i : S256x512.Idx) (q : dot_S256x1024_S1024x512_S256x512_1_0_0_1_n_n.contr.Idx) :
    (dot_S256x1024_S1024x512_S256x512_1_0_0_1_n_n.lhsIdx i q 1).val = (q ⟨0, by decide⟩).val :=
  dot_S256x1024_S1024x512_S256x512_1_0_0_1_n_n.lhsIdx_val_of_single rfl i q
theorem rhsX_0 (i : S256x512.Idx) (q : dot_S256x1024_S1024x512_S256x512_1_0_0_1_n_n.contr.Idx) :
    (dot_S256x1024_S1024x512_S256x512_1_0_0_1_n_n.rhsIdx i q 0).val = (q ⟨0, by decide⟩).val :=
  dot_S256x1024_S1024x512_S256x512_1_0_0_1_n_n.rhsIdx_val_of_single rfl i q
theorem rhsX_1 (i : S256x512.Idx) (q : dot_S256x1024_S1024x512_S256x512_1_0_0_1_n_n.contr.Idx) :
    (dot_S256x1024_S1024x512_S256x512_1_0_0_1_n_n.rhsIdx i q 1).val = (i 1).val := by
  unfold DotDims.rhsIdx
  rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
  rfl

/-- A block of `x` against a column tile of a transposed x-weight, into zeros, at entry `(p, q)`: row `p` against
    column `q`, summed over the 1024 input features. -/
theorem matmulX_apply (lhs : FVec Ideal S256x1024 .bf16) (rhs : FVec Ideal S1024x512 .bf16) (p : Fin 256) (q : Fin 512) :
    matmul dot_S256x1024_S1024x512_S256x512_1_0_0_1_n_n none lhs rhs (constant (F := Ideal) S256x512 .f32 0x00000000#32) (ix2 p q)
      = ∑ k : Fin 1024, lhs (ix2 p k) * rhs (ix2 k q) := by
  refine (Ideal.matmul_constant_zero_apply dot_S256x1024_S1024x512_S256x512_1_0_0_1_n_n none lhs rhs (ix2 p q)).trans ?_
  rw [← Equiv.sum_comp (ValueIdx.contrEquiv1 dot_S256x1024_S1024x512_S256x512_1_0_0_1_n_n 1024 rfl rfl).symm]
  refine Finset.sum_congr rfl fun k _ => ?_
  have hk := ValueIdx.contrEquiv1_symm_val dot_S256x1024_S1024x512_S256x512_1_0_0_1_n_n 1024 rfl rfl k
  have el : dot_S256x1024_S1024x512_S256x512_1_0_0_1_n_n.lhsIdx (ix2 p q) ((ValueIdx.contrEquiv1 dot_S256x1024_S1024x512_S256x512_1_0_0_1_n_n 1024 rfl rfl).symm k) = ix2 p k := funext fun a => Fin.ext (by
    match a with
    | ⟨0, _⟩ => exact lhsX_0 _ _
    | ⟨1, _⟩ => exact (lhsX_1 _ _).trans hk)
  have er : dot_S256x1024_S1024x512_S256x512_1_0_0_1_n_n.rhsIdx (ix2 p q) ((ValueIdx.contrEquiv1 dot_S256x1024_S1024x512_S256x512_1_0_0_1_n_n 1024 rfl rfl).symm k) = ix2 k q := funext fun a => Fin.ext (by
    match a with
    | ⟨0, _⟩ => exact (rhsX_0 _ _).trans hk
    | ⟨1, _⟩ => exact rhsX_1 _ _)
  rw [el, er]

/-- The m-contraction's operand indices, axis by axis, likewise. -/
theorem lhsM_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide), dif_pos (show (0 : Fin S256x2048.rank) ∈ dot_S256x2048_S2048x512_S256x512_1_0_0_1_n_n.lhsNonContracting by decide)]
  rfl
theorem lhsM_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q
theorem rhsM_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q
theorem rhsM_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide), dif_pos (show (1 : Fin S2048x512.rank) ∈ dot_S256x2048_S2048x512_S256x512_1_0_0_1_n_n.rhsNonContracting by decide)]
  rfl

/-- A block of `m` against a column tile of a transposed m-weight, into zeros, at entry `(p, q)`: the sum over the
    2048 state features. -/
theorem matmulM_apply (lhs : FVec Ideal S256x2048 .bf16) (rhs : FVec Ideal S2048x512 .bf16) (p : Fin 256) (q : Fin 512) :
    matmul dot_S256x2048_S2048x512_S256x512_1_0_0_1_n_n none lhs rhs (constant (F := Ideal) S256x512 .f32 0x00000000#32) (ix2 p q)
      = ∑ l : Fin 2048, lhs (ix2 p l) * rhs (ix2 l q) := by
  refine (Ideal.matmul_constant_zero_apply dot_S256x2048_S2048x512_S256x512_1_0_0_1_n_n none lhs rhs (ix2 p q)).trans ?_
  rw [← Equiv.sum_comp (ValueIdx.contrEquiv1 dot_S256x2048_S2048x512_S256x512_1_0_0_1_n_n 2048 rfl rfl).symm]
  refine Finset.sum_congr rfl fun k _ => ?_
  have hk := ValueIdx.contrEquiv1_symm_val dot_S256x2048_S2048x512_S256x512_1_0_0_1_n_n 2048 rfl rfl k
  have el : dot_S256x2048_S2048x512_S256x512_1_0_0_1_n_n.lhsIdx (ix2 p q) ((ValueIdx.contrEquiv1 dot_S256x2048_S2048x512_S256x512_1_0_0_1_n_n 2048 rfl rfl).symm k) = ix2 p k := funext fun a => Fin.ext (by
    match a with
    | ⟨0, _⟩ => exact lhsM_0 _ _
    | ⟨1, _⟩ => exact (lhsM_1 _ _).trans hk)
  have er : dot_S256x2048_S2048x512_S256x512_1_0_0_1_n_n.rhsIdx (ix2 p q) ((ValueIdx.contrEquiv1 dot_S256x2048_S2048x512_S256x512_1_0_0_1_n_n 2048 rfl rfl).symm k) = ix2 k q := funext fun a => Fin.ext (by
    match a with
    | ⟨0, _⟩ => exact (rhsM_0 _ _).trans hk
    | ⟨1, _⟩ => exact rhsM_1 _ _)
  rw [el, er]

/-- A bias row broadcast over the block's 256 rows reads its entry `(0, q)` at `(p, q)`. -/
theorem biasRow_apply (β : Vec Ideal S1x512 .f32) (p : Fin 256) (q : Fin 512) :
    broadcastTo S256x512 (shapeCast S1x512 β shapeCasts_S1x512_S1x512) broadcasts_S1x512_S256x512 (ix2 p q) = β (ix2 (0 : Fin 1) q) := by
  rw [shapeCast_self]
  exact broadcastTo_apply β broadcasts_S1x512_S256x512 (ix2 p q) (ix2 (0 : Fin 1) q) (fun a => by
    match a with
    | ⟨0, _⟩ => rfl
    | ⟨1, _⟩ => rfl)

/-- A gate's pre-activation at entry `(p, q)` of a block, from the loaded blocks: `(x W + β) + (m U + γ)`. -/
def preBlk (x0 : Vec Ideal S256x1024 .bf16) (x1 : Vec Ideal S256x2048 .f32) (w : Vec Ideal S1024x512 .bf16) (β : Vec Ideal S1x512 .f32)
    (u : Vec Ideal S2048x512 .bf16) (γ : Vec Ideal S1x512 .f32) (p : Fin 256) (q : Fin 512) : EReal :=
  ((∑ k : Fin 1024, x0 (ix2 p k) * w (ix2 k q)) + β (ix2 (0 : Fin 1) q))
    + ((∑ l : Fin 2048, x1 (ix2 p l) * u (ix2 l q)) + γ (ix2 (0 : Fin 1) q))

/-- The same-shape cast of the `x` block is the block. -/
theorem pay3_eq (x0 : Vec Ideal S256x1024 .bf16) : k1_pay3 (F := Ideal) x0 = x0 := shapeCast_self x0 _
/-- The `m` block cast to its own shape and narrowed is the block: a format change is the identity on extended reals. -/
theorem pay4_eq (x1 : Vec Ideal S256x2048 .f32) : k1_pay4 (F := Ideal) x1 = x1 := by
  funext i
  show shapeCast S256x2048 x1 shapeCasts_S256x2048_S256x2048 i = x1 i
  rw [shapeCast_self]

/-- The x-side of a pre-activation: the block's contraction with the weight tile plus the broadcast bias row. -/
theorem sideX_apply (lhs : FVec Ideal S256x1024 .bf16) (w : Vec Ideal S1024x512 .bf16) (β : Vec Ideal S1x512 .f32) (p : Fin 256) (q : Fin 512) :
    addf (matmul (φ₁ := .bf16) (φ₂ := .bf16) dot_S256x1024_S1024x512_S256x512_1_0_0_1_n_n none lhs (shapeCast S1024x512 w shapeCasts_S1024x512_S1024x512) (constant (F := Ideal) S256x512 .f32 0x00000000#32))
        (broadcastTo S256x512 (shapeCast S1x512 β shapeCasts_S1x512_S1x512) broadcasts_S1x512_S256x512) (ix2 p q)
      = (∑ k : Fin 1024, lhs (ix2 p k) * w (ix2 k q)) + β (ix2 (0 : Fin 1) q) := by
  rw [shapeCast_self w]
  show matmul (φ₁ := .bf16) (φ₂ := .bf16) dot_S256x1024_S1024x512_S256x512_1_0_0_1_n_n none lhs w (constant (F := Ideal) S256x512 .f32 0x00000000#32) (ix2 p q)
      + broadcastTo S256x512 (shapeCast S1x512 β shapeCasts_S1x512_S1x512) broadcasts_S1x512_S256x512 (ix2 p q) = _
  rw [matmulX_apply, biasRow_apply]

/-- The m-side likewise. -/
theorem sideM_apply (lhs : FVec Ideal S256x2048 .bf16) (u : Vec Ideal S2048x512 .bf16) (γ : Vec Ideal S1x512 .f32) (p : Fin 256) (q : Fin 512) :
    addf (matmul (φ₁ := .bf16) (φ₂ := .bf16) dot_S256x2048_S2048x512_S256x512_1_0_0_1_n_n none lhs (shapeCast S2048x512 u shapeCasts_S2048x512_S2048x512) (constant (F := Ideal) S256x512 .f32 0x00000000#32))
        (broadcastTo S256x512 (shapeCast S1x512 γ shapeCasts_S1x512_S1x512) broadcasts_S1x512_S256x512) (ix2 p q)
      = (∑ l : Fin 2048, lhs (ix2 p l) * u (ix2 l q)) + γ (ix2 (0 : Fin 1) q) := by
  rw [shapeCast_self u]
  show matmul (φ₁ := .bf16) (φ₂ := .bf16) dot_S256x2048_S2048x512_S256x512_1_0_0_1_n_n none lhs u (constant (F := Ideal) S256x512 .f32 0x00000000#32) (ix2 p q)
      + broadcastTo S256x512 (shapeCast S1x512 γ shapeCasts_S1x512_S1x512) broadcasts_S1x512_S256x512 (ix2 p q) = _
  rw [matmulM_apply, biasRow_apply]

/-! ## The body's payloads at an entry -/

/-- The forget gate's block at `(p, q)`: the logistic of its pre-activation. -/
theorem pay5_apply (x0 : Vec Ideal S256x1024 .bf16) (x1 : Vec Ideal S256x2048 .f32) (w : Vec Ideal S1024x512 .bf16) (β : Vec Ideal S1x512 .f32)
    (u : Vec Ideal S2048x512 .bf16) (γ : Vec Ideal S1x512 .f32) (p : Fin 256) (q : Fin 512) :
    k1_pay5 (F := Ideal) x0 x1 w β u γ (ix2 p q) = Ideal.logistic (preBlk x0 x1 w β u γ p q) := by
  show Ideal.logistic
      (addf (matmul (φ₁ := .bf16) (φ₂ := .bf16) dot_S256x1024_S1024x512_S256x512_1_0_0_1_n_n none (k1_pay3 (F := Ideal) x0) (shapeCast S1024x512 w shapeCasts_S1024x512_S1024x512) (constant (F := Ideal) S256x512 .f32 0x00000000#32))
          (broadcastTo S256x512 (shapeCast S1x512 β shapeCasts_S1x512_S1x512) broadcasts_S1x512_S256x512) (ix2 p q)
        + addf (matmul (φ₁ := .bf16) (φ₂ := .bf16) dot_S256x2048_S2048x512_S256x512_1_0_0_1_n_n none (k1_pay4 (F := Ideal) x1) (shapeCast S2048x512 u shapeCasts_S2048x512_S2048x512) (constant (F := Ideal) S256x512 .f32 0x00000000#32))
          (broadcastTo S256x512 (shapeCast S1x512 γ shapeCasts_S1x512_S1x512) broadcasts_S1x512_S256x512) (ix2 p q)) = _
  rw [sideX_apply, sideM_apply, pay3_eq, pay4_eq]
  rfl

/-- The output gate's block at `(p, q)`, from the cast blocks: the logistic of its pre-activation. -/
theorem pay9_apply (v1 : FVec Ideal S256x1024 .bf16) (v4 : FVec Ideal S256x2048 .bf16) (w : Vec Ideal S1024x512 .bf16) (β : Vec Ideal S1x512 .f32)
    (u : Vec Ideal S2048x512 .bf16) (γ : Vec Ideal S1x512 .f32) (p : Fin 256) (q : Fin 512) :
    k1_pay9 (F := Ideal) v1 v4 w β u γ (ix2 p q) = Ideal.logistic (preBlk v1 v4 w β u γ p q) := by
  show Ideal.logistic
      (addf (matmul (φ₁ := .bf16) (φ₂ := .bf16) dot_S256x1024_S1024x512_S256x512_1_0_0_1_n_n none v1 (shapeCast S1024x512 w shapeCasts_S1024x512_S1024x512) (constant (F := Ideal) S256x512 .f32 0x00000000#32))
          (broadcastTo S256x512 (shapeCast S1x512 β shapeCasts_S1x512_S1x512) broadcasts_S1x512_S256x512) (ix2 p q)
        + addf (matmul (φ₁ := .bf16) (φ₂ := .bf16) dot_S256x2048_S2048x512_S256x512_1_0_0_1_n_n none v4 (shapeCast S2048x512 u shapeCasts_S2048x512_S2048x512) (constant (F := Ideal) S256x512 .f32 0x00000000#32))
          (broadcastTo S256x512 (shapeCast S1x512 γ shapeCasts_S1x512_S1x512) broadcasts_S1x512_S256x512) (ix2 p q)) = _
  rw [sideX_apply, sideM_apply]
  rfl

/-- The input gate's x-side at `(p, q)`. -/
theorem pay6_apply (x0 : Vec Ideal S256x1024 .bf16) (w : Vec Ideal S1024x512 .bf16) (β : Vec Ideal S1x512 .f32) (p : Fin 256) (q : Fin 512) :
    k1_pay6 (F := Ideal) x0 w β (ix2 p q) = (∑ k : Fin 1024, x0 (ix2 p k) * w (ix2 k q)) + β (ix2 (0 : Fin 1) q) := by
  show addf (matmul (φ₁ := .bf16) (φ₂ := .bf16) dot_S256x1024_S1024x512_S256x512_1_0_0_1_n_n none (k1_pay3 (F := Ideal) x0) (shapeCast S1024x512 w shapeCasts_S1024x512_S1024x512) (constant (F := Ideal) S256x512 .f32 0x00000000#32))
          (broadcastTo S256x512 (shapeCast S1x512 β shapeCasts_S1x512_S1x512) broadcasts_S1x512_S256x512) (ix2 p q) = _
  rw [sideX_apply, pay3_eq]

/-- The input gate's contraction of the `m` block at `(p, q)`. -/
theorem pay7_apply (x1 : Vec Ideal S256x2048 .f32) (u : Vec Ideal S2048x512 .bf16) (p : Fin 256) (q : Fin 512) :
    k1_pay7 (F := Ideal) x1 u (ix2 p q) = ∑ l : Fin 2048, x1 (ix2 p l) * u (ix2 l q) := by
  show matmul (φ₁ := .bf16) (φ₂ := .bf16) dot_S256x2048_S2048x512_S256x512_1_0_0_1_n_n none (k1_pay4 (F := Ideal) x1) (shapeCast S2048x512 u shapeCasts_S2048x512_S2048x512) (constant (F := Ideal) S256x512 .f32 0x00000000#32) (ix2 p q) = _
  rw [shapeCast_self u, matmulM_apply, pay4_eq]

/-- The input gate's m-bias row at `(p, q)`. -/
theorem pay8_apply (γ : Vec Ideal S1x512 .f32) (p : Fin 256) (q : Fin 512) :
    k1_pay8 (F := Ideal) γ (ix2 p q) = γ (ix2 (0 : Fin 1) q) := biasRow_apply γ p q

/-- The input gate against the candidate at `(p, q)`: the logistic of the three carried summands, grouped
    `s + (u + γ)`, times the hyperbolic tangent of the candidate's pre-activation. -/
theorem pay11_apply (v1 : FVec Ideal S256x1024 .bf16) (v4 : FVec Ideal S256x2048 .bf16) (v27 v30 v33 : FVec Ideal S256x512 .f32)
    (w : Vec Ideal S1024x512 .bf16) (β : Vec Ideal S1x512 .f32) (u : Vec Ideal S2048x512 .bf16) (γ : Vec Ideal S1x512 .f32) (p : Fin 256) (q : Fin 512) :
    k1_pay11 (F := Ideal) v1 v4 v27 v30 v33 w β u γ (ix2 p q)
      = Ideal.logistic (v27 (ix2 p q) + (v30 (ix2 p q) + v33 (ix2 p q))) * Ideal.tanh (preBlk v1 v4 w β u γ p q) := by
  show Ideal.logistic (v27 (ix2 p q) + (v30 (ix2 p q) + v33 (ix2 p q))) * Ideal.tanh
      (addf (matmul (φ₁ := .bf16) (φ₂ := .bf16) dot_S256x1024_S1024x512_S256x512_1_0_0_1_n_n none v1 (shapeCast S1024x512 w shapeCasts_S1024x512_S1024x512) (constant (F := Ideal) S256x512 .f32 0x00000000#32))
          (broadcastTo S256x512 (shapeCast S1x512 β shapeCasts_S1x512_S1x512) broadcasts_S1x512_S256x512) (ix2 p q)
        + addf (matmul (φ₁ := .bf16) (φ₂ := .bf16) dot_S256x2048_S2048x512_S256x512_1_0_0_1_n_n none v4 (shapeCast S2048x512 u shapeCasts_S2048x512_S2048x512) (constant (F := Ideal) S256x512 .f32 0x00000000#32))
          (broadcastTo S256x512 (shapeCast S1x512 γ shapeCasts_S1x512_S1x512) broadcasts_S1x512_S256x512) (ix2 p q)) = _
  rw [sideX_apply, sideM_apply]
  rfl

/-- The two summands of the new cell block at `(p, q)`, from the nineteen loaded blocks: the forget gate against the
    old cell entry, and the input gate against the candidate. -/
theorem cellSummands_apply (x0 : Vec Ideal S256x1024 .bf16) (x1 : Vec Ideal S256x2048 .f32) (x2 : Vec Ideal S256x512 .f32)
    (x3 : Vec Ideal S1024x512 .bf16) (x4 : Vec Ideal S1x512 .f32) (x5 : Vec Ideal S2048x512 .bf16) (x6 : Vec Ideal S1x512 .f32)
    (x7 : Vec Ideal S1024x512 .bf16) (x8 : Vec Ideal S1x512 .f32) (x9 : Vec Ideal S2048x512 .bf16) (x10 : Vec Ideal S1x512 .f32)
    (x15 : Vec Ideal S1024x512 .bf16) (x16 : Vec Ideal S1x512 .f32) (x17 : Vec Ideal S2048x512 .bf16) (x18 : Vec Ideal S1x512 .f32)
    (p : Fin 256) (q : Fin 512) :
    k1_pay10 (F := Ideal) (k1_pay5 x0 x1 x3 x4 x5 x6) x2 (ix2 p q)
        + k1_pay11 (F := Ideal) (k1_pay3 x0) (k1_pay4 x1) (k1_pay6 x0 x7 x8) (k1_pay7 x1 x9) (k1_pay8 x10) x15 x16 x17 x18 (ix2 p q)
      = Cert.Cell.cellAt (preBlk x0 x1 x3 x4 x5 x6 p q) (preBlk x0 x1 x7 x8 x9 x10 p q) (preBlk x0 x1 x15 x16 x17 x18 p q) (x2 (ix2 p q)) := by
  show k1_pay5 (F := Ideal) x0 x1 x3 x4 x5 x6 (ix2 p q) * x2 (ix2 p q) + _ = _
  rw [pay5_apply, pay11_apply, pay6_apply, pay7_apply, pay8_apply, pay3_eq, pay4_eq]
  rfl

/-- The zero offsets, however spelt. -/
theorem hz : (![0, 0] : Fin 2 → Nat) = fun _ => 0 := funext fun a => by fin_cases a <;> rfl

/-- The new cell block at `(p, q)` as the body stores it: `Cell.cellAt` of the three block pre-activations. -/
theorem out20_apply (x0 : Vec Ideal S256x1024 .bf16) (x1 : Vec Ideal S256x2048 .f32) (x2 : Vec Ideal S256x512 .f32)
    (x3 : Vec Ideal S1024x512 .bf16) (x4 : Vec Ideal S1x512 .f32) (x5 : Vec Ideal S2048x512 .bf16) (x6 : Vec Ideal S1x512 .f32)
    (x7 : Vec Ideal S1024x512 .bf16) (x8 : Vec Ideal S1x512 .f32) (x9 : Vec Ideal S2048x512 .bf16) (x10 : Vec Ideal S1x512 .f32)
    (x11 : Vec Ideal S1024x512 .bf16) (x12 : Vec Ideal S1x512 .f32) (x13 : Vec Ideal S2048x512 .bf16) (x14 : Vec Ideal S1x512 .f32)
    (x15 : Vec Ideal S1024x512 .bf16) (x16 : Vec Ideal S1x512 .f32) (x17 : Vec Ideal S2048x512 .bf16) (x18 : Vec Ideal S1x512 .f32)
    (p : Fin 256) (q : Fin 512) :
    out1_20 (F := Ideal) x0 x1 x2 x3 x4 x5 x6 x7 x8 x9 x10 x11 x12 x13 x14 x15 x16 x17 x18 (ix2 p q)
      = Cert.Cell.cellAt (preBlk x0 x1 x3 x4 x5 x6 p q) (preBlk x0 x1 x7 x8 x9 x10 p q) (preBlk x0 x1 x15 x16 x17 x18 p q) (x2 (ix2 p q)) := by
  unfold out1_20
  rw [View.canon_unit_zero hz]
  simp only [View.ld_unit_zero (S := S256x1024) hz, View.ld_unit_zero (S := S256x2048) hz, View.ld_unit_zero (S := S256x512) hz,
    View.ld_unit_zero (S := S1024x512) hz, View.ld_unit_zero (S := S1x512) hz, View.ld_unit_zero (S := S2048x512) hz]
  exact cellSummands_apply x0 x1 x2 x3 x4 x5 x6 x7 x8 x9 x10 x15 x16 x17 x18 p q

/-- The new hidden block at `(p, q)` as the body stores it: the output gate against the new cell entry. -/
theorem out19_apply (x0 : Vec Ideal S256x1024 .bf16) (x1 : Vec Ideal S256x2048 .f32) (x2 : Vec Ideal S256x512 .f32)
    (x3 : Vec Ideal S1024x512 .bf16) (x4 : Vec Ideal S1x512 .f32) (x5 : Vec Ideal S2048x512 .bf16) (x6 : Vec Ideal S1x512 .f32)
    (x7 : Vec Ideal S1024x512 .bf16) (x8 : Vec Ideal S1x512 .f32) (x9 : Vec Ideal S2048x512 .bf16) (x10 : Vec Ideal S1x512 .f32)
    (x11 : Vec Ideal S1024x512 .bf16) (x12 : Vec Ideal S1x512 .f32) (x13 : Vec Ideal S2048x512 .bf16) (x14 : Vec Ideal S1x512 .f32)
    (x15 : Vec Ideal S1024x512 .bf16) (x16 : Vec Ideal S1x512 .f32) (x17 : Vec Ideal S2048x512 .bf16) (x18 : Vec Ideal S1x512 .f32)
    (p : Fin 256) (q : Fin 512) :
    out1_19 (F := Ideal) x0 x1 x2 x3 x4 x5 x6 x7 x8 x9 x10 x11 x12 x13 x14 x15 x16 x17 x18 (ix2 p q)
      = Cert.Cell.hiddenAt (preBlk x0 x1 x11 x12 x13 x14 p q)
          (Cert.Cell.cellAt (preBlk x0 x1 x3 x4 x5 x6 p q) (preBlk x0 x1 x7 x8 x9 x10 p q) (preBlk x0 x1 x15 x16 x17 x18 p q) (x2 (ix2 p q))) := by
  unfold out1_19
  rw [View.canon_unit_zero hz]
  simp only [View.ld_unit_zero (S := S256x1024) hz, View.ld_unit_zero (S := S256x2048) hz, View.ld_unit_zero (S := S256x512) hz,
    View.ld_unit_zero (S := S1024x512) hz, View.ld_unit_zero (S := S1x512) hz, View.ld_unit_zero (S := S2048x512) hz]
  show k1_pay9 (F := Ideal) (k1_pay3 x0) (k1_pay4 x1) x11 x12 x13 x14 (ix2 p q)
      * Ideal.tanh (k1_pay10 (F := Ideal) (k1_pay5 x0 x1 x3 x4 x5 x6) x2 (ix2 p q)
        + k1_pay11 (F := Ideal) (k1_pay3 x0) (k1_pay4 x1) (k1_pay6 x0 x7 x8) (k1_pay7 x1 x9) (k1_pay8 x10) x15 x16 x17 x18 (ix2 p q)) = _
  rw [pay9_apply, cellSummands_apply, pay3_eq, pay4_eq]
  rfl

/-! ## The grid: which tile each point reads and writes -/

/-- The launch has 128 points. -/
theorem t_lt (t : Fin cfg1.N) : t.val < 128 := lt_of_lt_of_eq t.isLt N_1

/-- Point `t` writes the tile at batch tile `t % 32` and hidden tile `t / 32` of both results, at each of the 128 points. -/
theorem idx_out : ∀ t : Fin cfg1.N,
    win1_20.index t (0 : Fin 2) = t.val % 32 ∧ win1_20.index t (1 : Fin 2) = t.val / 32
    ∧ win1_19.index t (0 : Fin 2) = t.val % 32 ∧ win1_19.index t (1 : Fin 2) = t.val / 32 :=
  (by decide +kernel : ∀ t : Fin grid1.N, _)

/-- It reads batch tile `t % 32` of `x` and of `m` (all their columns) and tile `(t % 32, t / 32)` of the old cell state. -/
theorem idx_act : ∀ t : Fin cfg1.N,
    win1_0.index t (0 : Fin 2) = t.val % 32 ∧ win1_0.index t (1 : Fin 2) = 0
    ∧ win1_1.index t (0 : Fin 2) = t.val % 32 ∧ win1_1.index t (1 : Fin 2) = 0
    ∧ win1_2.index t (0 : Fin 2) = t.val % 32 ∧ win1_2.index t (1 : Fin 2) = t.val / 32 :=
  (by decide +kernel : ∀ t : Fin grid1.N, _)

/-- It reads column tile `t / 32` of the forget gate's two weights and two bias rows, -/
theorem idx_f : ∀ t : Fin cfg1.N,
    win1_3.index t (0 : Fin 2) = 0 ∧ win1_3.index t (1 : Fin 2) = t.val / 32
    ∧ win1_4.index t (0 : Fin 2) = 0 ∧ win1_4.index t (1 : Fin 2) = t.val / 32
    ∧ win1_5.index t (0 : Fin 2) = 0 ∧ win1_5.index t (1 : Fin 2) = t.val / 32
    ∧ win1_6.index t (0 : Fin 2) = 0 ∧ win1_6.index t (1 : Fin 2) = t.val / 32 :=
  (by decide +kernel : ∀ t : Fin grid1.N, _)

/-- of the input gate's, -/
theorem idx_i : ∀ t : Fin cfg1.N,
    win1_7.index t (0 : Fin 2) = 0 ∧ win1_7.index t (1 : Fin 2) = t.val / 32
    ∧ win1_8.index t (0 : Fin 2) = 0 ∧ win1_8.index t (1 : Fin 2) = t.val / 32
    ∧ win1_9.index t (0 : Fin 2) = 0 ∧ win1_9.index t (1 : Fin 2) = t.val / 32
    ∧ win1_10.index t (0 : Fin 2) = 0 ∧ win1_10.index t (1 : Fin 2) = t.val / 32 :=
  (by decide +kernel : ∀ t : Fin grid1.N, _)

/-- of the output gate's, -/
theorem idx_o : ∀ t : Fin cfg1.N,
    win1_11.index t (0 : Fin 2) = 0 ∧ win1_11.index t (1 : Fin 2) = t.val / 32
    ∧ win1_12.index t (0 : Fin 2) = 0 ∧ win1_12.index t (1 : Fin 2) = t.val / 32
    ∧ win1_13.index t (0 : Fin 2) = 0 ∧ win1_13.index t (1 : Fin 2) = t.val / 32
    ∧ win1_14.index t (0 : Fin 2) = 0 ∧ win1_14.index t (1 : Fin 2) = t.val / 32 :=
  (by decide +kernel : ∀ t : Fin grid1.N, _)

/-- and of the candidate's. -/
theorem idx_c : ∀ t : Fin cfg1.N,
    win1_15.index t (0 : Fin 2) = 0 ∧ win1_15.index t (1 : Fin 2) = t.val / 32
    ∧ win1_16.index t (0 : Fin 2) = 0 ∧ win1_16.index t (1 : Fin 2) = t.val / 32
    ∧ win1_17.index t (0 : Fin 2) = 0 ∧ win1_17.index t (1 : Fin 2) = t.val / 32
    ∧ win1_18.index t (0 : Fin 2) = 0 ∧ win1_18.index t (1 : Fin 2) = t.val / 32 :=
  (by decide +kernel : ∀ t : Fin grid1.N, _)

/-- The array row of row `p` of point `t`'s batch tile. -/
def rowOf (t : Fin cfg1.N) (p : Fin 256) : Fin 8192 := ⟨t.val % 32 * 256 + p.val, by have := p.isLt; omega⟩
/-- The array column of column `q` of point `t`'s hidden tile. -/
def colOf (t : Fin cfg1.N) (q : Fin 512) : Fin 2048 := ⟨t.val / 32 * 512 + q.val, by have := q.isLt; have := t_lt t; omega⟩

/-! ## Each loaded block read where the output tile says -/

theorem rd0 (c : Dev nD) (t : Fin cfg1.N) (p : Fin 256) (k : Fin 1024) :
    iblk1 (F := Ideal) V c 0 t (ix2 p k) = V c main_v1 (ix2 (rowOf t p) k) := by
  obtain ⟨e0, e1, -⟩ := idx_act t
  show V c main_v1 (((cfg1.win 0).blk t).view.emb (ix2 p k)) = V c main_v1 (ix2 (rowOf t p) k)
  refine congrArg (V c main_v1) (funext fun a => Fin.ext ?_)
  match a with
  | ⟨0, _⟩ => show win1_0.index t (0 : Fin 2) * 256 + 1 * p.val = t.val % 32 * 256 + p.val; omega
  | ⟨1, _⟩ => show win1_0.index t (1 : Fin 2) * 1024 + 1 * k.val = k.val; omega

theorem rd1 (c : Dev nD) (t : Fin cfg1.N) (p : Fin 256) (l : Fin 2048) :
    iblk1 (F := Ideal) V c 1 t (ix2 p l) = V c main_v32 (ix2 (rowOf t p) l) := by
  obtain ⟨-, -, e0, e1, -⟩ := idx_act t
  show V c main_v32 (((cfg1.win 1).blk t).view.emb (ix2 p l)) = V c main_v32 (ix2 (rowOf t p) l)
  refine congrArg (V c main_v32) (funext fun a => Fin.ext ?_)
  match a with
  | ⟨0, _⟩ => show win1_1.index t (0 : Fin 2) * 256 + 1 * p.val = t.val % 32 * 256 + p.val; omega
  | ⟨1, _⟩ => show win1_1.index t (1 : Fin 2) * 2048 + 1 * l.val = l.val; omega

theorem rd2 (c : Dev nD) (t : Fin cfg1.N) (p : Fin 256) (q : Fin 512) :
    iblk1 (F := Ideal) V c 2 t (ix2 p q) = V c main_arg2 (ix2 (rowOf t p) (colOf t q)) := by
  obtain ⟨-, -, -, -, e0, e1⟩ := idx_act t
  show V c main_arg2 (((cfg1.win 2).blk t).view.emb (ix2 p q)) = V c main_arg2 (ix2 (rowOf t p) (colOf t q))
  refine congrArg (V c main_arg2) (funext fun a => Fin.ext ?_)
  match a with
  | ⟨0, _⟩ => show win1_2.index t (0 : Fin 2) * 256 + 1 * p.val = t.val % 32 * 256 + p.val; omega
  | ⟨1, _⟩ => show win1_2.index t (1 : Fin 2) * 512 + 1 * q.val = t.val / 32 * 512 + q.val; omega

theorem rd3 (c : Dev nD) (t : Fin cfg1.N) (k : Fin 1024) (q : Fin 512) :
    iblk1 (F := Ideal) V c 3 t (ix2 k q) = V c main_v7 (ix2 k (colOf t q)) := by
  obtain ⟨e0, e1, -⟩ := idx_f t
  show V c main_v7 (((cfg1.win 3).blk t).view.emb (ix2 k q)) = V c main_v7 (ix2 k (colOf t q))
  refine congrArg (V c main_v7) (funext fun a => Fin.ext ?_)
  match a with
  | ⟨0, _⟩ => show win1_3.index t (0 : Fin 2) * 1024 + 1 * k.val = k.val; omega
  | ⟨1, _⟩ => show win1_3.index t (1 : Fin 2) * 512 + 1 * q.val = t.val / 32 * 512 + q.val; omega

theorem rd4 (c : Dev nD) (t : Fin cfg1.N) (q : Fin 512) :
    iblk1 (F := Ideal) V c 4 t (ix2 (0 : Fin 1) q) = V c main_v24 (ix2 (0 : Fin 1) (colOf t q)) := by
  obtain ⟨-, -, e0, e1, -⟩ := idx_f t
  show V c main_v24 (((cfg1.win 4).blk t).view.emb (ix2 (0 : Fin 1) q)) = V c main_v24 (ix2 (0 : Fin 1) (colOf t q))
  refine congrArg (V c main_v24) (funext fun a => Fin.ext ?_)
  match a with
  | ⟨0, _⟩ => show win1_4.index t (0 : Fin 2) * 1 + 1 * 0 = 0; omega
  | ⟨1, _⟩ => show win1_4.index t (1 : Fin 2) * 512 + 1 * q.val = t.val / 32 * 512 + q.val; omega

theorem rd5 (c : Dev nD) (t : Fin cfg1.N) (l : Fin 2048) (q : Fin 512) :
    iblk1 (F := Ideal) V c 5 t (ix2 l q) = V c main_v9 (ix2 l (colOf t q)) := by
  obtain ⟨-, -, -, -, e0, e1, -⟩ := idx_f t
  show V c main_v9 (((cfg1.win 5).blk t).view.emb (ix2 l q)) = V c main_v9 (ix2 l (colOf t q))
  refine congrArg (V c main_v9) (funext fun a => Fin.ext ?_)
  match a with
  | ⟨0, _⟩ => show win1_5.index t (0 : Fin 2) * 2048 + 1 * l.val = l.val; omega
  | ⟨1, _⟩ => show win1_5.index t (1 : Fin 2) * 512 + 1 * q.val = t.val / 32 * 512 + q.val; omega

theorem rd6 (c : Dev nD) (t : Fin cfg1.N) (q : Fin 512) :
    iblk1 (F := Ideal) V c 6 t (ix2 (0 : Fin 1) q) = V c main_v25 (ix2 (0 : Fin 1) (colOf t q)) := by
  obtain ⟨-, -, -, -, -, -, e0, e1⟩ := idx_f t
  show V c main_v25 (((cfg1.win 6).blk t).view.emb (ix2 (0 : Fin 1) q)) = V c main_v25 (ix2 (0 : Fin 1) (colOf t q))
  refine congrArg (V c main_v25) (funext fun a => Fin.ext ?_)
  match a with
  | ⟨0, _⟩ => show win1_6.index t (0 : Fin 2) * 1 + 1 * 0 = 0; omega
  | ⟨1, _⟩ => show win1_6.index t (1 : Fin 2) * 512 + 1 * q.val = t.val / 32 * 512 + q.val; omega

theorem rd7 (c : Dev nD) (t : Fin cfg1.N) (k : Fin 1024) (q : Fin 512) :
    iblk1 (F := Ideal) V c 7 t (ix2 k q) = V c main_v11 (ix2 k (colOf t q)) := by
  obtain ⟨e0, e1, -⟩ := idx_i t
  show V c main_v11 (((cfg1.win 7).blk t).view.emb (ix2 k q)) = V c main_v11 (ix2 k (colOf t q))
  refine congrArg (V c main_v11) (funext fun a => Fin.ext ?_)
  match a with
  | ⟨0, _⟩ => show win1_7.index t (0 : Fin 2) * 1024 + 1 * k.val = k.val; omega
  | ⟨1, _⟩ => show win1_7.index t (1 : Fin 2) * 512 + 1 * q.val = t.val / 32 * 512 + q.val; omega

theorem rd8 (c : Dev nD) (t : Fin cfg1.N) (q : Fin 512) :
    iblk1 (F := Ideal) V c 8 t (ix2 (0 : Fin 1) q) = V c main_v26 (ix2 (0 : Fin 1) (colOf t q)) := by
  obtain ⟨-, -, e0, e1, -⟩ := idx_i t
  show V c main_v26 (((cfg1.win 8).blk t).view.emb (ix2 (0 : Fin 1) q)) = V c main_v26 (ix2 (0 : Fin 1) (colOf t q))
  refine congrArg (V c main_v26) (funext fun a => Fin.ext ?_)
  match a with
  | ⟨0, _⟩ => show win1_8.index t (0 : Fin 2) * 1 + 1 * 0 = 0; omega
  | ⟨1, _⟩ => show win1_8.index t (1 : Fin 2) * 512 + 1 * q.val = t.val / 32 * 512 + q.val; omega

theorem rd9 (c : Dev nD) (t : Fin cfg1.N) (l : Fin 2048) (q : Fin 512) :
    iblk1 (F := Ideal) V c 9 t (ix2 l q) = V c main_v13 (ix2 l (colOf t q)) := by
  obtain ⟨-, -, -, -, e0, e1, -⟩ := idx_i t
  show V c main_v13 (((cfg1.win 9).blk t).view.emb (ix2 l q)) = V c main_v13 (ix2 l (colOf t q))
  refine congrArg (V c main_v13) (funext fun a => Fin.ext ?_)
  match a with
  | ⟨0, _⟩ => show win1_9.index t (0 : Fin 2) * 2048 + 1 * l.val = l.val; omega
  | ⟨1, _⟩ => show win1_9.index t (1 : Fin 2) * 512 + 1 * q.val = t.val / 32 * 512 + q.val; omega

theorem rd10 (c : Dev nD) (t : Fin cfg1.N) (q : Fin 512) :
    iblk1 (F := Ideal) V c 10 t (ix2 (0 : Fin 1) q) = V c main_v27 (ix2 (0 : Fin 1) (colOf t q)) := by
  obtain ⟨-, -, -, -, -, -, e0, e1⟩ := idx_i t
  show V c main_v27 (((cfg1.win 10).blk t).view.emb (ix2 (0 : Fin 1) q)) = V c main_v27 (ix2 (0 : Fin 1) (colOf t q))
  refine congrArg (V c main_v27) (funext fun a => Fin.ext ?_)
  match a with
  | ⟨0, _⟩ => show win1_10.index t (0 : Fin 2) * 1 + 1 * 0 = 0; omega
  | ⟨1, _⟩ => show win1_10.index t (1 : Fin 2) * 512 + 1 * q.val = t.val / 32 * 512 + q.val; omega

theorem rd11 (c : Dev nD) (t : Fin cfg1.N) (k : Fin 1024) (q : Fin 512) :
    iblk1 (F := Ideal) V c 11 t (ix2 k q) = V c main_v15 (ix2 k (colOf t q)) := by
  obtain ⟨e0, e1, -⟩ := idx_o t
  show V c main_v15 (((cfg1.win 11).blk t).view.emb (ix2 k q)) = V c main_v15 (ix2 k (colOf t q))
  refine congrArg (V c main_v15) (funext fun a => Fin.ext ?_)
  match a with
  | ⟨0, _⟩ => show win1_11.index t (0 : Fin 2) * 1024 + 1 * k.val = k.val; omega
  | ⟨1, _⟩ => show win1_11.index t (1 : Fin 2) * 512 + 1 * q.val = t.val / 32 * 512 + q.val; omega

theorem rd12 (c : Dev nD) (t : Fin cfg1.N) (q : Fin 512) :
    iblk1 (F := Ideal) V c 12 t (ix2 (0 : Fin 1) q) = V c main_v28 (ix2 (0 : Fin 1) (colOf t q)) := by
  obtain ⟨-, -, e0, e1, -⟩ := idx_o t
  show V c main_v28 (((cfg1.win 12).blk t).view.emb (ix2 (0 : Fin 1) q)) = V c main_v28 (ix2 (0 : Fin 1) (colOf t q))
  refine congrArg (V c main_v28) (funext fun a => Fin.ext ?_)
  match a with
  | ⟨0, _⟩ => show win1_12.index t (0 : Fin 2) * 1 + 1 * 0 = 0; omega
  | ⟨1, _⟩ => show win1_12.index t (1 : Fin 2) * 512 + 1 * q.val = t.val / 32 * 512 + q.val; omega

theorem rd13 (c : Dev nD) (t : Fin cfg1.N) (l : Fin 2048) (q : Fin 512) :
    iblk1 (F := Ideal) V c 13 t (ix2 l q) = V c main_v17 (ix2 l (colOf t q)) := by
  obtain ⟨-, -, -, -, e0, e1, -⟩ := idx_o t
  show V c main_v17 (((cfg1.win 13).blk t).view.emb (ix2 l q)) = V c main_v17 (ix2 l (colOf t q))
  refine congrArg (V c main_v17) (funext fun a => Fin.ext ?_)
  match a with
  | ⟨0, _⟩ => show win1_13.index t (0 : Fin 2) * 2048 + 1 * l.val = l.val; omega
  | ⟨1, _⟩ => show win1_13.index t (1 : Fin 2) * 512 + 1 * q.val = t.val / 32 * 512 + q.val; omega

theorem rd14 (c : Dev nD) (t : Fin cfg1.N) (q : Fin 512) :
    iblk1 (F := Ideal) V c 14 t (ix2 (0 : Fin 1) q) = V c main_v29 (ix2 (0 : Fin 1) (colOf t q)) := by
  obtain ⟨-, -, -, -, -, -, e0, e1⟩ := idx_o t
  show V c main_v29 (((cfg1.win 14).blk t).view.emb (ix2 (0 : Fin 1) q)) = V c main_v29 (ix2 (0 : Fin 1) (colOf t q))
  refine congrArg (V c main_v29) (funext fun a => Fin.ext ?_)
  match a with
  | ⟨0, _⟩ => show win1_14.index t (0 : Fin 2) * 1 + 1 * 0 = 0; omega
  | ⟨1, _⟩ => show win1_14.index t (1 : Fin 2) * 512 + 1 * q.val = t.val / 32 * 512 + q.val; omega

theorem rd15 (c : Dev nD) (t : Fin cfg1.N) (k : Fin 1024) (q : Fin 512) :
    iblk1 (F := Ideal) V c 15 t (ix2 k q) = V c main_v19 (ix2 k (colOf t q)) := by
  obtain ⟨e0, e1, -⟩ := idx_c t
  show V c main_v19 (((cfg1.win 15).blk t).view.emb (ix2 k q)) = V c main_v19 (ix2 k (colOf t q))
  refine congrArg (V c main_v19) (funext fun a => Fin.ext ?_)
  match a with
  | ⟨0, _⟩ => show win1_15.index t (0 : Fin 2) * 1024 + 1 * k.val = k.val; omega
  | ⟨1, _⟩ => show win1_15.index t (1 : Fin 2) * 512 + 1 * q.val = t.val / 32 * 512 + q.val; omega

theorem rd16 (c : Dev nD) (t : Fin cfg1.N) (q : Fin 512) :
    iblk1 (F := Ideal) V c 16 t (ix2 (0 : Fin 1) q) = V c main_v30 (ix2 (0 : Fin 1) (colOf t q)) := by
  obtain ⟨-, -, e0, e1, -⟩ := idx_c t
  show V c main_v30 (((cfg1.win 16).blk t).view.emb (ix2 (0 : Fin 1) q)) = V c main_v30 (ix2 (0 : Fin 1) (colOf t q))
  refine congrArg (V c main_v30) (funext fun a => Fin.ext ?_)
  match a with
  | ⟨0, _⟩ => show win1_16.index t (0 : Fin 2) * 1 + 1 * 0 = 0; omega
  | ⟨1, _⟩ => show win1_16.index t (1 : Fin 2) * 512 + 1 * q.val = t.val / 32 * 512 + q.val; omega

theorem rd17 (c : Dev nD) (t : Fin cfg1.N) (l : Fin 2048) (q : Fin 512) :
    iblk1 (F := Ideal) V c 17 t (ix2 l q) = V c main_v21 (ix2 l (colOf t q)) := by
  obtain ⟨-, -, -, -, e0, e1, -⟩ := idx_c t
  show V c main_v21 (((cfg1.win 17).blk t).view.emb (ix2 l q)) = V c main_v21 (ix2 l (colOf t q))
  refine congrArg (V c main_v21) (funext fun a => Fin.ext ?_)
  match a with
  | ⟨0, _⟩ => show win1_17.index t (0 : Fin 2) * 2048 + 1 * l.val = l.val; omega
  | ⟨1, _⟩ => show win1_17.index t (1 : Fin 2) * 512 + 1 * q.val = t.val / 32 * 512 + q.val; omega

theorem rd18 (c : Dev nD) (t : Fin cfg1.N) (q : Fin 512) :
    iblk1 (F := Ideal) V c 18 t (ix2 (0 : Fin 1) q) = V c main_v31 (ix2 (0 : Fin 1) (colOf t q)) := by
  obtain ⟨-, -, -, -, -, -, e0, e1⟩ := idx_c t
  show V c main_v31 (((cfg1.win 18).blk t).view.emb (ix2 (0 : Fin 1) q)) = V c main_v31 (ix2 (0 : Fin 1) (colOf t q))
  refine congrArg (V c main_v31) (funext fun a => Fin.ext ?_)
  match a with
  | ⟨0, _⟩ => show win1_18.index t (0 : Fin 2) * 1 + 1 * 0 = 0; omega
  | ⟨1, _⟩ => show win1_18.index t (1 : Fin 2) * 512 + 1 * q.val = t.val / 32 * 512 + q.val; omega

/-! ## The four gates of a tile are the arrays' gates at the tile's rows and columns -/

/-- A block pre-activation whose six blocks read six arrays along row `b` and column `h` is the arrays'
    pre-activation at `(b, h)`. -/
theorem preBlk_eq_gateT (x : Cert.Cell.A2 8192 1024) (mm : Cert.Cell.A2 8192 2048) (wx : Cert.Cell.A2 1024 2048) (bx : Cert.Cell.A2 1 2048)
    (wm : Cert.Cell.A2 2048 2048) (bm : Cert.Cell.A2 1 2048)
    (X0 : Vec Ideal S256x1024 .bf16) (X1 : Vec Ideal S256x2048 .f32) (W : Vec Ideal S1024x512 .bf16) (B : Vec Ideal S1x512 .f32)
    (Um : Vec Ideal S2048x512 .bf16) (Γ : Vec Ideal S1x512 .f32) (b : Fin 8192) (h : Fin 2048) (p : Fin 256) (q : Fin 512)
    (h0 : ∀ k, X0 (ix2 p k) = x (ix2 b k)) (h1 : ∀ l, X1 (ix2 p l) = mm (ix2 b l))
    (hW : ∀ k, W (ix2 k q) = wx (ix2 k h)) (hB : B (ix2 (0 : Fin 1) q) = bx (ix2 (0 : Fin 1) h))
    (hU : ∀ l, Um (ix2 l q) = wm (ix2 l h)) (hΓ : Γ (ix2 (0 : Fin 1) q) = bm (ix2 (0 : Fin 1) h)) :
    preBlk X0 X1 W B Um Γ p q = Cert.Cell.gateT x mm wx bx wm bm b h := by
  show ((∑ k : Fin 1024, X0 (ix2 p k) * W (ix2 k q)) + B (ix2 (0 : Fin 1) q)) + ((∑ l : Fin 2048, X1 (ix2 p l) * Um (ix2 l q)) + Γ (ix2 (0 : Fin 1) q))
     = ((∑ k : Fin 1024, x (ix2 b k) * wx (ix2 k h)) + bx (ix2 (0 : Fin 1) h)) + ((∑ l : Fin 2048, mm (ix2 b l) * wm (ix2 l h)) + bm (ix2 (0 : Fin 1) h))
  rw [hB, hΓ, Finset.sum_congr rfl (fun k _ => by rw [h0 k, hW k] : ∀ k ∈ Finset.univ, X0 (ix2 p k) * W (ix2 k q) = x (ix2 b k) * wx (ix2 k h)),
    Finset.sum_congr rfl (fun l _ => by rw [h1 l, hU l] : ∀ l ∈ Finset.univ, X1 (ix2 p l) * Um (ix2 l q) = mm (ix2 b l) * wm (ix2 l h))]

/-- The forget gate. -/
theorem gateF_at (c : Dev nD) (t : Fin cfg1.N) (p : Fin 256) (q : Fin 512) :
    preBlk (iblk1 (F := Ideal) V c 0 t) (iblk1 (F := Ideal) V c 1 t) (iblk1 (F := Ideal) V c 3 t) (iblk1 (F := Ideal) V c 4 t) (iblk1 (F := Ideal) V c 5 t) (iblk1 (F := Ideal) V c 6 t) p q
      = Cert.Cell.gateT (V c main_v1) (V c main_v32) (V c main_v7) (V c main_v24) (V c main_v9) (V c main_v25) (rowOf t p) (colOf t q) :=
  preBlk_eq_gateT (V c main_v1) (V c main_v32) (V c main_v7) (V c main_v24) (V c main_v9) (V c main_v25)
    (iblk1 (F := Ideal) V c 0 t) (iblk1 (F := Ideal) V c 1 t) (iblk1 (F := Ideal) V c 3 t) (iblk1 (F := Ideal) V c 4 t) (iblk1 (F := Ideal) V c 5 t) (iblk1 (F := Ideal) V c 6 t)
    (rowOf t p) (colOf t q) p q (rd0 V c t p) (rd1 V c t p) (fun k => rd3 V c t k q) (rd4 V c t q) (fun l => rd5 V c t l q) (rd6 V c t q)

/-- The input gate. -/
theorem gateI_at (c : Dev nD) (t : Fin cfg1.N) (p : Fin 256) (q : Fin 512) :
    preBlk (iblk1 (F := Ideal) V c 0 t) (iblk1 (F := Ideal) V c 1 t) (iblk1 (F := Ideal) V c 7 t) (iblk1 (F := Ideal) V c 8 t) (iblk1 (F := Ideal) V c 9 t) (iblk1 (F := Ideal) V c 10 t) p q
      = Cert.Cell.gateT (V c main_v1) (V c main_v32) (V c main_v11) (V c main_v26) (V c main_v13) (V c main_v27) (rowOf t p) (colOf t q) :=
  preBlk_eq_gateT (V c main_v1) (V c main_v32) (V c main_v11) (V c main_v26) (V c main_v13) (V c main_v27)
    (iblk1 (F := Ideal) V c 0 t) (iblk1 (F := Ideal) V c 1 t) (iblk1 (F := Ideal) V c 7 t) (iblk1 (F := Ideal) V c 8 t) (iblk1 (F := Ideal) V c 9 t) (iblk1 (F := Ideal) V c 10 t)
    (rowOf t p) (colOf t q) p q (rd0 V c t p) (rd1 V c t p) (fun k => rd7 V c t k q) (rd8 V c t q) (fun l => rd9 V c t l q) (rd10 V c t q)

/-- The output gate. -/
theorem gateO_at (c : Dev nD) (t : Fin cfg1.N) (p : Fin 256) (q : Fin 512) :
    preBlk (iblk1 (F := Ideal) V c 0 t) (iblk1 (F := Ideal) V c 1 t) (iblk1 (F := Ideal) V c 11 t) (iblk1 (F := Ideal) V c 12 t) (iblk1 (F := Ideal) V c 13 t) (iblk1 (F := Ideal) V c 14 t) p q
      = Cert.Cell.gateT (V c main_v1) (V c main_v32) (V c main_v15) (V c main_v28) (V c main_v17) (V c main_v29) (rowOf t p) (colOf t q) :=
  preBlk_eq_gateT (V c main_v1) (V c main_v32) (V c main_v15) (V c main_v28) (V c main_v17) (V c main_v29)
    (iblk1 (F := Ideal) V c 0 t) (iblk1 (F := Ideal) V c 1 t) (iblk1 (F := Ideal) V c 11 t) (iblk1 (F := Ideal) V c 12 t) (iblk1 (F := Ideal) V c 13 t) (iblk1 (F := Ideal) V c 14 t)
    (rowOf t p) (colOf t q) p q (rd0 V c t p) (rd1 V c t p) (fun k => rd11 V c t k q) (rd12 V c t q) (fun l => rd13 V c t l q) (rd14 V c t q)

/-- The candidate. -/
theorem gateC_at (c : Dev nD) (t : Fin cfg1.N) (p : Fin 256) (q : Fin 512) :
    preBlk (iblk1 (F := Ideal) V c 0 t) (iblk1 (F := Ideal) V c 1 t) (iblk1 (F := Ideal) V c 15 t) (iblk1 (F := Ideal) V c 16 t) (iblk1 (F := Ideal) V c 17 t) (iblk1 (F := Ideal) V c 18 t) p q
      = Cert.Cell.gateT (V c main_v1) (V c main_v32) (V c main_v19) (V c main_v30) (V c main_v21) (V c main_v31) (rowOf t p) (colOf t q) :=
  preBlk_eq_gateT (V c main_v1) (V c main_v32) (V c main_v19) (V c main_v30) (V c main_v21) (V c main_v31)
    (iblk1 (F := Ideal) V c 0 t) (iblk1 (F := Ideal) V c 1 t) (iblk1 (F := Ideal) V c 15 t) (iblk1 (F := Ideal) V c 16 t) (iblk1 (F := Ideal) V c 17 t) (iblk1 (F := Ideal) V c 18 t)
    (rowOf t p) (colOf t q) p q (rd0 V c t p) (rd1 V c t p) (fun k => rd15 V c t k q) (rd16 V c t q) (fun l => rd17 V c t l q) (rd18 V c t q)

/-! ## From tiles to the arrays -/

/-- The cell-state array the launch leaves, as one function of the entry contents. -/
def cxArr (c : Dev nD) : S8192x2048.Idx → Elt Ideal .f32 :=
  fun i => cellOf V c ⟨(i 0).val, idx2_lt0 i⟩ ⟨(i 1).val, idx2_lt1 i⟩

/-- The hidden-state array the launch leaves, as one function of the entry contents. -/
def hxArr (c : Dev nD) : S8192x2048.Idx → Elt Ideal .f32 :=
  fun i => Cert.Cell.hiddenAt
    (Cert.Cell.gateT (V c main_v1) (V c main_v32) (V c main_v15) (V c main_v28) (V c main_v17) (V c main_v29) ⟨(i 0).val, idx2_lt0 i⟩ ⟨(i 1).val, idx2_lt1 i⟩)
    (cellOf V c ⟨(i 0).val, idx2_lt0 i⟩ ⟨(i 1).val, idx2_lt1 i⟩)

/-- Entry `(p, q)` of point `t`'s cell tile sits at row `rowOf t p`, column `colOf t q` of the array. -/
theorem emb20 (t : Fin cfg1.N) (p : Fin 256) (q : Fin 512) :
    ((cfg1.win 20).blk t).view.emb (ix2 p q) = ix2 (rowOf t p) (colOf t q) := by
  obtain ⟨e0, e1, -⟩ := idx_out t
  refine funext fun a => Fin.ext ?_
  match a with
  | ⟨0, _⟩ => show win1_20.index t (0 : Fin 2) * 256 + 1 * p.val = t.val % 32 * 256 + p.val; omega
  | ⟨1, _⟩ => show win1_20.index t (1 : Fin 2) * 512 + 1 * q.val = t.val / 32 * 512 + q.val; omega

/-- The same for its hidden tile. -/
theorem emb19 (t : Fin cfg1.N) (p : Fin 256) (q : Fin 512) :
    ((cfg1.win 19).blk t).view.emb (ix2 p q) = ix2 (rowOf t p) (colOf t q) := by
  obtain ⟨-, -, e0, e1⟩ := idx_out t
  refine funext fun a => Fin.ext ?_
  match a with
  | ⟨0, _⟩ => show win1_19.index t (0 : Fin 2) * 256 + 1 * p.val = t.val % 32 * 256 + p.val; omega
  | ⟨1, _⟩ => show win1_19.index t (1 : Fin 2) * 512 + 1 * q.val = t.val / 32 * 512 + q.val; omega

/-- What point `t` writes back to the cell-state array is tile `t` of `cxArr`. -/
theorem flushed20_eq (c : Dev nD) (t : Fin cfg1.N) :
    (dat1 (F := Ideal) V c).flushed 20 t = ((cfg1.win 20).blk t).view.read (Elt Ideal) (cxArr V c) := by
  show (cfg1.win 20).cut (grid1.coords t) ((dat1 (F := Ideal) V c).after 20 t) = _
  rw [after1_20]
  funext j
  obtain ⟨p, q, rfl⟩ : ∃ (p : Fin 256) (q : Fin 512), j = ix2 p q := ⟨j 0, j 1, eq_ix2 j⟩
  show out1_20 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (ix2 p q)
    = cxArr V c (((cfg1.win 20).blk t).view.emb (ix2 p q))
  rw [emb20 t p q]
  refine (out20_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) p q).trans ?_
  rw [gateF_at V c t p q, gateI_at V c t p q, gateC_at V c t p q, rd2 V c t p q]
  rfl

/-- What point `t` writes back to the hidden-state array is tile `t` of `hxArr`. -/
theorem flushed19_eq (c : Dev nD) (t : Fin cfg1.N) :
    (dat1 (F := Ideal) V c).flushed 19 t = ((cfg1.win 19).blk t).view.read (Elt Ideal) (hxArr V c) := by
  show (cfg1.win 19).cut (grid1.coords t) ((dat1 (F := Ideal) V c).after 19 t) = _
  rw [after1_19]
  funext j
  obtain ⟨p, q, rfl⟩ : ∃ (p : Fin 256) (q : Fin 512), j = ix2 p q := ⟨j 0, j 1, eq_ix2 j⟩
  show out1_19 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) (ix2 p q)
    = hxArr V c (((cfg1.win 19).blk t).view.emb (ix2 p q))
  rw [emb19 t p q]
  refine (out19_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) (iblk1 V c 17 t) (iblk1 V c 18 t) p q).trans ?_
  rw [gateF_at V c t p q, gateI_at V c t p q, gateO_at V c t p q, gateC_at V c t p q, rd2 V c t p q]
  rfl

/-- An entry of the cell-state array is in point `t`'s tile iff each coordinate is in the tile's range on its axis. -/
theorem mem_blk20 (t : Fin cfg1.N) (i : S8192x2048.Idx) :
    i ∈ ((cfg1.win 20).blk t).view.set ↔ ∀ a : Fin 2, win1_20.index t a * S256x512.size a ≤ (i a).val ∧ (i a).val < win1_20.index t a * S256x512.size a + S256x512.size a := by
  show i ∈ ((View.whole main_v33_1).slice (win1_20.rect t)).set ↔ _
  rw [View.set_slice_whole, Rect.mem_set_unit]
  exact Iff.rfl

/-- The same for the hidden-state array. -/
theorem mem_blk19 (t : Fin cfg1.N) (i : S8192x2048.Idx) :
    i ∈ ((cfg1.win 19).blk t).view.set ↔ ∀ a : Fin 2, win1_19.index t a * S256x512.size a ≤ (i a).val ∧ (i a).val < win1_19.index t a * S256x512.size a + S256x512.size a := by
  show i ∈ ((View.whole main_v33_0).slice (win1_19.rect t)).set ↔ _
  rw [View.set_slice_whole, Rect.mem_set_unit]
  exact Iff.rfl

/-- The point whose tiles hold entry `(r, s)`: hidden tile `s / 512` (outer), batch tile `r / 256` (inner). -/
theorem point_of (r s : Nat) (hr : r < 8192) (hs : s < 2048) :
    ∃ t : Fin cfg1.N, t.val % 32 * 256 ≤ r ∧ r < t.val % 32 * 256 + 256 ∧ t.val / 32 * 512 ≤ s ∧ s < t.val / 32 * 512 + 512 :=
  ⟨⟨s / 512 * 32 + r / 256, lt_of_lt_of_eq (by omega) N_1.symm⟩, by
    show (s / 512 * 32 + r / 256) % 32 * 256 ≤ r ∧ r < (s / 512 * 32 + r / 256) % 32 * 256 + 256
      ∧ (s / 512 * 32 + r / 256) / 32 * 512 ≤ s ∧ s < (s / 512 * 32 + r / 256) / 32 * 512 + 512
    omega⟩

/-- Every entry of the cell-state array is in some point's tile. -/
theorem cover20 (i : S8192x2048.Idx) :
    ∃ t : Fin cfg1.N, (cfg1.win 20).flush t = true ∧ i ∈ ((cfg1.win 20).blk t).view.set := by
  obtain ⟨t, h0, h1, h2, h3⟩ := point_of (i 0).val (i 1).val (i 0).isLt (i 1).isLt
  obtain ⟨e0, e1, -⟩ := idx_out t
  refine ⟨t, flush1_20 t, ?_⟩
  rw [mem_blk20]
  intro a
  match a with
  | ⟨0, _⟩ => show win1_20.index t (0 : Fin 2) * 256 ≤ (i 0).val ∧ (i 0).val < win1_20.index t (0 : Fin 2) * 256 + 256; omega
  | ⟨1, _⟩ => show win1_20.index t (1 : Fin 2) * 512 ≤ (i 1).val ∧ (i 1).val < win1_20.index t (1 : Fin 2) * 512 + 512; omega

/-- Every entry of the hidden-state array is in some point's tile. -/
theorem cover19 (i : S8192x2048.Idx) :
    ∃ t : Fin cfg1.N, (cfg1.win 19).flush t = true ∧ i ∈ ((cfg1.win 19).blk t).view.set := by
  obtain ⟨t, h0, h1, h2, h3⟩ := point_of (i 0).val (i 1).val (i 0).isLt (i 1).isLt
  obtain ⟨-, -, e0, e1⟩ := idx_out t
  refine ⟨t, flush1_19 t, ?_⟩
  rw [mem_blk19]
  intro a
  match a with
  | ⟨0, _⟩ => show win1_19.index t (0 : Fin 2) * 256 ≤ (i 0).val ∧ (i 0).val < win1_19.index t (0 : Fin 2) * 256 + 256; omega
  | ⟨1, _⟩ => show win1_19.index t (1 : Fin 2) * 512 ≤ (i 1).val ∧ (i 1).val < win1_19.index t (1 : Fin 2) * 512 + 512; omega

/-- The cell-state array when the launch has ended. -/
theorem cx_arr (c : Dev nD) : (dat1 (F := Ideal) V c).arrAt 20 cfg1.N = cxArr V c :=
  (dat1 (F := Ideal) V c).arrAt_eq_of_cover 20 (cxArr V c) (fun t _ => flushed20_eq V c t) cover20

/-- The hidden-state array when the launch has ended. -/
theorem hx_arr (c : Dev nD) : (dat1 (F := Ideal) V c).arrAt 19 cfg1.N = hxArr V c :=
  (dat1 (F := Ideal) V c).arrAt_eq_of_cover 19 (hxArr V c) (fun t _ => flushed19_eq V c t) cover19

/-- Entry `(b, h)` of the cell-state array when the second launch has ended. -/
theorem cx_at (c : Dev nD) (b : Fin 8192) (h : Fin 2048) :
    (dat1 (F := Ideal) V c).arrAt 20 cfg1.N (ix2 b h) = cellOf V c b h :=
  congrFun (cx_arr V c) (ix2 b h)

/-- Entry `(b, h)` of the hidden-state array when the second launch has ended: the output gate against the new
    cell entry. -/
theorem hx_at (c : Dev nD) (b : Fin 8192) (h : Fin 2048) :
    (dat1 (F := Ideal) V c).arrAt 19 cfg1.N (ix2 b h)
      = Cert.Cell.hiddenAt
          (Cert.Cell.gateT (V c main_v1) (V c main_v32) (V c main_v15) (V c main_v28) (V c main_v17) (V c main_v29) b h)
          (cellOf V c b h) :=
  congrFun (hx_arr V c) (ix2 b h)

end Cert.KernelIdeal.Stage1
-- ==== Proof.Decode.lean ====
/-
  The decoder `y = h W_decᵀ + b_dec` as the host computes it after the second launch: a `dot_general` of the hidden
  state against the transposed decoder weight, plus the bias broadcast `[2] → [1, 2] → [8192, 2]`. Read at `(b, o)` it
  is `∑ₕ h (b, h) · W_dec (o, h) + b_dec o`, for any hidden-state array.
-/
import proofs.«400341_j38800734552172_3_alg».proof.Proof.Gen.KernelIdeal.Frame
import proofs.«400341_j38800734552172_3_alg».proof.Proof.CellArrays
import Idealize.ShloMosaic.Lib.Pipeline.Value
import Idealize.ShloMosaic.Lib.ValueIdx
import Idealize.ShloMosaic.PureOps.Ideal.Laws

-- the arrays' coordinates run to 8192, 2048 and 1024: literal index arithmetic recurses past the default depth
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Decode

open Cert.KernelIdeal Cert.KernelIdeal.Gen

/-- The decoder's left operand is read at the output's row … -/
theorem lhs_dec_0 (i : S8192x2.Idx) (q : dot_S8192x2048_S2048x2_S8192x2_1_0_0_1_n_n.contr.Idx) :
    (dot_S8192x2048_S2048x2_S8192x2_1_0_0_1_n_n.lhsIdx i q 0).val = (i 0).val := by
  unfold DotDims.lhsIdx
  rw [dif_neg (show ¬(0 : Fin S8192x2048.rank) ∈ dot_S8192x2048_S2048x2_S8192x2_1_0_0_1_n_n.lhsBatch by decide), dif_pos (show (0 : Fin S8192x2048.rank) ∈ dot_S8192x2048_S2048x2_S8192x2_1_0_0_1_n_n.lhsNonContracting by decide)]
  rfl
/-- … and at the contraction index on its second axis; -/
theorem lhs_dec_1 (i : S8192x2.Idx) (q : dot_S8192x2048_S2048x2_S8192x2_1_0_0_1_n_n.contr.Idx) :
    (dot_S8192x2048_S2048x2_S8192x2_1_0_0_1_n_n.lhsIdx i q 1).val = (q ⟨0, by decide⟩).val :=
  dot_S8192x2048_S2048x2_S8192x2_1_0_0_1_n_n.lhsIdx_val_of_single rfl i q
/-- the right operand at the contraction index on its first axis … -/
theorem rhs_dec_0 (i : S8192x2.Idx) (q : dot_S8192x2048_S2048x2_S8192x2_1_0_0_1_n_n.contr.Idx) :
    (dot_S8192x2048_S2048x2_S8192x2_1_0_0_1_n_n.rhsIdx i q 0).val = (q ⟨0, by decide⟩).val :=
  dot_S8192x2048_S2048x2_S8192x2_1_0_0_1_n_n.rhsIdx_val_of_single rfl i q
/-- … and at the output's column. -/
theorem rhs_dec_1 (i : S8192x2.Idx) (q : dot_S8192x2048_S2048x2_S8192x2_1_0_0_1_n_n.contr.Idx) :
    (dot_S8192x2048_S2048x2_S8192x2_1_0_0_1_n_n.rhsIdx i q 1).val = (i 1).val := by
  unfold DotDims.rhsIdx
  rw [dif_neg (show ¬(1 : Fin S2048x2.rank) ∈ dot_S8192x2048_S2048x2_S8192x2_1_0_0_1_n_n.rhsBatch by decide), dif_pos (show (1 : Fin S2048x2.rank) ∈ dot_S8192x2048_S2048x2_S8192x2_1_0_0_1_n_n.rhsNonContracting by decide)]
  rfl

/-- The host's contraction read at entry `(b, o)`: row `b` of the left operand against column `o` of the right one. -/
theorem dot_dec_apply (x : FVec Ideal S8192x2048 .f32) (y : FVec Ideal S2048x2 .f32) (b : Fin 8192) (o : Fin 2) :
    Host.dotGeneral (F := Ideal) dot_S8192x2048_S2048x2_S8192x2_1_0_0_1_n_n none x y (ix2 b o) = ∑ h : Fin 2048, x (ix2 b h) * y (ix2 h o) := by
  simp only [Host.dotGeneral]
  rw [Ideal.dotGeneral_apply, ← Equiv.sum_comp (ValueIdx.contrEquiv1 dot_S8192x2048_S2048x2_S8192x2_1_0_0_1_n_n 2048 rfl rfl).symm]
  refine Finset.sum_congr rfl fun k _ => ?_
  have hk := ValueIdx.contrEquiv1_symm_val dot_S8192x2048_S2048x2_S8192x2_1_0_0_1_n_n 2048 rfl rfl k
  have el : dot_S8192x2048_S2048x2_S8192x2_1_0_0_1_n_n.lhsIdx (ix2 b o) ((ValueIdx.contrEquiv1 dot_S8192x2048_S2048x2_S8192x2_1_0_0_1_n_n 2048 rfl rfl).symm k) = ix2 b k := funext fun a => Fin.ext (by
    match a with
    | ⟨0, _⟩ => exact lhs_dec_0 _ _
    | ⟨1, _⟩ => exact (lhs_dec_1 _ _).trans hk)
  have er : dot_S8192x2048_S2048x2_S8192x2_1_0_0_1_n_n.rhsIdx (ix2 b o) ((ValueIdx.contrEquiv1 dot_S8192x2048_S2048x2_S8192x2_1_0_0_1_n_n 2048 rfl rfl).symm k) = ix2 k o := funext fun a => Fin.ext (by
    match a with
    | ⟨0, _⟩ => exact (rhs_dec_0 _ _).trans hk
    | ⟨1, _⟩ => exact rhs_dec_1 _ _)
  rw [el, er]

/-- The transposed decoder weight at `(h, o)` is the weight at `(o, h)`. -/
theorem wdecT_apply (Wdec : FVec Ideal S2x2048 .f32) (h : Fin 2048) (o : Fin 2) :
    transpose S2048x2 [1, 0] Wdec transposes_S2x2048_S2048x2_1_0 (ix2 h o) = Wdec (ix2 o h) :=
  transpose_apply [1, 0] Wdec transposes_S2x2048_S2048x2_1_0 (ix2 h o) (ix2 o h) (fun a => match a with
    | ⟨0, _⟩ => rfl
    | ⟨1, _⟩ => rfl)

/-- The bias spread `[2] → [1, 2] → [8192, 2]` reads, at `(b, o)`, the bias's entry `o`. -/
theorem bdec_apply (bdec : FVec Ideal S2 .f32) (b : Fin 8192) (o : Fin 2) :
    broadcastInDim S8192x2 ![0, 1] bcast_S1x2_S8192x2_0_1 (broadcastInDim S1x2 ![1] bcast_S2_S1x2_1 bdec) (ix2 b o)
      = bdec (ix1 o) := by
  refine (broadcastInDim_apply _ bcast_S1x2_S8192x2_0_1 (broadcastInDim S1x2 ![1] bcast_S2_S1x2_1 bdec) (ix2 b o)
    (ix2 (0 : Fin 1) o) (fun a => match a with
    | ⟨0, _⟩ => by show 0 = if (1 : Nat) = 1 then 0 else b.val; rw [if_pos rfl]
    | ⟨1, _⟩ => by show o.val = if (2 : Nat) = 1 then 0 else o.val; rw [if_neg (by decide)])).trans ?_
  exact broadcastInDim_apply _ bcast_S2_S1x2_1 bdec (ix2 (0 : Fin 1) o) (ix1 o) (fun a => match a with
    | ⟨0, _⟩ => by show o.val = if (2 : Nat) = 1 then 0 else o.val; rw [if_neg (by decide)])

/-- The host's decoder stretch applied to a hidden-state array, at `(b, o)`. -/
theorem decode_at (hx : FVec Ideal S8192x2048 .f32) (Wdec : FVec Ideal S2x2048 .f32) (bdec : FVec Ideal S2 .f32)
    (b : Fin 8192) (o : Fin 2) :
    addf (Host.dotGeneral (F := Ideal) dot_S8192x2048_S2048x2_S8192x2_1_0_0_1_n_n none hx
        (transpose S2048x2 [1, 0] Wdec transposes_S2x2048_S2048x2_1_0))
      (broadcastInDim S8192x2 ![0, 1] bcast_S1x2_S8192x2_0_1 (broadcastInDim S1x2 ![1] bcast_S2_S1x2_1 bdec)) (ix2 b o)
      = Cert.Cell.aff (fun b h => hx (ix2 b h)) (fun o h => Wdec (ix2 o h)) (fun o => bdec (ix1 o)) b o := by
  rw [addf_apply, bdec_apply, dot_dec_apply]
  show (∑ h : Fin 2048, hx (ix2 b h) * transpose S2048x2 [1, 0] Wdec transposes_S2x2048_S2048x2_1_0 (ix2 h o)) + bdec (ix1 o)
    = (∑ h : Fin 2048, hx (ix2 b h) * Wdec (ix2 o h)) + bdec (ix1 o)
  exact congrArg (· + bdec (ix1 o)) (Finset.sum_congr rfl fun h _ => by rw [wdecT_apply])

end Cert.KernelIdeal.Decode
-- ==== Proof.KernelCell.lean ====
/-
  The kernel program computes the step `Cell.Net` describes. Its data are the rows it gathered (`Rows.rows`) and its
  argument arrays. The first launch leaves the multiplicative state `m` (Stage0, over the prepared `W_mxᵀ`, `W_mhᵀ`
  and bias rows); the second leaves the new cell and hidden states (Stage1, over `m` and the four gates' prepared
  parameters); the host decodes the hidden state. Each prepared array, read at an entry, is the argument it was
  prepared from (HostReads), so each launch's transposed-layout formula is the given-layout one (`affT_eq`) — with
  the embedded rows the gathered ones as soon as every index is in `[-V, V)` (`Rows.taken_rows`).
-/
import proofs.«400341_j38800734552172_3_alg».proof.Proof.KernelRun
import proofs.«400341_j38800734552172_3_alg».proof.Proof.Rows
import proofs.«400341_j38800734552172_3_alg».proof.Proof.HostReads
import proofs.«400341_j38800734552172_3_alg».proof.Proof.TailReads
import proofs.«400341_j38800734552172_3_alg».proof.Proof.Stage0
import proofs.«400341_j38800734552172_3_alg».proof.Proof.Stage1
import proofs.«400341_j38800734552172_3_alg».proof.Proof.Decode
import proofs.«400341_j38800734552172_3_alg».proof.Proof.CellArrays

-- the arrays' coordinates run to 8192, 2048 and 1024: literal index arithmetic recurses past the default depth
set_option maxRecDepth 16384

noncomputable section

open Idealize.ShloMosaic Idealize.ShloMosaic.TcCoe Idealize.SL.Sem Idealize.ShloMosaic.ValueIdx
open Idealize.ShloMosaic.Pipeline (Dat)
open scoped BigOperators

/-! ## Congruences of the cell's formulas -/

namespace Cert.Cell

/-- An affine map's entry depends only on its three arguments' entries. -/
theorem aff_congr {B H K : ℕ} {x x' : Fin B → Fin K → EReal} {W W' : Fin H → Fin K → EReal} {β β' : Fin H → EReal}
    (hx : ∀ b k, x b k = x' b k) (hw : ∀ h k, W h k = W' h k) (hβ : ∀ h, β h = β' h) (b : Fin B) (h : Fin H) :
    aff x W β b h = aff x' W' β' b h := by
  unfold aff
  rw [hβ h]
  exact congrArg (· + β' h) (Finset.sum_congr rfl fun k _ => by rw [hx b k, hw h k])

/-- A gate's pre-activation in the transposed layout is the step's, once the six arrays are matched entry by entry. -/
theorem gateT_eq (N : Net) (X : A2 8192 1024) (M : A2 8192 2048) (wx : A2 1024 2048) (bx : A2 1 2048)
    (wm : A2 2048 2048) (bm : A2 1 2048) (Wx : Fin 2048 → Fin 1024 → EReal) (βx : Fin 2048 → EReal)
    (Wm : Fin 2048 → Fin 2048 → EReal) (βm : Fin 2048 → EReal)
    (hX : ∀ b k, X (ix2 b k) = N.x b k) (hM : ∀ b l, M (ix2 b l) = N.m b l)
    (hwx : ∀ k h, wx (ix2 k h) = Wx h k) (hbx : ∀ h, bx (ix2 (0 : Fin 1) h) = βx h)
    (hwm : ∀ l h, wm (ix2 l h) = Wm h l) (hbm : ∀ h, bm (ix2 (0 : Fin 1) h) = βm h) (b : Fin 8192) (h : Fin 2048) :
    gateT X M wx bx wm bm b h = N.pre Wx βx Wm βm b h := by
  unfold gateT Net.pre
  rw [affT_eq X wx bx N.x Wx βx hX hwx hbx b h, affT_eq M wm bm N.m Wm βm hM hwm hbm b h]

end Cert.Cell

namespace Cert.KernelIdeal.Step

open Cert.KernelIdeal Cert.KernelIdeal.Gen Cert.KernelIdeal.Reads

/-- A prepared weight `[K, 2048]` and a prepared bias row `[1, 2048]`, as matrices of extended reals. -/
abbrev A2' (K : ℕ) : Type := Cert.Cell.A2 K 2048
abbrev B1' : Type := Cert.Cell.A2 1 2048

variable (m : (ℓ : Loc nD τ sig) → Buf (Elt Ideal) ℓ) (ρ : Dev nD → PrngReg)

/-- The step's data as the kernel program holds it: the rows it gathered, and its argument arrays. -/
abbrev net (c : Dev nD) : Cert.Cell.Net :=
  Cert.Cell.netOf (Rows.rows (m ((c : Thread nD τ).loc main_arg0)) (m ((c : Thread nD τ).loc main_arg3))) (m ((c : Thread nD τ).loc main_arg1)) (m ((c : Thread nD τ).loc main_arg2))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))
    (m ((c : Thread nD τ).loc main_arg16)) (m ((c : Thread nD τ).loc main_arg17)) (m ((c : Thread nD τ).loc main_arg18)) (m ((c : Thread nD τ).loc main_arg19))
    (m ((c : Thread nD τ).loc main_arg20)) (m ((c : Thread nD τ).loc main_arg21)) (m ((c : Thread nD τ).loc main_arg22)) (m ((c : Thread nD τ).loc main_arg23))
    (m ((c : Thread nD τ).loc main_arg24)) (m ((c : Thread nD τ).loc main_arg25))

/-- Every index word is in `[-V, V)`. -/
abbrev InRange (c : Dev nD) : Prop :=
  ∀ k, -50257 ≤ (m ((c : Thread nD τ).loc main_arg0) k).toInt ∧ (m ((c : Thread nD τ).loc main_arg0) k).toInt < 50257

variable {m}

/-- The first launch finds the gathered rows. -/
theorem x_at0 (c : Dev nD) (hr : InRange m c) (b : Fin 8192) (k : Fin 1024) :
    V2 m ρ c main_v1 (ix2 b k) = (net m c).x b k :=
  congrFun ((v1_eq m ρ c).trans (Rows.taken_rows m ρ c hr)) (ix2 b k)

/-- So does the second. -/
theorem x_at1 (c : Dev nD) (hr : InRange m c) (b : Fin 8192) (k : Fin 1024) :
    V3 m ρ c main_v1 (ix2 b k) = (net m c).x b k :=
  (congrFun (v1_eq' m ρ c) (ix2 b k)).trans (x_at0 ρ c hr b k)

/-- The second launch finds the multiplicative state. -/
theorem m_at (c : Dev nD) (hr : InRange m c) (b : Fin 8192) (l : Fin 2048) :
    V3 m ρ c main_v32 (ix2 b l) = (net m c).m b l := by
  refine (congrFun (v32_eq m ρ c) (ix2 b l)).trans ((Stage0.mstate_at (V2 m ρ) c b l).trans ?_)
  unfold Cert.Cell.mstateT Cert.Cell.Net.m
  rw [Cert.Cell.affT_eq (V2 m ρ c main_v1) (V2 m ρ c main_v3) (V2 m ρ c main_v22) (net m c).x (net m c).Wmx (net m c).bmx
      (x_at0 ρ c hr)
      (fun k h => (congrFun (v3_eq m ρ c) (ix2 k h)).trans (prepX_at _ k h))
      (fun h => (congrFun (v22_eq m ρ c) (ix2 (0 : Fin 1) h)).trans (prepB_at _ h)) b l,
    Cert.Cell.affT_eq (V2 m ρ c main_arg1) (V2 m ρ c main_v5) (V2 m ρ c main_v23) (net m c).h0 (net m c).Wmh (net m c).bmh
      (fun b l => congrFun (arg1_eq m ρ c) (ix2 b l))
      (fun l h => (congrFun (v5_eq m ρ c) (ix2 l h)).trans (prepM_at _ l h))
      (fun h => (congrFun (v23_eq m ρ c) (ix2 (0 : Fin 1) h)).trans (prepB_at _ h)) b l]

/-- A gate of the second launch, over its entry contents, is the step's pre-activation with that gate's
    parameters, once its four prepared arrays are read back to the arguments. -/
theorem gate_at (c : Dev nD) (hr : InRange m c) (wx : A2' 1024) (bx : B1') (wm : A2' 2048) (bm : B1')
    (Wx : Fin 2048 → Fin 1024 → EReal) (βx : Fin 2048 → EReal) (Wm : Fin 2048 → Fin 2048 → EReal) (βm : Fin 2048 → EReal)
    (hwx : ∀ k h, wx (ix2 k h) = Wx h k) (hbx : ∀ h, bx (ix2 (0 : Fin 1) h) = βx h)
    (hwm : ∀ l h, wm (ix2 l h) = Wm h l) (hbm : ∀ h, bm (ix2 (0 : Fin 1) h) = βm h) (b : Fin 8192) (h : Fin 2048) :
    Cert.Cell.gateT (V3 m ρ c main_v1) (V3 m ρ c main_v32) wx bx wm bm b h = (net m c).pre Wx βx Wm βm b h :=
  Cert.Cell.gateT_eq (net m c) (V3 m ρ c main_v1) (V3 m ρ c main_v32) wx bx wm bm Wx βx Wm βm
    (x_at1 ρ c hr) (m_at ρ c hr) hwx hbx hwm hbm b h

/-- The forget, input, output and candidate gates. -/
theorem f_at (c : Dev nD) (hr : InRange m c) (b : Fin 8192) (h : Fin 2048) :
    Cert.Cell.gateT (V3 m ρ c main_v1) (V3 m ρ c main_v32) (V3 m ρ c main_v7) (V3 m ρ c main_v24) (V3 m ρ c main_v9) (V3 m ρ c main_v25) b h
      = (net m c).pre (net m c).Wfx (net m c).bfx (net m c).Wfm (net m c).bfm b h :=
  gate_at ρ c hr _ _ _ _ _ _ _ _
    (fun k h => (congrFun (v7_eq m ρ c) (ix2 k h)).trans (prepX_at _ k h))
    (fun h => (congrFun (v24_eq m ρ c) (ix2 (0 : Fin 1) h)).trans (prepB_at _ h))
    (fun l h => (congrFun (v9_eq m ρ c) (ix2 l h)).trans (prepM_at _ l h))
    (fun h => (congrFun (v25_eq m ρ c) (ix2 (0 : Fin 1) h)).trans (prepB_at _ h)) b h

theorem i_at (c : Dev nD) (hr : InRange m c) (b : Fin 8192) (h : Fin 2048) :
    Cert.Cell.gateT (V3 m ρ c main_v1) (V3 m ρ c main_v32) (V3 m ρ c main_v11) (V3 m ρ c main_v26) (V3 m ρ c main_v13) (V3 m ρ c main_v27) b h
      = (net m c).pre (net m c).Wix (net m c).bix (net m c).Wim (net m c).bim b h :=
  gate_at ρ c hr _ _ _ _ _ _ _ _
    (fun k h => (congrFun (v11_eq m ρ c) (ix2 k h)).trans (prepX_at _ k h))
    (fun h => (congrFun (v26_eq m ρ c) (ix2 (0 : Fin 1) h)).trans (prepB_at _ h))
    (fun l h => (congrFun (v13_eq m ρ c) (ix2 l h)).trans (prepM_at _ l h))
    (fun h => (congrFun (v27_eq m ρ c) (ix2 (0 : Fin 1) h)).trans (prepB_at _ h)) b h

theorem o_at (c : Dev nD) (hr : InRange m c) (b : Fin 8192) (h : Fin 2048) :
    Cert.Cell.gateT (V3 m ρ c main_v1) (V3 m ρ c main_v32) (V3 m ρ c main_v15) (V3 m ρ c main_v28) (V3 m ρ c main_v17) (V3 m ρ c main_v29) b h
      = (net m c).pre (net m c).Wox (net m c).box (net m c).Wom (net m c).bom b h :=
  gate_at ρ c hr _ _ _ _ _ _ _ _
    (fun k h => (congrFun (v15_eq m ρ c) (ix2 k h)).trans (prepX_at _ k h))
    (fun h => (congrFun (v28_eq m ρ c) (ix2 (0 : Fin 1) h)).trans (prepB_at _ h))
    (fun l h => (congrFun (v17_eq m ρ c) (ix2 l h)).trans (prepM_at _ l h))
    (fun h => (congrFun (v29_eq m ρ c) (ix2 (0 : Fin 1) h)).trans (prepB_at _ h)) b h

theorem g_at (c : Dev nD) (hr : InRange m c) (b : Fin 8192) (h : Fin 2048) :
    Cert.Cell.gateT (V3 m ρ c main_v1) (V3 m ρ c main_v32) (V3 m ρ c main_v19) (V3 m ρ c main_v30) (V3 m ρ c main_v21) (V3 m ρ c main_v31) b h
      = (net m c).pre (net m c).Wcx (net m c).bcx (net m c).Wcm (net m c).bcm b h :=
  gate_at ρ c hr _ _ _ _ _ _ _ _
    (fun k h => (congrFun (v19_eq m ρ c) (ix2 k h)).trans (prepX_at _ k h))
    (fun h => (congrFun (v30_eq m ρ c) (ix2 (0 : Fin 1) h)).trans (prepB_at _ h))
    (fun l h => (congrFun (v21_eq m ρ c) (ix2 l h)).trans (prepM_at _ l h))
    (fun h => (congrFun (v31_eq m ρ c) (ix2 (0 : Fin 1) h)).trans (prepB_at _ h)) b h

/-- The new cell state, as the second launch leaves it. -/
theorem cell_at (c : Dev nD) (hr : InRange m c) (b : Fin 8192) (h : Fin 2048) :
    Stage1.cellOf (V3 m ρ) c b h = (net m c).cx b h := by
  show Cert.Cell.cellAt _ _ _ (V3 m ρ c main_arg2 (ix2 b h)) = Cert.Cell.cellAt _ _ _ ((net m c).c0 b h)
  rw [f_at ρ c hr b h, i_at ρ c hr b h, g_at ρ c hr b h]
  exact congrArg _ (congrFun (arg2_eq m ρ c) (ix2 b h))

/-- The program's third result at `(b, h)`. -/
theorem cx_at (c : Dev nD) (hr : InRange m c) (b : Fin 8192) (h : Fin 2048) :
    W5 m ρ c (Proc.devRef .tc main_v33_1) (ix2 b h) = (net m c).cx b h :=
  (congrFun (Tail.cx_eq m ρ c) (ix2 b h)).trans ((Stage1.cx_at (V3 m ρ) c b h).trans (cell_at ρ c hr b h))

/-- The program's second result at `(b, h)`. -/
theorem hx_at (c : Dev nD) (hr : InRange m c) (b : Fin 8192) (h : Fin 2048) :
    W5 m ρ c (Proc.devRef .tc main_v33_0) (ix2 b h) = (net m c).hx b h := by
  refine (congrFun (Tail.hx_eq m ρ c) (ix2 b h)).trans ((Stage1.hx_at (V3 m ρ) c b h).trans ?_)
  show Cert.Cell.hiddenAt _ (Stage1.cellOf (V3 m ρ) c b h) = Cert.Cell.hiddenAt _ ((net m c).cx b h)
  rw [o_at ρ c hr b h, cell_at ρ c hr b h]

/-- The program's first result at `(b, o)`. -/
theorem out_at (c : Dev nD) (hr : InRange m c) (b : Fin 8192) (o : Fin 2) :
    W5 m ρ c (Proc.devRef .tc main_v38) (ix2 b o) = (net m c).out b o := by
  refine (congrFun (Tail.out_eq m ρ c) (ix2 b o)).trans ((Decode.decode_at _ _ _ b o).trans ?_)
  unfold Cert.Cell.Net.out
  refine Cert.Cell.aff_congr (fun b h => ?_) (fun o h => ?_) (fun o => ?_) b o
  · have e : W4 m ρ c (Proc.devRef .tc main_v33_0) = W5 m ρ c (Proc.devRef .tc main_v33_0) :=
      (W4_arr m ρ c 19).trans (Tail.hx_eq m ρ c).symm
    exact (congrFun e (ix2 b h)).trans (hx_at ρ c hr b h)
  · exact congrFun (Tail.arg24_eq m ρ c) (ix2 o h)
  · exact congrFun (Tail.arg25_eq m ρ c) (ix1 o)

end Cert.KernelIdeal.Step
-- ==== Proof.RefCell.lean ====
/-
  The reference program computes the step `Cell.Net` describes. Its host operations are read one at a time at an
  index: a `dot_general` against a transposed weight is the sum `∑ₖ x (b, k) · W (h, k)`, a bias broadcast twice
  (`[H] → [1, H] → [B, H]`) is `β h`, and jax's sigmoid arrives spelled out as `1 / (1 + e^(-z))`, which is the
  logistic function by definition once its literal `1.0` is read as the number one. The reference adds a gate's four
  summands as `((s + β) + u) + γ`; the cell's pre-activation groups them `(s + β) + (u + γ)`: associativity of `+`
  on the extended reals, with no condition on the entries. The embedded rows are the reference's own gather stage,
  carried whole: which row a batch index reads is never opened here.
-/
import proofs.«400341_j38800734552172_3_alg».proof.Proof.Gen.ReferenceIdeal.Read
import proofs.«400341_j38800734552172_3_alg».proof.Proof.CellArrays
import Idealize.ShloMosaic.Lib.Pipeline.Value
import Idealize.ShloMosaic.Lib.ValueIdx
import Idealize.ShloMosaic.Lib.IdealHost
import Idealize.ShloMosaic.PureOps.Ideal.Laws

-- the arrays' coordinates run to 8192, 2048 and 1024: literal index arithmetic recurses past the default depth
set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.ReferenceIdeal.RefCell

open Cert.ReferenceIdeal Cert.ReferenceIdeal.Gen Cert.ReferenceIdeal.Read Idealize.ShloMosaic.StableHlo

variable (x0 : (⟨S8192, .i32⟩ : BufTy).Contents (Elt Ideal)) (x1 x2 : (⟨S8192x2048, .f32⟩ : BufTy).Contents (Elt Ideal))
  (x3 : (⟨S50257x1024, .f32⟩ : BufTy).Contents (Elt Ideal))
  (x4 : (⟨S2048x1024, .f32⟩ : BufTy).Contents (Elt Ideal)) (x5 : (⟨S2048, .f32⟩ : BufTy).Contents (Elt Ideal))
  (x6 : (⟨S2048x2048, .f32⟩ : BufTy).Contents (Elt Ideal)) (x7 : (⟨S2048, .f32⟩ : BufTy).Contents (Elt Ideal))
  (x8 : (⟨S2048x1024, .f32⟩ : BufTy).Contents (Elt Ideal)) (x9 : (⟨S2048, .f32⟩ : BufTy).Contents (Elt Ideal))
  (x10 : (⟨S2048x2048, .f32⟩ : BufTy).Contents (Elt Ideal)) (x11 : (⟨S2048, .f32⟩ : BufTy).Contents (Elt Ideal))
  (x12 : (⟨S2048x1024, .f32⟩ : BufTy).Contents (Elt Ideal)) (x13 : (⟨S2048, .f32⟩ : BufTy).Contents (Elt Ideal))
  (x14 : (⟨S2048x2048, .f32⟩ : BufTy).Contents (Elt Ideal)) (x15 : (⟨S2048, .f32⟩ : BufTy).Contents (Elt Ideal))
  (x16 : (⟨S2048x1024, .f32⟩ : BufTy).Contents (Elt Ideal)) (x17 : (⟨S2048, .f32⟩ : BufTy).Contents (Elt Ideal))
  (x18 : (⟨S2048x2048, .f32⟩ : BufTy).Contents (Elt Ideal)) (x19 : (⟨S2048, .f32⟩ : BufTy).Contents (Elt Ideal))
  (x20 : (⟨S2048x1024, .f32⟩ : BufTy).Contents (Elt Ideal)) (x21 : (⟨S2048, .f32⟩ : BufTy).Contents (Elt Ideal))
  (x22 : (⟨S2048x2048, .f32⟩ : BufTy).Contents (Elt Ideal)) (x23 : (⟨S2048, .f32⟩ : BufTy).Contents (Elt Ideal))
  (x24 : (⟨S2x2048, .f32⟩ : BufTy).Contents (Elt Ideal)) (x25 : (⟨S2, .f32⟩ : BufTy).Contents (Elt Ideal))

/-- The step's data as the reference holds it: the rows its gather stage produced, and its argument arrays. -/
abbrev net : Cert.Cell.Net :=
  Cert.Cell.netOf (val_main_v6 (F := Ideal) x0 x3) x1 x2 x4 x5 x6 x7 x8 x9 x10 x11 x12 x13 x14 x15 x16 x17 x18 x19 x20 x21
    x22 x23 x24 x25

/-! ### Indices by their coordinates -/

/-- A rank-2 index whose coordinates are `a` and `c` is `ix2 a c`. -/
theorem idx2_eq {n0 n1 : ℕ} (j : (⟨2, ![n0, n1]⟩ : Shape).Idx) (a : Fin n0) (c : Fin n1) (h0 : j 0 = a)
    (h1 : j 1 = c) : j = ix2 a c := by
  funext d; match d with | ⟨0, _⟩ => exact h0 | ⟨1, _⟩ => exact h1

/-- A rank-1 index whose coordinate is `a` is `ix1 a`. -/
theorem idx1_eq {n : ℕ} (j : (⟨1, ![n]⟩ : Shape).Idx) (a : Fin n) (h0 : j 0 = a) : j = ix1 a := by
  funext d; match d with | ⟨0, _⟩ => exact h0

/-! ### The two shapes every affine map is built from

  A product `M · Wᵀ` is a `dot_general` of `M` with the transpose of `W`: its entry `(b, h)` is the sum over `k` of
  `M` at the index with coordinates `(b, k)` times the transpose at `(k, h)`, which reads `W` at `(h, k)`. A bias is
  broadcast `[H] → [1, H] → [B, H]`: its entry `(b, h)` reads the vector at `h`. Both are stated over any stages that
  read this way, the index functions being parameters: what they do at `(b, h)` is a fact about coordinates, true by
  computing them. -/

/-- Entry `(b, h)` of a product against a transposed weight is `∑ₖ M (b, k) · W (h, k)`. -/
theorem dot_read {B H K : ℕ} {M : Cert.Cell.A2 B K} {W : Cert.Cell.A2 H K} {WT : Cert.Cell.A2 K H}
    {D : Cert.Cell.A2 B H} {li : (⟨2, ![B, H]⟩ : Shape).Idx → Fin K → (⟨2, ![B, K]⟩ : Shape).Idx}
    {ri : (⟨2, ![B, H]⟩ : Shape).Idx → Fin K → (⟨2, ![K, H]⟩ : Shape).Idx}
    {ti : (⟨2, ![K, H]⟩ : Shape).Idx → (⟨2, ![H, K]⟩ : Shape).Idx}
    (hD : ∀ i, D i = ∑ k : Fin K, M (li i k) * WT (ri i k)) (hWT : ∀ i, WT i = W (ti i)) (b : Fin B) (h : Fin H)
    (hl : ∀ k, li (ix2 b h) k = ix2 b k := by intro k; exact idx2_eq _ _ _ rfl rfl)
    (hr : ∀ k, ti (ri (ix2 b h) k) = ix2 h k := by intro k; exact idx2_eq _ _ _ rfl rfl) :
    D (ix2 b h) = ∑ k : Fin K, M (ix2 b k) * W (ix2 h k) := by
  rw [hD]
  exact Finset.sum_congr rfl fun k _ => by rw [hWT, hl k, hr k]

/-- Entry `(b, h)` of a bias vector broadcast to a row and then to the whole matrix is the vector's entry `h`. -/
theorem bias_read {B H : ℕ} {β : Cert.Cell.A1 H} {β1 : Cert.Cell.A2 1 H} {β2 : Cert.Cell.A2 B H}
    {i2 : (⟨2, ![B, H]⟩ : Shape).Idx → (⟨2, ![1, H]⟩ : Shape).Idx}
    {i1 : (⟨2, ![1, H]⟩ : Shape).Idx → (⟨1, ![H]⟩ : Shape).Idx}
    (h2 : ∀ i, β2 i = β1 (i2 i)) (h1 : ∀ i, β1 i = β (i1 i)) (b : Fin B) (h : Fin H)
    (hi : i1 (i2 (ix2 b h)) = ix1 h := by exact idx1_eq _ _ rfl) : β2 (ix2 b h) = β (ix1 h) := by
  rw [h2, h1, hi]

/-- Entry `(b, h)` of `M · Wᵀ + β`, computed as a product stage plus a broadcast stage, is `Cell.aff`'s entry. -/
theorem aff_read {B H K : ℕ} {M : Cert.Cell.A2 B K} {W : Cert.Cell.A2 H K} {WT : Cert.Cell.A2 K H}
    {D S β2 : Cert.Cell.A2 B H} {β : Cert.Cell.A1 H} {β1 : Cert.Cell.A2 1 H}
    {li : (⟨2, ![B, H]⟩ : Shape).Idx → Fin K → (⟨2, ![B, K]⟩ : Shape).Idx}
    {ri : (⟨2, ![B, H]⟩ : Shape).Idx → Fin K → (⟨2, ![K, H]⟩ : Shape).Idx}
    {ti : (⟨2, ![K, H]⟩ : Shape).Idx → (⟨2, ![H, K]⟩ : Shape).Idx}
    {i2 : (⟨2, ![B, H]⟩ : Shape).Idx → (⟨2, ![1, H]⟩ : Shape).Idx}
    {i1 : (⟨2, ![1, H]⟩ : Shape).Idx → (⟨1, ![H]⟩ : Shape).Idx}
    (hS : ∀ i, S i = FloatOps.addf (F := Ideal) (φ := .f32) (D i) (β2 i))
    (hD : ∀ i, D i = ∑ k : Fin K, M (li i k) * WT (ri i k)) (hWT : ∀ i, WT i = W (ti i))
    (h2 : ∀ i, β2 i = β1 (i2 i)) (h1 : ∀ i, β1 i = β (i1 i)) (b : Fin B) (h : Fin H)
    (hl : ∀ k, li (ix2 b h) k = ix2 b k := by intro k; exact idx2_eq _ _ _ rfl rfl)
    (hr : ∀ k, ti (ri (ix2 b h) k) = ix2 h k := by intro k; exact idx2_eq _ _ _ rfl rfl)
    (hi : i1 (i2 (ix2 b h)) = ix1 h := by exact idx1_eq _ _ rfl) :
    S (ix2 b h) = Cert.Cell.aff (fun b k => M (ix2 b k)) (fun h k => W (ix2 h k)) (fun h => β (ix1 h)) b h := by
  rw [hS, dot_read hD hWT b h hl hr, bias_read h2 h1 b h hi]
  rfl

/-! ### The multiplicative state -/

/-- `x W_mxᵀ + b_mx` at `(b, h)`. -/
theorem mx_at (b : Fin 8192) (h : Fin 2048) :
    val_main_v11 (F := Ideal) x0 x3 x4 x5 (ix2 b h)
      = Cert.Cell.aff (fun b k => val_main_v6 (F := Ideal) x0 x3 (ix2 b k)) (fun h k => x4 (ix2 h k))
          (fun h => x5 (ix1 h)) b h :=
  aff_read (val_main_v11_apply x0 x3 x4 x5) (val_main_v8_apply x0 x3 x4) (val_main_v7_apply x4)
    (val_main_v10_apply x5) (val_main_v9_apply x5) b h

/-- `h₀ W_mhᵀ + b_mh` at `(b, h)`. -/
theorem mh_at (b : Fin 8192) (h : Fin 2048) :
    val_main_v16 (F := Ideal) x1 x6 x7 (ix2 b h)
      = Cert.Cell.aff (fun b l => x1 (ix2 b l)) (fun h l => x6 (ix2 h l)) (fun h => x7 (ix1 h)) b h :=
  aff_read (val_main_v16_apply x1 x6 x7) (val_main_v13_apply x1 x6) (val_main_v12_apply x6)
    (val_main_v15_apply x7) (val_main_v14_apply x7) b h

/-- The multiplicative state at `(b, h)`. -/
theorem m_at (b : Fin 8192) (h : Fin 2048) :
    val_main_v17 (F := Ideal) x0 x1 x3 x4 x5 x6 x7 (ix2 b h)
      = (net x0 x1 x2 x3 x4 x5 x6 x7 x8 x9 x10 x11 x12 x13 x14 x15 x16 x17 x18 x19 x20 x21 x22 x23 x24 x25).m b h := by
  rw [val_main_v17_apply, mx_at, mh_at]
  rfl

/-! ### The four gates' pre-activations

  Each gate adds four summands: `x W_xᵀ`, its bias, `m W_mᵀ` and its bias. The reference adds them in the order
  `((s + β) + u) + γ`; the cell's `pre` groups them `(s + β) + (u + γ)`. -/

/-- `x W_fxᵀ + b_fx` at `(b, h)`. -/
theorem fx_at (b : Fin 8192) (h : Fin 2048) :
    val_main_v22 (F := Ideal) x0 x3 x8 x9 (ix2 b h)
      = Cert.Cell.aff (fun b k => val_main_v6 (F := Ideal) x0 x3 (ix2 b k)) (fun h k => x8 (ix2 h k))
          (fun h => x9 (ix1 h)) b h :=
  aff_read (val_main_v22_apply x0 x3 x8 x9) (val_main_v19_apply x0 x3 x8) (val_main_v18_apply x8)
    (val_main_v21_apply x9) (val_main_v20_apply x9) b h

/-- The forget gate's pre-activation at `(b, h)`. -/
theorem f_pre_at (b : Fin 8192) (h : Fin 2048) :
    val_main_v28 (F := Ideal) x0 x1 x3 x4 x5 x6 x7 x8 x9 x10 x11 (ix2 b h)
      = (net x0 x1 x2 x3 x4 x5 x6 x7 x8 x9 x10 x11 x12 x13 x14 x15 x16 x17 x18 x19 x20 x21 x22 x23 x24 x25).pre
          (fun h k => x8 (ix2 h k)) (fun h => x9 (ix1 h)) (fun h l => x10 (ix2 h l)) (fun h => x11 (ix1 h)) b h := by
  rw [val_main_v28_apply, val_main_v25_apply, fx_at,
    dot_read (val_main_v24_apply x0 x1 x3 x4 x5 x6 x7 x10) (val_main_v23_apply x10) b h,
    bias_read (val_main_v27_apply x11) (val_main_v26_apply x11) b h]
  simp only [m_at x0 x1 x2 x3 x4 x5 x6 x7 x8 x9 x10 x11 x12 x13 x14 x15 x16 x17 x18 x19 x20 x21 x22 x23 x24 x25]
  exact Cert.Cell.pre_assoc _ _ _ _

/-- `x W_ixᵀ + b_ix` at `(b, h)`. -/
theorem ix_at (b : Fin 8192) (h : Fin 2048) :
    val_main_v39 (F := Ideal) x0 x3 x12 x13 (ix2 b h)
      = Cert.Cell.aff (fun b k => val_main_v6 (F := Ideal) x0 x3 (ix2 b k)) (fun h k => x12 (ix2 h k))
          (fun h => x13 (ix1 h)) b h :=
  aff_read (val_main_v39_apply x0 x3 x12 x13) (val_main_v36_apply x0 x3 x12) (val_main_v35_apply x12)
    (val_main_v38_apply x13) (val_main_v37_apply x13) b h

/-- The input gate's pre-activation at `(b, h)`. -/
theorem i_pre_at (b : Fin 8192) (h : Fin 2048) :
    val_main_v45 (F := Ideal) x0 x1 x3 x4 x5 x6 x7 x12 x13 x14 x15 (ix2 b h)
      = (net x0 x1 x2 x3 x4 x5 x6 x7 x8 x9 x10 x11 x12 x13 x14 x15 x16 x17 x18 x19 x20 x21 x22 x23 x24 x25).pre
          (fun h k => x12 (ix2 h k)) (fun h => x13 (ix1 h)) (fun h l => x14 (ix2 h l)) (fun h => x15 (ix1 h)) b h := by
  rw [val_main_v45_apply, val_main_v42_apply, ix_at,
    dot_read (val_main_v41_apply x0 x1 x3 x4 x5 x6 x7 x14) (val_main_v40_apply x14) b h,
    bias_read (val_main_v44_apply x15) (val_main_v43_apply x15) b h]
  simp only [m_at x0 x1 x2 x3 x4 x5 x6 x7 x8 x9 x10 x11 x12 x13 x14 x15 x16 x17 x18 x19 x20 x21 x22 x23 x24 x25]
  exact Cert.Cell.pre_assoc _ _ _ _

/-- `x W_oxᵀ + b_ox` at `(b, h)`. -/
theorem ox_at (b : Fin 8192) (h : Fin 2048) :
    val_main_v56 (F := Ideal) x0 x3 x16 x17 (ix2 b h)
      = Cert.Cell.aff (fun b k => val_main_v6 (F := Ideal) x0 x3 (ix2 b k)) (fun h k => x16 (ix2 h k))
          (fun h => x17 (ix1 h)) b h :=
  aff_read (val_main_v56_apply x0 x3 x16 x17) (val_main_v53_apply x0 x3 x16) (val_main_v52_apply x16)
    (val_main_v55_apply x17) (val_main_v54_apply x17) b h

/-- The output gate's pre-activation at `(b, h)`. -/
theorem o_pre_at (b : Fin 8192) (h : Fin 2048) :
    val_main_v62 (F := Ideal) x0 x1 x3 x4 x5 x6 x7 x16 x17 x18 x19 (ix2 b h)
      = (net x0 x1 x2 x3 x4 x5 x6 x7 x8 x9 x10 x11 x12 x13 x14 x15 x16 x17 x18 x19 x20 x21 x22 x23 x24 x25).pre
          (fun h k => x16 (ix2 h k)) (fun h => x17 (ix1 h)) (fun h l => x18 (ix2 h l)) (fun h => x19 (ix1 h)) b h := by
  rw [val_main_v62_apply, val_main_v59_apply, ox_at,
    dot_read (val_main_v58_apply x0 x1 x3 x4 x5 x6 x7 x18) (val_main_v57_apply x18) b h,
    bias_read (val_main_v61_apply x19) (val_main_v60_apply x19) b h]
  simp only [m_at x0 x1 x2 x3 x4 x5 x6 x7 x8 x9 x10 x11 x12 x13 x14 x15 x16 x17 x18 x19 x20 x21 x22 x23 x24 x25]
  exact Cert.Cell.pre_assoc _ _ _ _

/-- `x W_cxᵀ + b_cx` at `(b, h)` (the candidate's input part). -/
theorem gx_at (b : Fin 8192) (h : Fin 2048) :
    val_main_v73 (F := Ideal) x0 x3 x20 x21 (ix2 b h)
      = Cert.Cell.aff (fun b k => val_main_v6 (F := Ideal) x0 x3 (ix2 b k)) (fun h k => x20 (ix2 h k))
          (fun h => x21 (ix1 h)) b h :=
  aff_read (val_main_v73_apply x0 x3 x20 x21) (val_main_v70_apply x0 x3 x20) (val_main_v69_apply x20)
    (val_main_v72_apply x21) (val_main_v71_apply x21) b h

/-- The candidate's pre-activation at `(b, h)`. -/
theorem g_pre_at (b : Fin 8192) (h : Fin 2048) :
    val_main_v79 (F := Ideal) x0 x1 x3 x4 x5 x6 x7 x20 x21 x22 x23 (ix2 b h)
      = (net x0 x1 x2 x3 x4 x5 x6 x7 x8 x9 x10 x11 x12 x13 x14 x15 x16 x17 x18 x19 x20 x21 x22 x23 x24 x25).pre
          (fun h k => x20 (ix2 h k)) (fun h => x21 (ix1 h)) (fun h l => x22 (ix2 h l)) (fun h => x23 (ix1 h)) b h := by
  rw [val_main_v79_apply, val_main_v76_apply, gx_at,
    dot_read (val_main_v75_apply x0 x1 x3 x4 x5 x6 x7 x22) (val_main_v74_apply x22) b h,
    bias_read (val_main_v78_apply x23) (val_main_v77_apply x23) b h]
  simp only [m_at x0 x1 x2 x3 x4 x5 x6 x7 x8 x9 x10 x11 x12 x13 x14 x15 x16 x17 x18 x19 x20 x21 x22 x23 x24 x25]
  exact Cert.Cell.pre_assoc _ _ _ _

/-! ### The three sigmoids

  The reference spells `σ z` out as `1 / (1 + e^(-z))`, each `1` a scalar literal broadcast to the whole array. Read at
  an index both literals are the number one, and the quotient is the logistic function by definition. -/

/-- The forget gate at `(b, h)` is the logistic function of its pre-activation. -/
theorem f_gate_at (b : Fin 8192) (h : Fin 2048) :
    val_main_v34 (F := Ideal) x0 x1 x3 x4 x5 x6 x7 x8 x9 x10 x11 (ix2 b h)
      = Ideal.logistic (val_main_v28 (F := Ideal) x0 x1 x3 x4 x5 x6 x7 x8 x9 x10 x11 (ix2 b h)) := by
  rw [val_main_v34_apply, val_main_v33_apply, val_main_cst_1_apply, val_main_v32_apply, val_main_v31_apply,
    val_main_cst_apply, val_main_v30_apply, val_main_v29_apply, Ideal.hostDivf_def, Ideal.ofBits_def,
    Ideal.ofBits_one_f32, Ideal.addf_def, Ideal.hostUnary_exp_def, Ideal.hostNegf_def, Ideal.negf_def]
  exact Cert.Cell.logistic_quot _

/-- The input gate at `(b, h)` is the logistic function of its pre-activation. -/
theorem i_gate_at (b : Fin 8192) (h : Fin 2048) :
    val_main_v51 (F := Ideal) x0 x1 x3 x4 x5 x6 x7 x12 x13 x14 x15 (ix2 b h)
      = Ideal.logistic (val_main_v45 (F := Ideal) x0 x1 x3 x4 x5 x6 x7 x12 x13 x14 x15 (ix2 b h)) := by
  rw [val_main_v51_apply, val_main_v50_apply, val_main_cst_3_apply, val_main_v49_apply, val_main_v48_apply,
    val_main_cst_2_apply, val_main_v47_apply, val_main_v46_apply, Ideal.hostDivf_def, Ideal.ofBits_def,
    Ideal.ofBits_one_f32, Ideal.addf_def, Ideal.hostUnary_exp_def, Ideal.hostNegf_def, Ideal.negf_def]
  exact Cert.Cell.logistic_quot _

/-- The output gate at `(b, h)` is the logistic function of its pre-activation. -/
theorem o_gate_at (b : Fin 8192) (h : Fin 2048) :
    val_main_v68 (F := Ideal) x0 x1 x3 x4 x5 x6 x7 x16 x17 x18 x19 (ix2 b h)
      = Ideal.logistic (val_main_v62 (F := Ideal) x0 x1 x3 x4 x5 x6 x7 x16 x17 x18 x19 (ix2 b h)) := by
  rw [val_main_v68_apply, val_main_v67_apply, val_main_cst_5_apply, val_main_v66_apply, val_main_v65_apply,
    val_main_cst_4_apply, val_main_v64_apply, val_main_v63_apply, Ideal.hostDivf_def, Ideal.ofBits_def,
    Ideal.ofBits_one_f32, Ideal.addf_def, Ideal.hostUnary_exp_def, Ideal.hostNegf_def, Ideal.negf_def]
  exact Cert.Cell.logistic_quot _

/-! ### The three results -/

/-- The reference's third result (the new cell state) at `(b, h)`. -/
theorem cx_at (b : Fin 8192) (h : Fin 2048) :
    val_main_v83 (F := Ideal) x0 x1 x2 x3 x4 x5 x6 x7 x8 x9 x10 x11 x12 x13 x14 x15 x20 x21 x22 x23 (ix2 b h) = (net x0 x1 x2 x3 x4 x5 x6 x7 x8 x9 x10 x11 x12 x13 x14 x15 x16 x17 x18 x19 x20 x21 x22 x23 x24 x25).cx b h := by
  rw [val_main_v83_apply, val_main_v81_apply, val_main_v82_apply, val_main_v80_apply, f_gate_at, i_gate_at,
    f_pre_at x0 x1 x2 x3 x4 x5 x6 x7 x8 x9 x10 x11 x12 x13 x14 x15 x16 x17 x18 x19 x20 x21 x22 x23 x24 x25,
    i_pre_at x0 x1 x2 x3 x4 x5 x6 x7 x8 x9 x10 x11 x12 x13 x14 x15 x16 x17 x18 x19 x20 x21 x22 x23 x24 x25,
    g_pre_at x0 x1 x2 x3 x4 x5 x6 x7 x8 x9 x10 x11 x12 x13 x14 x15 x16 x17 x18 x19 x20 x21 x22 x23 x24 x25]
  rfl

/-- The reference's second result (the new hidden state) at `(b, h)`. -/
theorem hx_at (b : Fin 8192) (h : Fin 2048) :
    val_main_v85 (F := Ideal) x0 x1 x2 x3 x4 x5 x6 x7 x8 x9 x10 x11 x12 x13 x14 x15 x16 x17 x18 x19 x20 x21 x22 x23 (ix2 b h) = (net x0 x1 x2 x3 x4 x5 x6 x7 x8 x9 x10 x11 x12 x13 x14 x15 x16 x17 x18 x19 x20 x21 x22 x23 x24 x25).hx b h := by
  rw [val_main_v85_apply, val_main_v84_apply, o_gate_at,
    o_pre_at x0 x1 x2 x3 x4 x5 x6 x7 x8 x9 x10 x11 x12 x13 x14 x15 x16 x17 x18 x19 x20 x21 x22 x23 x24 x25,
    cx_at x0 x1 x2 x3 x4 x5 x6 x7 x8 x9 x10 x11 x12 x13 x14 x15 x16 x17 x18 x19 x20 x21 x22 x23 x24 x25]
  rfl

/-- The reference's first result (the decoded output) at `(b, o)`. -/
theorem out_at (b : Fin 8192) (o : Fin 2) :
    val_main_v90 (F := Ideal) x0 x1 x2 x3 x4 x5 x6 x7 x8 x9 x10 x11 x12 x13 x14 x15 x16 x17 x18 x19 x20 x21 x22 x23 x24 x25 (ix2 b o) = (net x0 x1 x2 x3 x4 x5 x6 x7 x8 x9 x10 x11 x12 x13 x14 x15 x16 x17 x18 x19 x20 x21 x22 x23 x24 x25).out b o := by
  rw [aff_read (val_main_v90_apply x0 x1 x2 x3 x4 x5 x6 x7 x8 x9 x10 x11 x12 x13 x14 x15 x16 x17 x18 x19 x20 x21 x22 x23 x24 x25)
    (val_main_v87_apply x0 x1 x2 x3 x4 x5 x6 x7 x8 x9 x10 x11 x12 x13 x14 x15 x16 x17 x18 x19 x20 x21 x22 x23 x24)
    (val_main_v86_apply x24) (val_main_v89_apply x25) (val_main_v88_apply x25) b o]
  simp only [hx_at x0 x1 x2 x3 x4 x5 x6 x7 x8 x9 x10 x11 x12 x13 x14 x15 x16 x17 x18 x19 x20 x21 x22 x23 x24 x25]
  rfl

end Cert.ReferenceIdeal.RefCell
-- ==== Proof.lean ====
/-
  The certificate: a multiplicative-LSTM step computed by two kernel launches and a host decoder equals the plain
  host computation of the same step, over the extended reals, whenever every float input is finite and every embedding
  index is in `[-V, V)` for the table's height `V = 50257` (the range in which the reference's indexing is defined).

  Both programs end with their three results at the quantities of ONE `Cell.Net` — decoded output, new hidden state,
  new cell state — built from the argument arrays and the gathered embedding rows:
  the kernel program by its launches' block-to-array legs and the reads of its host stretches (KernelCell), the
  reference by its operations read one at a time (RefCell). The two programs gather with the same operation at the
  same moved index, so their rows are one term. The index range is used once: it makes the kernel's out-of-range fill
  vacuous. Finiteness of the floats is never used: the only law that joins the two sides is associativity of `+`.
  The three frames are the generated ones; the kernel's idealization has an empty ledger.
-/
import proofs.«400341_j38800734552172_3_alg».proof.Defs
import proofs.«400341_j38800734552172_3_alg».proof.Proof.Gen.Kernel
import proofs.«400341_j38800734552172_3_alg».proof.Proof.Gen.Kernel.Skeleton
import proofs.«400341_j38800734552172_3_alg».proof.Proof.Gen.Kernel.Launch
import proofs.«400341_j38800734552172_3_alg».proof.Proof.Gen.Kernel.Points
import proofs.«400341_j38800734552172_3_alg».proof.Proof.Gen.Kernel.Frame
import proofs.«400341_j38800734552172_3_alg».proof.Proof.Gen.KernelIdeal
import proofs.«400341_j38800734552172_3_alg».proof.Proof.Gen.KernelIdeal.Skeleton
import proofs.«400341_j38800734552172_3_alg».proof.Proof.Gen.KernelIdeal.Launch
import proofs.«400341_j38800734552172_3_alg».proof.Proof.Gen.KernelIdeal.Points
import proofs.«400341_j38800734552172_3_alg».proof.Proof.Gen.KernelIdeal.Frame
import proofs.«400341_j38800734552172_3_alg».proof.Proof.Gen.ReferenceIdeal
import proofs.«400341_j38800734552172_3_alg».proof.Proof.Gen.Pre_finite_inputs
import proofs.«400341_j38800734552172_3_alg».proof.Proof.Gen.ReferenceIdeal.Run
import proofs.«400341_j38800734552172_3_alg».proof.Proof.Gen.ReferenceIdeal.Read
import proofs.«400341_j38800734552172_3_alg».proof.Proof.KernelCell
import proofs.«400341_j38800734552172_3_alg».proof.Proof.RefCell
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The two programs' embedded rows are one term: the same gather at the same moved index. -/
theorem rows_eq (inp : IVec Cert.KernelIdeal.S8192 32) (emb : FVec Ideal Cert.KernelIdeal.S50257x1024 .f32) :
    Cert.ReferenceIdeal.Read.val_main_v6 (F := Ideal) inp emb = Cert.KernelIdeal.Rows.rows inp emb := rfl

/-- The precondition puts every index word in `[-V, V)`. -/
theorem inRange (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Step.InRange m c := fun k =>
  Cert.Pre_finite_inputs.Range.of_part7 _ _ _ (congrFun (hpre c) ix0) k

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The three results both runs end at: the step's decoded output, hidden state and cell state, of the kernel
    program's data, as arrays. -/
abbrev outArr (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v38) :=
  fun i => (Cert.KernelIdeal.Step.net m c).out ⟨(i 0).val, idx2_lt0 i⟩ ⟨(i 1).val, idx2_lt1 i⟩
abbrev hxArr (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v33_0) :=
  fun i => (Cert.KernelIdeal.Step.net m c).hx ⟨(i 0).val, idx2_lt0 i⟩ ⟨(i 1).val, idx2_lt1 i⟩
abbrev cxArr (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v33_1) :=
  fun i => (Cert.KernelIdeal.Step.net m c).cx ⟨(i 0).val, idx2_lt0 i⟩ ⟨(i 1).val, idx2_lt1 i⟩

/-- The kernel program's three result arrays at the end of its run. -/
theorem kernel_results (m : (ℓ : Loc Cert.KernelIdeal.nD Cert.KernelIdeal.τ Cert.KernelIdeal.sig) → Buf (Elt Ideal) ℓ) (ρ : Dev Cert.KernelIdeal.nD → PrngReg)
    (c : Dev Cert.KernelIdeal.nD) (hr : Cert.KernelIdeal.Step.InRange m c) :
    Cert.KernelIdeal.Gen.W5 m ρ c (Proc.devRef .tc Cert.KernelIdeal.main_v38) = outArr m c
      ∧ Cert.KernelIdeal.Gen.W5 m ρ c (Proc.devRef .tc Cert.KernelIdeal.main_v33_0) = hxArr m c
      ∧ Cert.KernelIdeal.Gen.W5 m ρ c (Proc.devRef .tc Cert.KernelIdeal.main_v33_1) = cxArr m c := by
  refine ⟨funext fun i => ?_, funext fun i => ?_, funext fun i => ?_⟩
  · obtain ⟨b, o, rfl⟩ : ∃ (b : Fin 8192) (o : Fin 2), i = ix2 b o := ⟨i 0, i 1, eq_ix2 i⟩
    exact Cert.KernelIdeal.Step.out_at ρ c hr b o
  · obtain ⟨b, h, rfl⟩ : ∃ (b : Fin 8192) (h : Fin 2048), i = ix2 b h := ⟨i 0, i 1, eq_ix2 i⟩
    exact Cert.KernelIdeal.Step.hx_at ρ c hr b h
  · obtain ⟨b, h, rfl⟩ : ∃ (b : Fin 8192) (h : Fin 2048), i = ix2 b h := ⟨i 0, i 1, eq_ix2 i⟩
    exact Cert.KernelIdeal.Step.cx_at ρ c hr b h

-- the 26 argument arrays are rewritten through the agreement one by one, each against the result terms
set_option maxHeartbeats 4000000 in
/-- Both programs' results are the step's decoded output, hidden state and cell state of the kernel program's data;
    the reference's data are the same once its arguments are read through the agreement. -/
theorem algebraic : Cert.algebraic_KernelIdeal_ReferenceIdeal := by
  intro m ρ m' ρ' hpre hagree
  refine ⟨outArr m, hxArr m, cxArr m, ?_, ?_⟩
  · refine (θ_run Cert.KernelIdeal.defs _ _).mono (fun r h c => ?_) (Cert.KernelIdeal.Gen.run_results (F := Ideal) m ρ)
    obtain ⟨h0, h1, h2, hargs⟩ := h c
    obtain ⟨e0, e1, e2⟩ := kernel_results m ρ c (inRange m hpre c)
    exact ⟨h0.trans e0, h1.trans e1, h2.trans e2, hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16, a17, a18, a19, a20, a21, a22, a23, a24, a25⟩ := hagree c
    refine ⟨h0.trans ?_, h1.trans ?_, h2.trans ?_, hargs⟩
    · rw [Cert.ReferenceIdeal.Read.val_main_v90_eq, a0, a1, a2, a3, a4, a5, a6, a7, a8, a9, a10, a11, a12, a13, a14, a15, a16, a17, a18, a19, a20, a21, a22, a23, a24, a25]
      funext i
      obtain ⟨b, o, rfl⟩ : ∃ (b : Fin 8192) (o : Fin 2), i = ix2 b o := ⟨i 0, i 1, eq_ix2 i⟩
      exact Cert.ReferenceIdeal.RefCell.out_at _ _ _ _ _ _ _ _ _ _ _ _ _ _ _ _ _ _ _ _ _ _ _ _ _ _ b o
    · rw [Cert.ReferenceIdeal.Read.val_main_v85_eq, a0, a1, a2, a3, a4, a5, a6, a7, a8, a9, a10, a11, a12, a13, a14, a15, a16, a17, a18, a19, a20, a21, a22, a23]
      funext i
      obtain ⟨b, h, rfl⟩ : ∃ (b : Fin 8192) (h : Fin 2048), i = ix2 b h := ⟨i 0, i 1, eq_ix2 i⟩
      exact Cert.ReferenceIdeal.RefCell.hx_at _ _ _ _ _ _ _ _ _ _ _ _ _ _ _ _ _ _ _ _ _ _ _ _
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25)) b h
    · rw [Cert.ReferenceIdeal.Read.val_main_v83_eq, a0, a1, a2, a3, a4, a5, a6, a7, a8, a9, a10, a11, a12, a13, a14, a15, a20, a21, a22, a23]
      funext i
      obtain ⟨b, h, rfl⟩ : ∃ (b : Fin 8192) (h : Fin 2048), i = ix2 b h := ⟨i 0, i 1, eq_ix2 i⟩
      exact Cert.ReferenceIdeal.RefCell.cx_at _ _ _ _ _ _ _ _ _ _ _ _ _ _ _ _
        (m ((c.tc : Thread Cert.KernelIdeal.nD Cert.KernelIdeal.τ).loc Cert.KernelIdeal.main_arg16))
        (m ((c.tc : Thread Cert.KernelIdeal.nD Cert.KernelIdeal.τ).loc Cert.KernelIdeal.main_arg17))
        (m ((c.tc : Thread Cert.KernelIdeal.nD Cert.KernelIdeal.τ).loc Cert.KernelIdeal.main_arg18))
        (m ((c.tc : Thread Cert.KernelIdeal.nD Cert.KernelIdeal.τ).loc Cert.KernelIdeal.main_arg19)) _ _ _ _
        (m ((c.tc : Thread Cert.KernelIdeal.nD Cert.KernelIdeal.τ).loc Cert.KernelIdeal.main_arg24))
        (m ((c.tc : Thread Cert.KernelIdeal.nD Cert.KernelIdeal.τ).loc Cert.KernelIdeal.main_arg25)) b h

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
